-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v7)) (v1 : (c : Dev Cert.KernelIdeal.nD) → Buf (Elt Ideal) ((c.tc : Thread Cert.KernelIdeal.nD Cert.KernelIdeal.τ).loc Cert.KernelIdeal.main_v5_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_v5_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_v11) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x256 : Shape := ⟨2, ![10000, 256]⟩
abbrev S10000x10000 : Shape := ⟨2, ![10000, 10000]⟩
abbrev S2000x10000 : Shape := ⟨2, ![2000, 10000]⟩
abbrev S10000x2000 : Shape := ⟨2, ![10000, 2000]⟩
abbrev S256x256 : Shape := ⟨2, ![256, 256]⟩
abbrev S256 : Shape := ⟨1, ![256]⟩
abbrev S768x256 : Shape := ⟨2, ![768, 256]⟩
abbrev S_ : Shape := ⟨0, ![]⟩

class Facts : Prop where
  bcast_S_S10000x256 : S_.BroadcastsInDim S10000x256 (![] : Fin 0 → Fin S10000x256.rank)
  reducesTo_S10000x256_S_d0_1 : S10000x256.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S2000x10000 : S_.BroadcastsInDim S2000x10000 (![] : Fin 0 → Fin S2000x10000.rank)
  reducesTo_S2000x10000_S_d0_1 : S2000x10000.ReducesTo [0, 1] S_
  bcast_S_S10000x2000 : S_.BroadcastsInDim S10000x2000 (![] : Fin 0 → Fin S10000x2000.rank)
  reducesTo_S10000x2000_S_d0_1 : S10000x2000.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S768x256 : S_.BroadcastsInDim S768x256 (![] : Fin 0 → Fin S768x256.rank)
  reducesTo_S768x256_S_d0_1 : S768x256.ReducesTo [0, 1] S_

variable [Facts]

def fn_part3 {F : FTy → Type} [FloatOps F] (main_arg11 : FVec F S256 .f32) (main_v48 : IVec S_ 1) (main_v49 : FVec F S768x256 .f32) (main_v50 : FVec F S768x256 .f32) : IVec S_ 1 :=
  let main_v51 : IVec S768x256 1 := cmpf .olt main_v49 main_v50
  let main_c_19 : IVec S_ 1 := constantI S_ 1 1#1
  let main_v52 : IVec S_ 1 := (fun x v => Host.reduce IntOp.andi x v reducesTo_S768x256_S_d0_1 h_S_) main_v51 main_c_19
  let main_v53 : IVec S_ 1 := andi main_v48 main_v52
  let main_v54 : FVec F S256 .f32 := Host.absf main_arg11
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  main_v58

def fn_part2 {F : FTy → Type} [FloatOps F] (main_arg7 : FVec F S256 .f32) (main_arg8 : FVec F S256x256 .f32) (main_arg9 : FVec F S256 .f32) (main_arg10 : FVec F S768x256 .f32) (main_arg11 : FVec F S256 .f32) (main_v33 : IVec S_ 1) : IVec S_ 1 :=
  let main_v34 : FVec F S256 .f32 := Host.absf main_arg7
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256x256 .f32 := Host.absf main_arg8
  let main_cst_14 : FVec F S_ .f32 := constant S_ .f32 0x7F800000#32
  let main_v40 : FVec F S256x256 .f32 := broadcastInDim S256x256 ![] bcast_S_S256x256 main_cst_14
  let main_v41 : IVec S256x256 1 := cmpf .olt main_v39 main_v40
  let main_c_15 : IVec S_ 1 := constantI S_ 1 1#1
  let main_v42 : IVec S_ 1 := (fun x v => Host.reduce IntOp.andi x v reducesTo_S256x256_S_d0_1 h_S_) main_v41 main_c_15
  let main_v43 : IVec S_ 1 := andi main_v38 main_v42
  let main_v44 : FVec F S256 .f32 := Host.absf main_arg9
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S768x256 .f32 := Host.absf main_arg10
  let main_cst_18 : FVec F S_ .f32 := constant S_ .f32 0x7F800000#32
  let main_v50 : FVec F S768x256 .f32 := broadcastInDim S768x256 ![] bcast_S_S768x256 main_cst_18
  fn_part3 (F := F) main_arg11 main_v48 main_v49 main_v50

def fn_part1 {F : FTy → Type} [FloatOps F] (main_arg4 : FVec F S256x256 .f32) (main_arg5 : FVec F S256 .f32) (main_arg6 : FVec F S256x256 .f32) (main_arg7 : FVec F S256 .f32) (main_arg8 : FVec F S256x256 .f32) (main_arg9 : FVec F S256 .f32) (main_arg10 : FVec F S768x256 .f32) (main_arg11 : FVec F S256 .f32) (main_v13 : IVec S_ 1) (main_v16 : IVec S10000x2000 1) : IVec S_ 1 :=
  let main_c_5 : IVec S_ 1 := constantI S_ 1 1#1
  let main_v17 : IVec S_ 1 := (fun x v => Host.reduce IntOp.andi x v reducesTo_S10000x2000_S_d0_1 h_S_) main_v16 main_c_5
  let main_v18 : IVec S_ 1 := andi main_v13 main_v17
  let main_v19 : FVec F S256x256 .f32 := Host.absf main_arg4
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x256 .f32 := Host.absf main_arg6
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S10000x256 .f32) (main_arg1 : FVec F S10000x10000 .f32) (main_arg2 : FVec F S2000x10000 .f32) (main_arg3 : FVec F S10000x2000 .f32) (main_arg4 : FVec F S256x256 .f32) (main_arg5 : FVec F S256 .f32) (main_arg6 : FVec F S256x256 .f32) (main_arg7 : FVec F S256 .f32) (main_arg8 : FVec F S256x256 .f32) (main_arg9 : FVec F S256 .f32) (main_arg10 : FVec F S768x256 .f32) (main_arg11 : FVec F S256 .f32) : IVec S_ 1 :=
  let main_v0 : FVec F S10000x256 .f32 := Host.absf main_arg0
  let main_cst : FVec F S_ .f32 := constant S_ .f32 0x7F800000#32
  let main_v1 : FVec F S10000x256 .f32 := broadcastInDim S10000x256 ![] bcast_S_S10000x256 main_cst
  let main_v2 : IVec S10000x256 1 := cmpf .olt main_v0 main_v1
  let main_c : IVec S_ 1 := constantI S_ 1 1#1
  let main_v3 : IVec S_ 1 := (fun x v => Host.reduce IntOp.andi x v reducesTo_S10000x256_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S2000x10000 .f32 := Host.absf main_arg2
  let main_cst_2 : FVec F S_ .f32 := constant S_ .f32 0x7F800000#32
  let main_v10 : FVec F S2000x10000 .f32 := broadcastInDim S2000x10000 ![] bcast_S_S2000x10000 main_cst_2
  let main_v11 : IVec S2000x10000 1 := cmpf .olt main_v9 main_v10
  let main_c_3 : IVec S_ 1 := constantI S_ 1 1#1
  let main_v12 : IVec S_ 1 := (fun x v => Host.reduce IntOp.andi x v reducesTo_S2000x10000_S_d0_1 h_S_) main_v11 main_c_3
  let main_v13 : IVec S_ 1 := andi main_v8 main_v12
  let main_v14 : FVec F S10000x2000 .f32 := Host.absf main_arg3
  let main_cst_4 : FVec F S_ .f32 := constant S_ .f32 0x7F800000#32
  let main_v15 : FVec F S10000x2000 .f32 := broadcastInDim S10000x2000 ![] bcast_S_S10000x2000 main_cst_4
  let main_v16 : IVec S10000x2000 1 := cmpf .olt main_v14 main_v15
  fn_part1 (F := F) main_arg4 main_arg5 main_arg6 main_arg7 main_arg8 main_arg9 main_arg10 main_arg11 main_v13 main_v16
-- ==== Kernel.lean ====
abbrev S10000x256 : Shape := ⟨2, ![10000, 256]⟩
abbrev S10000x10000 : Shape := ⟨2, ![10000, 10000]⟩
abbrev S2000x10000 : Shape := ⟨2, ![2000, 10000]⟩
abbrev S10000x2000 : Shape := ⟨2, ![10000, 2000]⟩
abbrev S256x256 : Shape := ⟨2, ![256, 256]⟩
abbrev S256 : Shape := ⟨1, ![256]⟩
abbrev S768x256 : Shape := ⟨2, ![768, 256]⟩
abbrev S1x256 : Shape := ⟨2, ![1, 256]⟩
abbrev S2000x256 : Shape := ⟨2, ![2000, 256]⟩
abbrev S200x10000 : Shape := ⟨2, ![200, 10000]⟩
abbrev S200x256 : Shape := ⟨2, ![200, 256]⟩
abbrev S400x10000 : Shape := ⟨2, ![400, 10000]⟩
abbrev S400x256 : Shape := ⟨2, ![400, 256]⟩

abbrev nBuf : Space → Nat
  | .hbm => 21
  | .vmem => 30
  | .smem => 0
  | _ => 0

abbrev bufTy : (tb : Table) → Fin (tcTables nBuf tb) → BufTy
  | .hbm, ⟨0, _⟩ => ⟨S10000x256, .f32⟩
  | .hbm, ⟨1, _⟩ => ⟨S10000x10000, .f32⟩
  | .hbm, ⟨2, _⟩ => ⟨S2000x10000, .f32⟩
  | .hbm, ⟨3, _⟩ => ⟨S10000x2000, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256x256, .f32⟩
  | .hbm, ⟨9, _⟩ => ⟨S256, .f32⟩
  | .hbm, ⟨10, _⟩ => ⟨S768x256, .f32⟩
  | .hbm, ⟨11, _⟩ => ⟨S256, .f32⟩
  | .hbm, ⟨12, _⟩ => ⟨S1x256, .f32⟩
  | .hbm, ⟨13, _⟩ => ⟨S1x256, .f32⟩
  | .hbm, ⟨14, _⟩ => ⟨S1x256, .f32⟩
  | .hbm, ⟨15, _⟩ => ⟨S1x256, .f32⟩
  | .hbm, ⟨16, _⟩ => ⟨S2000x10000, .f32⟩
  | .hbm, ⟨17, _⟩ => ⟨S2000x256, .f32⟩
  | .hbm, ⟨18, _⟩ => ⟨S2000x256, .f32⟩
  | .hbm, ⟨19, _⟩ => ⟨S10000x256, .bf16⟩
  | .hbm, ⟨20, _⟩ => ⟨S10000x256, .f32⟩
  | .local _ .vmem, ⟨0, _⟩ => ⟨S200x10000, .f32⟩
  | .local _ .vmem, ⟨1, _⟩ => ⟨S200x10000, .f32⟩
  | .local _ .vmem, ⟨2, _⟩ => ⟨S10000x256, .f32⟩
  | .local _ .vmem, ⟨3, _⟩ => ⟨S256x256, .f32⟩
  | .local _ .vmem, ⟨4, _⟩ => ⟨S1x256, .f32⟩
  | .local _ .vmem, ⟨5, _⟩ => ⟨S256x256, .f32⟩
  | .local _ .vmem, ⟨6, _⟩ => ⟨S1x256, .f32⟩
  | .local _ .vmem, ⟨7, _⟩ => ⟨S200x256, .f32⟩
  | .local _ .vmem, ⟨8, _⟩ => ⟨S200x256, .f32⟩
  | .local _ .vmem, ⟨9, _⟩ => ⟨S200x256, .f32⟩
  | .local _ .vmem, ⟨10, _⟩ => ⟨S200x256, .f32⟩
  | .local _ .vmem, ⟨11, _⟩ => ⟨S10000x256, .bf16⟩
  | .local _ .vmem, ⟨12, _⟩ => ⟨S400x10000, .f32⟩
  | .local _ .vmem, ⟨13, _⟩ => ⟨S400x10000, .f32⟩
  | .local _ .vmem, ⟨14, _⟩ => ⟨S400x256, .f32⟩
  | .local _ .vmem, ⟨15, _⟩ => ⟨S400x256, .f32⟩
  | .local _ .vmem, ⟨16, _⟩ => ⟨S10000x256, .bf16⟩
  | .local _ .vmem, ⟨17, _⟩ => ⟨S10000x256, .f32⟩
  | .local _ .vmem, ⟨18, _⟩ => ⟨S200x10000, .f32⟩
  | .local _ .vmem, ⟨19, _⟩ => ⟨S200x10000, .f32⟩
  | .local _ .vmem, ⟨20, _⟩ => ⟨S10000x256, .f32⟩
  | .local _ .vmem, ⟨21, _⟩ => ⟨S200x256, .bf16⟩
  | .local _ .vmem, ⟨22, _⟩ => ⟨S200x256, .bf16⟩
  | .local _ .vmem, ⟨23, _⟩ => ⟨S256x256, .f32⟩
  | .local _ .vmem, ⟨24, _⟩ => ⟨S1x256, .f32⟩
  | .local _ .vmem, ⟨25, _⟩ => ⟨S768x256, .f32⟩
  | .local _ .vmem, ⟨26, _⟩ => ⟨S1x256, .f32⟩
  | .local _ .vmem, ⟨27, _⟩ => ⟨S200x256, .f32⟩
  | .local _ .vmem, ⟨28, _⟩ => ⟨S200x256, .f32⟩
  | .local _ .vmem, ⟨29, _⟩ => ⟨S10000x256, .bf16⟩
  | _, _ => ⟨S10000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5_0 : Ref sig .tc := ⟨.hbm, 17, rfl⟩
abbrev main_v5_1 : Ref sig .tc := ⟨.hbm, 18, rfl⟩
abbrev main_v6 : Ref sig .tc := ⟨.hbm, 19, rfl⟩
abbrev main_v7 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_scratch0 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_scratch0 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg2_1 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg6_0 : Ref sig .tc := ⟨.vmem, 26, rfl⟩
abbrev cc2_stg7_0 : Ref sig .tc := ⟨.vmem, 27, rfl⟩
abbrev cc2_stg7_1 : Ref sig .tc := ⟨.vmem, 28, rfl⟩
abbrev cc2_scratch0 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem2_1 : DmaSem sig := 20
abbrev cc2_sem3_0 : DmaSem sig := 21
abbrev cc2_sem4_0 : DmaSem sig := 22
abbrev cc2_sem5_0 : DmaSem sig := 23
abbrev cc2_sem6_0 : DmaSem sig := 24
abbrev cc2_sem7_0 : DmaSem sig := 25
abbrev cc2_sem7_1 : DmaSem sig := 26

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S200x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S200x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S200x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![5], ![false]⟩

def k1_cond3 (i : grid1.Coords) : BitVec 1 :=
  let arg0 : BitVec 32 := BitVec.ofNat 32 (i 0).val
  let c4_i32 : BitVec 32 := 4#32
  let v13 : BitVec 1 := Scalar.cmpi .eq arg0 c4_i32
  let v14 : BitVec 32 := Scalar.extui v13
  let c0_i32_6 : BitVec 32 := 0#32
  let v15 : BitVec 1 := Scalar.cmpi .ne v14 c0_i32_6
  v15

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S400x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S400x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S10000x256 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev grid2 : Pipeline.Grid := ⟨1, ![50], ![false]⟩

def k2_off1 (i : grid2.Coords) : Fin 2 → Nat :=
  let arg0 : BitVec 32 := BitVec.ofNat 32 (i 0).val
  let c200_i32 : BitVec 32 := 200#32
  let v9 : BitVec 32 := Scalar.muli arg0 c200_i32
  let v10 : Index := Scalar.indexCast v9
  let c0_5 : Index := 0#32
  ![v10.toNat, 0]
def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S200x10000 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10000x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S200x256 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S256x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S768x256 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x256 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S200x256 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

class Facts₀ : Prop where
  shapeCasts_S256_S1x256 : S256.ShapeCasts S1x256
  transposes_S10000x2000_S2000x10000_1_0 : S10000x2000.Transposes [1, 0] S2000x10000
  inb_S10000x256_S10000x256_0_0 : ∀ a, (![0, 0] : Fin 2 → Nat) a + S10000x256.size a ≤ S10000x256.size a
  h_S10000x256 : 0 < S10000x256.numel
  inb_S256x256_S256x256_0_0 : ∀ a, (![0, 0] : Fin 2 → Nat) a + S256x256.size a ≤ S256x256.size a
  h_S256x256 : 0 < S256x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S10000x256 : S1x256.Broadcasts S10000x256
  bitsLt_bf16_f32 : FTy.bits .bf16 < FTy.bits .f32
  shapeCasts_S10000x256_S10000x256 : S10000x256.ShapeCasts S10000x256
  packedbf16_S10000x256_S10000x256_0_0 : (Rect.unit (s := S10000x256) ![0, 0] S10000x256.size inb_S10000x256_S10000x256_0_0).PackedRows (EltTy.packing .bf16)
  inb_S200x10000_S200x10000_0_0 : ∀ a, (![0, 0] : Fin 2 → Nat) a + S200x10000.size a ≤ S200x10000.size a
  h_S200x10000 : 0 < S200x10000.numel
  inb_S200x256_S200x256_0_0 : ∀ a, (![0, 0] : Fin 2 → Nat) a + S200x256.size a ≤ S200x256.size a
  h_S200x256 : 0 < S200x256.numel
  broadcasts_S1x256_S200x256 : S1x256.Broadcasts S200x256
  inb_S400x10000_S400x10000_0_0 : ∀ a, (![0, 0] : Fin 2 → Nat) a + S400x10000.size a ≤ S400x10000.size a
  h_S400x10000 : 0 < S400x10000.numel
  shapeCasts_S400x10000_S400x10000 : S400x10000.ShapeCasts S400x10000
  inb_S400x256_S400x256_0_0 : ∀ a, (![0, 0] : Fin 2 → Nat) a + S400x256.size a ≤ S400x256.size a
  h_S400x256 : 0 < S400x256.numel
  shapeCasts_S400x256_S400x256 : S400x256.ShapeCasts S400x256
  inb_S768x256_S256x256_0_0 : ∀ a, (![0, 0] : Fin 2 → Nat) a + S256x256.size a ≤ S768x256.size a
  inb_S768x256_S256x256_256_0 : ∀ a, (![256, 0] : Fin 2 → Nat) a + S256x256.size a ≤ S768x256.size a
  shapeCasts_S200x256_S200x256 : S200x256.ShapeCasts S200x256
  inb_S768x256_S256x256_512_0 : ∀ a, (![512, 0] : Fin 2 → Nat) a + S256x256.size a ≤ S768x256.size a
  dot_S10000x256_S256x256_S10000x256_1_0_0_1_n_n_wf : DotDims.WF S10000x256 S256x256 S10000x256 [1] [0] [0] [1] [] []
  dot_S200x10000_S10000x256_S200x256_1_0_0_1_n_n_wf : DotDims.WF S200x10000 S10000x256 S200x256 [1] [0] [0] [1] [] []
  dot_S200x256_S256x256_S200x256_1_0_0_1_n_n_wf : DotDims.WF S200x256 S256x256 S200x256 [1] [0] [0] [1] [] []
  dot_S400x10000_S400x256_S10000x256_0_0_1_1_n_n_wf : DotDims.WF S400x10000 S400x256 S10000x256 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S200x10000.size a ≤ S2000x10000.size a
  hwx0_0 : ∀ i : grid0.Coords, EltTy.bits .f32 = 32 ∨ (Rect.block (s := S2000x10000) S200x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x256.size a ≤ S10000x256.size a
  hwx0_1 : ∀ i : grid0.Coords, EltTy.bits .f32 = 32 ∨ (Rect.block (s := S10000x256) S10000x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .f32 = 32 ∨ (Rect.block (s := S256x256) S256x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S200x256.size a ≤ S2000x256.size a
  hwx0_6 : ∀ i : grid0.Coords, EltTy.bits .f32 = 32 ∨ (Rect.block (s := S2000x256) S200x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S200x256.size a ≤ S2000x256.size a
  hwx0_7 : ∀ i : grid0.Coords, EltTy.bits .f32 = 32 ∨ (Rect.block (s := S2000x256) S200x256.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x10000.size a ≤ S2000x10000.size a
  hwx1_0 : ∀ i : grid1.Coords, EltTy.bits .f32 = 32 ∨ (Rect.block (s := S2000x10000) S400x10000.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S400x256.size a ≤ S2000x256.size a
  hwx1_1 : ∀ i : grid1.Coords, EltTy.bits .f32 = 32 ∨ (Rect.block (s := S2000x256) S400x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S10000x256.size a ≤ S10000x256.size a
  hwx1_2 : ∀ i : grid1.Coords, EltTy.bits .bf16 = 32 ∨ (Rect.block (s := S10000x256) S10000x256.size (cc1_transform_2 i) (hinb1_2 i)).WholeWords (EltTy.packing .bf16)
  hrank2 : 0 < grid2.rank
  k2_off1_inb : ∀ i : grid2.Coords, ∀ a, (k2_off1 i) a + S200x256.size a ≤ S10000x256.size a
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S200x10000.size a ≤ S10000x10000.size a
  hwx2_0 : ∀ i : grid2.Coords, EltTy.bits .f32 = 32 ∨ (Rect.block (s := S10000x10000) S200x10000.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S10000x256.size a ≤ S10000x256.size a
  hwx2_1 : ∀ i : grid2.Coords, EltTy.bits .f32 = 32 ∨ (Rect.block (s := S10000x256) S10000x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S200x256.size a ≤ S10000x256.size a
  hwx2_2 : ∀ i : grid2.Coords, EltTy.bits .bf16 = 32 ∨ (Rect.block (s := S10000x256) S200x256.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x256.size a ≤ S256x256.size a
  hwx2_3 : ∀ i : grid2.Coords, EltTy.bits .f32 = 32 ∨ (Rect.block (s := S256x256) S256x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x256.size a ≤ S1x256.size a
  hwx2_4 : ∀ i : grid2.Coords, EltTy.bits .f32 = 32 ∨ (Rect.block (s := S1x256) S1x256.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S768x256.size a ≤ S768x256.size a
  hwx2_5 : ∀ i : grid2.Coords, EltTy.bits .f32 = 32 ∨ (Rect.block (s := S768x256) S768x256.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x256.size a ≤ S1x256.size a
  hwx2_6 : ∀ i : grid2.Coords, EltTy.bits .f32 = 32 ∨ (Rect.block (s := S1x256) S1x256.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S200x256.size a ≤ S10000x256.size a
  hwx2_7 : ∀ i : grid2.Coords, EltTy.bits .f32 = 32 ∨ (Rect.block (s := S10000x256) S200x256.size (cc2_transform_7 i) (hinb2_7 i)).WholeWords (EltTy.packing .f32)

variable [Facts₀]

def dot_S10000x256_S256x256_S10000x256_1_0_0_1_n_n : DotDims S10000x256 S256x256 S10000x256 where
  lhsContracting := [1]
  rhsContracting := [0]
  lhsNonContracting := [0]
  rhsNonContracting := [1]
  lhsBatch := []
  rhsBatch := []
  wf := dot_S10000x256_S256x256_S10000x256_1_0_0_1_n_n_wf
def dot_S200x10000_S10000x256_S200x256_1_0_0_1_n_n : DotDims S200x10000 S10000x256 S200x256 where
  lhsContracting := [1]
  rhsContracting := [0]
  lhsNonContracting := [0]
  rhsNonContracting := [1]
  lhsBatch := []
  rhsBatch := []
  wf := dot_S200x10000_S10000x256_S200x256_1_0_0_1_n_n_wf
def dot_S200x256_S256x256_S200x256_1_0_0_1_n_n : DotDims S200x256 S256x256 S200x256 where
  lhsContracting := [1]
  rhsContracting := [0]
  lhsNonContracting := [0]
  rhsNonContracting := [1]
  lhsBatch := []
  rhsBatch := []
  wf := dot_S200x256_S256x256_S200x256_1_0_0_1_n_n_wf
def dot_S400x10000_S400x256_S10000x256_0_0_1_1_n_n : DotDims S400x10000 S400x256 S10000x256 where
  lhsContracting := [0]
  rhsContracting := [0]
  lhsNonContracting := [1]
  rhsNonContracting := [1]
  lhsBatch := []
  rhsBatch := []
  wf := dot_S400x10000_S400x256_S10000x256_0_0_1_1_n_n_wf

abbrev win0_0 : Pipeline.Window sig grid0 :=
  Pipeline.Window.ofSpec (Memref.whole main_arg2) S200x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg6) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg8) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5_0) S200x256.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v5_1) S200x256.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v4) S400x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5_1) S400x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v6) S10000x256.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond3 i == 1#1) | ⟨_ + 3, h⟩ => absurd h (Nat.not_lt.2 (Nat.le_add_left _ _))

abbrev win2_0 : Pipeline.Window sig grid2 :=
  Pipeline.Window.ofSpec (Memref.whole main_arg1) S200x10000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg0) S10000x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v6) S200x256.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg4) S256x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v0) S1x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg10) S768x256.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v3) S1x256.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v7) S200x256.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S10000x256 : Shape := ⟨2, ![10000, 256]⟩
abbrev S10000x10000 : Shape := ⟨2, ![10000, 10000]⟩
abbrev S2000x10000 : Shape := ⟨2, ![2000, 10000]⟩
abbrev S10000x2000 : Shape := ⟨2, ![10000, 2000]⟩
abbrev S256x256 : Shape := ⟨2, ![256, 256]⟩
abbrev S256 : Shape := ⟨1, ![256]⟩
abbrev S768x256 : Shape := ⟨2, ![768, 256]⟩
abbrev S1x256 : Shape := ⟨2, ![1, 256]⟩
abbrev S_ : Shape := ⟨0, ![]⟩
abbrev S2000x256 : Shape := ⟨2, ![2000, 256]⟩
abbrev S10000x768 : Shape := ⟨2, ![10000, 768]⟩

abbrev nBuf : Space → Nat
  | .hbm => 41
  | .vmem => 0
  | .smem => 0
  | _ => 0

abbrev bufTy : (tb : Table) → Fin (tcTables nBuf tb) → BufTy
  | .hbm, ⟨0, _⟩ => ⟨S10000x256, .f32⟩
  | .hbm, ⟨1, _⟩ => ⟨S10000x10000, .f32⟩
  | .hbm, ⟨2, _⟩ => ⟨S2000x10000, .f32⟩
  | .hbm, ⟨3, _⟩ => ⟨S10000x2000, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256x256, .f32⟩
  | .hbm, ⟨9, _⟩ => ⟨S256, .f32⟩
  | .hbm, ⟨10, _⟩ => ⟨S768x256, .f32⟩
  | .hbm, ⟨11, _⟩ => ⟨S256, .f32⟩
  | .hbm, ⟨12, _⟩ => ⟨S10000x256, .f32⟩
  | .hbm, ⟨13, _⟩ => ⟨S1x256, .f32⟩
  | .hbm, ⟨14, _⟩ => ⟨S10000x256, .f32⟩
  | .hbm, ⟨15, _⟩ => ⟨S10000x256, .f32⟩
  | .hbm, ⟨16, _⟩ => ⟨S10000x256, .f32⟩
  | .hbm, ⟨17, _⟩ => ⟨S_, .f32⟩
  | .hbm, ⟨18, _⟩ => ⟨S10000x256, .f32⟩
  | .hbm, ⟨19, _⟩ => ⟨S10000x256, .f32⟩
  | .hbm, ⟨20, _⟩ => ⟨S10000x256, .f32⟩
  | .hbm, ⟨21, _⟩ => ⟨S1x256, .f32⟩
  | .hbm, ⟨22, _⟩ => ⟨S10000x256, .f32⟩
  | .hbm, ⟨23, _⟩ => ⟨S10000x256, .f32⟩
  | .hbm, ⟨24, _⟩ => ⟨S2000x256, .f32⟩
  | .hbm, ⟨25, _⟩ => ⟨S_, .f32⟩
  | .hbm, ⟨26, _⟩ => ⟨S2000x256, .f32⟩
  | .hbm, ⟨27, _⟩ => ⟨S2000x256, .f32⟩
  | .hbm, ⟨28, _⟩ => ⟨S2000x256, .f32⟩
  | .hbm, ⟨29, _⟩ => ⟨S1x256, .f32⟩
  | .hbm, ⟨30, _⟩ => ⟨S2000x256, .f32⟩
  | .hbm, ⟨31, _⟩ => ⟨S2000x256, .f32⟩
  | .hbm, ⟨32, _⟩ => ⟨S10000x256, .f32⟩
  | .hbm, ⟨33, _⟩ => ⟨S_, .f32⟩
  | .hbm, ⟨34, _⟩ => ⟨S10000x256, .f32⟩
  | .hbm, ⟨35, _⟩ => ⟨S10000x256, .f32⟩
  | .hbm, ⟨36, _⟩ => ⟨S10000x768, .f32⟩
  | .hbm, ⟨37, _⟩ => ⟨S10000x256, .f32⟩
  | .hbm, ⟨38, _⟩ => ⟨S1x256, .f32⟩
  | .hbm, ⟨39, _⟩ => ⟨S10000x256, .f32⟩
  | .hbm, ⟨40, _⟩ => ⟨S10000x256, .f32⟩
  | _, _ => ⟨S10000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_call0_cst : Ref sig .tc := ⟨.hbm, 17, rfl⟩
abbrev main_call0_v0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_call1_cst : Ref sig .tc := ⟨.hbm, 25, rfl⟩
abbrev main_call1_v0 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_call2_cst : Ref sig .tc := ⟨.hbm, 33, rfl⟩
abbrev main_call2_v0 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S10000x256_0_1 : S1x256.BroadcastsInDim S10000x256 (![0, 1] : Fin 2 → Fin S10000x256.rank)
  bcast_S_S10000x256 : S_.BroadcastsInDim S10000x256 (![] : Fin 0 → Fin S10000x256.rank)
  bcast_S_S2000x256 : S_.BroadcastsInDim S2000x256 (![] : Fin 0 → Fin S2000x256.rank)
  bcast_S1x256_S2000x256_0_1 : S1x256.BroadcastsInDim S2000x256 (![0, 1] : Fin 2 → Fin S2000x256.rank)
  concatenates_S10000x256_S10000x256_S10000x256_S10000x768_d1 : Shape.Concatenates [S10000x256, S10000x256, S10000x256] S10000x768 1
  dot_S10000x256_S256x256_S10000x256_1_0_0_1_n_n_wf : DotDims.WF S10000x256 S256x256 S10000x256 [1] [0] [0] [1] [] []
  dot_S10000x10000_S10000x256_S10000x256_1_0_0_1_n_n_wf : DotDims.WF S10000x10000 S10000x256 S10000x256 [1] [0] [0] [1] [] []
  dot_S2000x10000_S10000x256_S2000x256_1_0_0_1_n_n_wf : DotDims.WF S2000x10000 S10000x256 S2000x256 [1] [0] [0] [1] [] []
  dot_S2000x256_S256x256_S2000x256_1_0_0_1_n_n_wf : DotDims.WF S2000x256 S256x256 S2000x256 [1] [0] [0] [1] [] []
  dot_S10000x2000_S2000x256_S10000x256_1_0_0_1_n_n_wf : DotDims.WF S10000x2000 S2000x256 S10000x256 [1] [0] [0] [1] [] []
  dot_S10000x768_S768x256_S10000x256_1_0_0_1_n_n_wf : DotDims.WF S10000x768 S768x256 S10000x256 [1] [0] [0] [1] [] []

variable [Facts₀]

def dot_S10000x256_S256x256_S10000x256_1_0_0_1_n_n : DotDims S10000x256 S256x256 S10000x256 where
  lhsContracting := [1]
  rhsContracting := [0]
  lhsNonContracting := [0]
  rhsNonContracting := [1]
  lhsBatch := []
  rhsBatch := []
  wf := dot_S10000x256_S256x256_S10000x256_1_0_0_1_n_n_wf
def dot_S10000x10000_S10000x256_S10000x256_1_0_0_1_n_n : DotDims S10000x10000 S10000x256 S10000x256 where
  lhsContracting := [1]
  rhsContracting := [0]
  lhsNonContracting := [0]
  rhsNonContracting := [1]
  lhsBatch := []
  rhsBatch := []
  wf := dot_S10000x10000_S10000x256_S10000x256_1_0_0_1_n_n_wf
def dot_S2000x10000_S10000x256_S2000x256_1_0_0_1_n_n : DotDims S2000x10000 S10000x256 S2000x256 where
  lhsContracting := [1]
  rhsContracting := [0]
  lhsNonContracting := [0]
  rhsNonContracting := [1]
  lhsBatch := []
  rhsBatch := []
  wf := dot_S2000x10000_S10000x256_S2000x256_1_0_0_1_n_n_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def dot_S10000x2000_S2000x256_S10000x256_1_0_0_1_n_n : DotDims S10000x2000 S2000x256 S10000x256 where
  lhsContracting := [1]
  rhsContracting := [0]
  lhsNonContracting := [0]
  rhsNonContracting := [1]
  lhsBatch := []
  rhsBatch := []
  wf := dot_S10000x2000_S2000x256_S10000x256_1_0_0_1_n_n_wf
def dot_S10000x768_S768x256_S10000x256_1_0_0_1_n_n : DotDims S10000x768 S768x256 S10000x256 where
  lhsContracting := [1]
  rhsContracting := [0]
  lhsNonContracting := [0]
  rhsNonContracting := [1]
  lhsBatch := []
  rhsBatch := []
  wf := dot_S10000x768_S768x256_S10000x256_1_0_0_1_n_n_wf

class Facts : Prop extends Facts₀ where

variable [Facts]
-- ==== Proof.Bits.HyperData.lean ====
import proofs.«169939_g28836410425910_retrytranche2_620_30_alg».proof.Proof.Gen.Kernel.Launch
import proofs.«169939_g28836410425910_retrytranche2_620_30_alg».proof.Proof.Gen.Kernel.Skeleton
import proofs.«169939_g28836410425910_retrytranche2_620_30_alg».proof.Proof.Gen.Kernel.Points
import Idealize.ShloMosaic.Lib.Pipeline.FrameBody
import Idealize.ShloMosaic.Lib.Pipeline.Frame
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

/-! Region 0: the projection `x·W1 + b1` kept in scratch from the first point on; at every point a 200-row block of `relu(HH·h0)` and of `z = hyper·W2 + b2`. -/

namespace Cert.Kernel.Hyper

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The body's one conditional, as the kernel computes it from the grid coordinate: "this is the first point". -/
abbrev atFirst (i : grid0.Coords) : Prop :=
  (Scalar.cmpi .ne (Scalar.extui (Scalar.cmpi .eq (BitVec.ofNat 32 (i 0).val) 0#32)) 0#32) = 1#1

/-- Over the ten points of the grid it holds at point 0 and nowhere else. -/
theorem atFirst_iff : ∀ t : Fin cfg0.N, atFirst (grid0.coords t) ↔ t.val = 0 :=
  (by decide +kernel : ∀ t : Fin grid0.N, atFirst (grid0.coords t) ↔ t.val = 0)

theorem zeros2 : (![0, 0] : Fin 2 → ℕ) = fun _ => 0 := funext fun a => by fin_cases a <;> rfl

/-- Loading all of a whole buffer owned at `X` reads `X`. -/
theorem load_all {S : Shape} {e : EltTy} (M : Memref sig .tc .vmem S e) (hM : M.IsWhole) {off : Fin S.rank → ℕ}
    (h : off = fun _ => 0) (inb : ∀ a, off a + S.size a ≤ S.size a) (X : S.Idx → Elt F e) :
    View.readAt (Elt F) M.view (Rect.unit off S.size inb).toLoadRect (hM.unread X) = X := by
  rw [View.readAt_eq_ld, hM.read_unread, View.ld_unit_zero h]

/-- One store over all of a buffer leaves its payload there, whatever the buffer held. -/
theorem store_all {S : Shape} {e : EltTy} (M : Memref sig .tc .vmem S e) (f : M.view.ty.Contents (Elt F)) {off : Fin S.rank → ℕ}
    (h : off = fun _ => 0) (inb : ∀ a, off a + S.size a ≤ S.size a) (w : S.Idx → Elt F e) :
    View.read (Elt F) M.view (M.view.writes (Elt F) f [⟨Rect.unit off S.size inb, w⟩]) = w := by
  rw [View.read_writes_eq_canon _ _ _ (fun y => ⟨_, List.mem_singleton_self _, View.mem_set_unit_zero h inb y⟩),
    View.canon_unit_zero h]

/-- A point after the first: the conditional is skipped; the two output buffers are overwritten whole from the row
    block `hh` and the projection `h0` the scratch holds; everything else is as it was. -/
theorem run_later (c : Dev nD) (i : grid0.Coords) (arg1 : Memref sig .tc .vmem S200x10000 .f32) (harg1 : arg1.IsWhole) (arg2 : Memref sig .tc .vmem S10000x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S200x256 .f32) (harg7 : arg7.IsWhole) (arg8 : Memref sig .tc .vmem S200x256 .f32) (harg8 : arg8.IsWhole) (arg9 : Memref sig .tc .vmem S10000x256 .bf16) (harg9 : arg9.IsWhole)
    (hc : ¬ atFirst i)
    (hh : Vec F S200x10000 .f32) (x : Vec F S10000x256 .f32) (w1 : Vec F S256x256 .f32) (b1 : Vec F S1x256 .f32)
    (w2 : Vec F S256x256 .f32) (b2 : Vec F S1x256 .f32) (o6 o7 : Vec F S200x256 .f32) (h0 : Vec F S10000x256 .bf16)
    (E : Set ℕ) (K : PUnit → sProp 𝕄) :
    iprop(owns (c : Thread nD τ) arg1 fullShare hh ∗ owns (c : Thread nD τ) arg2 fullShare x ∗ owns (c : Thread nD τ) arg3 fullShare w1
        ∗ owns (c : Thread nD τ) arg4 fullShare b1 ∗ owns (c : Thread nD τ) arg5 fullShare w2 ∗ owns (c : Thread nD τ) arg6 fullShare b2
        ∗ owns (c : Thread nD τ) arg7 fullShare o6 ∗ owns (c : Thread nD τ) arg8 fullShare o7
        ∗ owns (c : Thread nD τ) arg9 fullShare h0
        ∗ (iprop(owns (c : Thread nD τ) arg1 fullShare hh ∗ owns (c : Thread nD τ) arg2 fullShare x ∗ owns (c : Thread nD τ) arg3 fullShare w1
            ∗ owns (c : Thread nD τ) arg4 fullShare b1 ∗ owns (c : Thread nD τ) arg5 fullShare w2 ∗ owns (c : Thread nD τ) arg6 fullShare b2
            ∗ owns (c : Thread nD τ) arg7 fullShare (k0_pay2 hh h0) ∗ owns (c : Thread nD τ) arg8 fullShare (k0_pay3 hh h0 w2 b2)
            ∗ owns (c : Thread nD τ) arg9 fullShare h0) -∗ K ⟨⟩))
      ⊢ wp frame (wpE (defs₀ (F := F)) Variants.none c none) E (cc0__hyper_body i arg1 harg1 arg2 harg2 arg3 harg3 arg4 harg4 arg5 harg5 arg6 harg6 arg7 harg7 arg8 harg8 arg9 harg9) K := by
  simp only [cc0__hyper_body_eq_skeleton]; unfold cc0__hyper_body_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  obtain rfl := harg1.eq_unread hf1; obtain rfl := harg2.eq_unread hf2; obtain rfl := harg3.eq_unread hf3
  obtain rfl := harg4.eq_unread hf4; obtain rfl := harg5.eq_unread hf5; obtain rfl := harg6.eq_unread hf6
  obtain rfl := harg7.eq_unread hf7; obtain rfl := harg8.eq_unread hf8; obtain rfl := harg9.eq_unread hf9
  sl_exec (disch := first | exact hc)
  sl_step
  iapply Hk
  isplitl [H1]; · iexists _; isplitr; · ipureintro; exact hf1
                  iexact H1
  isplitl [H2]; · iexists _; isplitr; · ipureintro; exact hf2
                  iexact H2
  isplitl [H3]; · iexists _; isplitr; · ipureintro; exact hf3
                  iexact H3
  isplitl [H4]; · iexists _; isplitr; · ipureintro; exact hf4
                  iexact H4
  isplitl [H5]; · iexists _; isplitr; · ipureintro; exact hf5
                  iexact H5
  isplitl [H6]; · iexists _; isplitr; · ipureintro; exact hf6
                  iexact H6
  isplitl [H7]
  · iexists _; isplitr
    swap; · iexact H7
    ipureintro
    rw [store_all _ _ zeros2, load_all _ _ zeros2, load_all _ _ zeros2]
  isplitl [H8]
  · iexists _; isplitr
    swap; · iexact H8
    ipureintro
    rw [store_all _ _ zeros2, load_all _ _ zeros2, load_all _ _ zeros2, load_all _ _ zeros2, load_all _ _ zeros2]
  iexists _; isplitr; · ipureintro; exact hf9
  iexact H9

/-- The first point: the conditional is taken; the scratch, whatever it held, is overwritten whole with the projection
    of `x`, `w1`, `b1`, and the two outputs are then computed from the row block and that projection read back. -/
theorem run_first (c : Dev nD) (i : grid0.Coords) (arg1 : Memref sig .tc .vmem S200x10000 .f32) (harg1 : arg1.IsWhole) (arg2 : Memref sig .tc .vmem S10000x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S200x256 .f32) (harg7 : arg7.IsWhole) (arg8 : Memref sig .tc .vmem S200x256 .f32) (harg8 : arg8.IsWhole) (arg9 : Memref sig .tc .vmem S10000x256 .bf16) (harg9 : arg9.IsWhole)
    (hc : atFirst i)
    (hh : Vec F S200x10000 .f32) (x : Vec F S10000x256 .f32) (w1 : Vec F S256x256 .f32) (b1 : Vec F S1x256 .f32)
    (w2 : Vec F S256x256 .f32) (b2 : Vec F S1x256 .f32) (o6 o7 : Vec F S200x256 .f32) (h0 : Vec F S10000x256 .bf16)
    (E : Set ℕ) (K : PUnit → sProp 𝕄) :
    iprop(owns (c : Thread nD τ) arg1 fullShare hh ∗ owns (c : Thread nD τ) arg2 fullShare x ∗ owns (c : Thread nD τ) arg3 fullShare w1
        ∗ owns (c : Thread nD τ) arg4 fullShare b1 ∗ owns (c : Thread nD τ) arg5 fullShare w2 ∗ owns (c : Thread nD τ) arg6 fullShare b2
        ∗ owns (c : Thread nD τ) arg7 fullShare o6 ∗ owns (c : Thread nD τ) arg8 fullShare o7
        ∗ owns (c : Thread nD τ) arg9 fullShare h0
        ∗ (iprop(owns (c : Thread nD τ) arg1 fullShare hh ∗ owns (c : Thread nD τ) arg2 fullShare x ∗ owns (c : Thread nD τ) arg3 fullShare w1
            ∗ owns (c : Thread nD τ) arg4 fullShare b1 ∗ owns (c : Thread nD τ) arg5 fullShare w2 ∗ owns (c : Thread nD τ) arg6 fullShare b2
            ∗ owns (c : Thread nD τ) arg7 fullShare (k0_pay2 hh (k0_pay1 x w1 b1)) ∗ owns (c : Thread nD τ) arg8 fullShare (k0_pay3 hh (k0_pay1 x w1 b1) w2 b2)
            ∗ owns (c : Thread nD τ) arg9 fullShare (k0_pay1 x w1 b1)) -∗ K ⟨⟩))
      ⊢ wp frame (wpE (defs₀ (F := F)) Variants.none c none) E (cc0__hyper_body i arg1 harg1 arg2 harg2 arg3 harg3 arg4 harg4 arg5 harg5 arg6 harg6 arg7 harg7 arg8 harg8 arg9 harg9) K := by
  simp only [cc0__hyper_body_eq_skeleton]; unfold cc0__hyper_body_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  obtain rfl := harg1.eq_unread hf1; obtain rfl := harg2.eq_unread hf2; obtain rfl := harg3.eq_unread hf3
  obtain rfl := harg4.eq_unread hf4; obtain rfl := harg5.eq_unread hf5; obtain rfl := harg6.eq_unread hf6
  obtain rfl := harg7.eq_unread hf7; obtain rfl := harg8.eq_unread hf8; obtain rfl := harg9.eq_unread hf9
  sl_exec (disch := first | exact hc)
  sl_step
  iapply Hk
  isplitl [H1]; · iexists _; isplitr; · ipureintro; exact hf1
                  iexact H1
  isplitl [H2]; · iexists _; isplitr; · ipureintro; exact hf2
                  iexact H2
  isplitl [H3]; · iexists _; isplitr; · ipureintro; exact hf3
                  iexact H3
  isplitl [H4]; · iexists _; isplitr; · ipureintro; exact hf4
                  iexact H4
  isplitl [H5]; · iexists _; isplitr; · ipureintro; exact hf5
                  iexact H5
  isplitl [H6]; · iexists _; isplitr; · ipureintro; exact hf6
                  iexact H6
  isplitl [H7]
  · iexists _; isplitr
    swap; · iexact H7
    ipureintro
    sl_unfold_words
    rw [store_all _ _ zeros2, load_all _ _ zeros2, View.readCov_unit_zero _ zeros2, load_all _ _ zeros2, load_all _ _ zeros2, load_all _ _ zeros2]
  isplitl [H8]
  · iexists _; isplitr
    swap; · iexact H8
    ipureintro
    sl_unfold_words
    rw [store_all _ _ zeros2, load_all _ _ zeros2, View.readCov_unit_zero _ zeros2, load_all _ _ zeros2, load_all _ _ zeros2, load_all _ _ zeros2, load_all _ _ zeros2, load_all _ _ zeros2]
  iexists _; isplitr
  swap; · iexact H9
  ipureintro
  sl_unfold_words
  rw [store_all _ _ zeros2, load_all _ _ zeros2, load_all _ _ zeros2, load_all _ _ zeros2]

-- what core `c`'s TensorCore buffers hold when the region is entered
variable (V : (c : Dev nD) → (b : Ref sig .tc) → Buf (Elt F) ((c : Thread nD τ).loc b))

/-- Window `w`'s block at point `t`, read off its array as the region finds it. -/
def blockAt (c : Dev nD) (w : Fin cfg0.W) (t : Fin cfg0.N) :
    ((cfg0.win w).xblock (cfg0.grid.coords t)).Idx → Elt F (cfg0.win w).elt :=
  ((cfg0.win w).blk t).view.read (Elt F) (V c (Pipeline.arrRef spec0 w))

/-- What the scratch holds from the first point on: the projection of the whole arrays `x`, `W1` and the row `b1`,
    read as the first point's windows 1, 2, 3 show them (those windows show the same whole arrays at every point). -/
def proj (c : Dev nD) : Vec F S10000x256 .bf16 :=
  k0_pay1 (blockAt V c 1 t0_0) (blockAt V c 2 t0_0) (blockAt V c 3 t0_0)

/-- The region's invariant before position `n`: before the first point what the launch hands over (every scoped buffer
    at anything); afterwards the scratch at the projection, the other scoped buffers at anything, the generator register
    at some state. -/
def Phi (c : Dev nD) : ℕ → sProp 𝕄
  | 0 => Pipeline.ΦA spec0 c
  | _ + 1 => iprop(owns (c : Thread nD τ) (Memref.whole cc0_scratch0) fullShare (proj V c)
      ∗ Pipeline.scopedRestBut spec0 c [cc0_scratch0] ∗ (∃ r, prngReg c r))

/-- The proof data of pipeline 0 on core `c`, entered at `V`: an input's buffer holds its block after the body as before
    it; output 6's holds the rectified product of the row block with the projection, output 7's that block's `z`. -/
def dat0 (c : Dev nD) : Dat τ (Elt F) Unit ℕ (UR sig nD τ) ℕ cfg0 c where
  A w := V c (Pipeline.arrRef spec0 w)
  after w t := match w with
    | ⟨0, _⟩ => blockAt V c 0 t
    | ⟨1, _⟩ => blockAt V c 1 t
    | ⟨2, _⟩ => blockAt V c 2 t
    | ⟨3, _⟩ => blockAt V c 3 t
    | ⟨4, _⟩ => blockAt V c 4 t
    | ⟨5, _⟩ => blockAt V c 5 t
    | ⟨6, _⟩ => k0_pay2 (blockAt V c 0 t) (proj V c)
    | ⟨7, _⟩ => k0_pay3 (blockAt V c 0 t) (proj V c) (blockAt V c 4 t) (blockAt V c 5 t)
  Φ t := Phi V c t.val
  q _ := fullShare
  owed _ := 0

theorem A_eq0 (c : Dev nD) (w : Fin cfg0.W) : (dat0 V c).A w = V c (Pipeline.arrRef spec0 w) := by
  dsimp only [dat0]

theorem share_full0 (c : Dev nD) (w : Fin cfg0.W) : (dat0 V c).share w = fullShare :=
  (dat0 V c).share_full (fun _ => rfl) w

theorem owed0 (c : Dev nD) (t : Fin (cfg0.N + 1)) : (dat0 V c).owed t = 0 := rfl

/-! What the body leaves, window by window. -/
theorem after_0 (c : Dev nD) (t : Fin cfg0.N) : (dat0 V c).after 0 t = blockAt V c 0 t := by dsimp only [dat0]
theorem after_1 (c : Dev nD) (t : Fin cfg0.N) : (dat0 V c).after 1 t = blockAt V c 1 t := by dsimp only [dat0]
theorem after_2 (c : Dev nD) (t : Fin cfg0.N) : (dat0 V c).after 2 t = blockAt V c 2 t := by dsimp only [dat0]
theorem after_3 (c : Dev nD) (t : Fin cfg0.N) : (dat0 V c).after 3 t = blockAt V c 3 t := by dsimp only [dat0]
theorem after_4 (c : Dev nD) (t : Fin cfg0.N) : (dat0 V c).after 4 t = blockAt V c 4 t := by dsimp only [dat0]
theorem after_5 (c : Dev nD) (t : Fin cfg0.N) : (dat0 V c).after 5 t = blockAt V c 5 t := by dsimp only [dat0]
theorem after_6 (c : Dev nD) (t : Fin cfg0.N) :
    (dat0 V c).after 6 t = k0_pay2 (blockAt V c 0 t) (proj V c) := by dsimp only [dat0]
theorem after_7 (c : Dev nD) (t : Fin cfg0.N) :
    (dat0 V c).after 7 t = k0_pay3 (blockAt V c 0 t) (proj V c) (blockAt V c 4 t) (blockAt V c 5 t) := by dsimp only [dat0]

/-! An input's current buffer holds its block at every point, fetched there or not: where it is not fetched the block
    index has not moved and the body left the block in place. -/
theorem before_0 (c : Dev nD) (t : Fin cfg0.N) (d) : (dat0 V c).before 0 t d = blockAt V c 0 t :=
  ((dat0 V c).before_in_eq_fetched 0 rfl (fun _ => rfl) (fun _ _ _ => rfl)
      (fun t => by rw [after_0]; unfold Dat.blockOf blockAt; rw [A_eq0]; try rfl) t d).trans
    (by unfold Dat.fetched Dat.blockOf blockAt; rw [A_eq0]; try rfl)
theorem before_1 (c : Dev nD) (t : Fin cfg0.N) (d) : (dat0 V c).before 1 t d = blockAt V c 1 t :=
  ((dat0 V c).before_in_eq_fetched 1 rfl (fun _ => rfl) (fun _ _ _ => rfl)
      (fun t => by rw [after_1]; unfold Dat.blockOf blockAt; rw [A_eq0]; try rfl) t d).trans
    (by unfold Dat.fetched Dat.blockOf blockAt; rw [A_eq0]; try rfl)
theorem before_2 (c : Dev nD) (t : Fin cfg0.N) (d) : (dat0 V c).before 2 t d = blockAt V c 2 t :=
  ((dat0 V c).before_in_eq_fetched 2 rfl (fun _ => rfl) (fun _ _ _ => rfl)
      (fun t => by rw [after_2]; unfold Dat.blockOf blockAt; rw [A_eq0]; try rfl) t d).trans
    (by unfold Dat.fetched Dat.blockOf blockAt; rw [A_eq0]; try rfl)
theorem before_3 (c : Dev nD) (t : Fin cfg0.N) (d) : (dat0 V c).before 3 t d = blockAt V c 3 t :=
  ((dat0 V c).before_in_eq_fetched 3 rfl (fun _ => rfl) (fun _ _ _ => rfl)
      (fun t => by rw [after_3]; unfold Dat.blockOf blockAt; rw [A_eq0]; try rfl) t d).trans
    (by unfold Dat.fetched Dat.blockOf blockAt; rw [A_eq0]; try rfl)
theorem before_4 (c : Dev nD) (t : Fin cfg0.N) (d) : (dat0 V c).before 4 t d = blockAt V c 4 t :=
  ((dat0 V c).before_in_eq_fetched 4 rfl (fun _ => rfl) (fun _ _ _ => rfl)
      (fun t => by rw [after_4]; unfold Dat.blockOf blockAt; rw [A_eq0]; try rfl) t d).trans
    (by unfold Dat.fetched Dat.blockOf blockAt; rw [A_eq0]; try rfl)
theorem before_5 (c : Dev nD) (t : Fin cfg0.N) (d) : (dat0 V c).before 5 t d = blockAt V c 5 t :=
  ((dat0 V c).before_in_eq_fetched 5 rfl (fun _ => rfl) (fun _ _ _ => rfl)
      (fun t => by rw [after_5]; unfold Dat.blockOf blockAt; rw [A_eq0]; try rfl) t d).trans
    (by unfold Dat.fetched Dat.blockOf blockAt; rw [A_eq0]; try rfl)

/-- No window is ever idle: after the body each buffer is owned at the proof data's contents. -/
theorem leaves_eq (c : Dev nD) (w : Fin cfg0.W) (t : Fin cfg0.N) :
    (dat0 V c).leavesExact w t
      = owns (c : Thread nD τ) ((cfg0.win w).stage (cfg0.slots t w)) fullShare ((dat0 V c).after w t) := rfl

/-- The launch's invariant with this call's scratch taken out of the scoped rest. -/
theorem PhiA_split (c : Dev nD) :
    (Pipeline.ΦA spec0 c : sProp 𝕄)
      = iprop(((∃ s, owns (c : Thread nD τ) (Memref.whole cc0_scratch0) fullShare s)
          ∗ Pipeline.scopedRestBut spec0 c [cc0_scratch0]) ∗ (∃ r, prngReg c r)) := by
  unfold Pipeline.ΦA
  rw [show (Pipeline.scopedRest spec0 c : sProp 𝕄)
      = iprop(iprop(∃ f : Buf (Elt F) ((c : Thread nD τ).loc cc0_scratch0), ((c : Thread nD τ).loc cc0_scratch0) ↦{fullShare} f)
          ∗ Pipeline.scopedRestBut spec0 c [cc0_scratch0]) from
    Pipeline.scopedRest_split_of_list spec0 c [cc0_scratch0] (by decide) (by decide)]
  simp only [owns_whole]

theorem Phi_pos (c : Dev nD) (n : ℕ) (hn : n ≠ 0) :
    Phi V c n = iprop(owns (c : Thread nD τ) (Memref.whole cc0_scratch0) fullShare (proj V c)
      ∗ Pipeline.scopedRestBut spec0 c [cc0_scratch0] ∗ (∃ r, prngReg c r)) := by
  cases n with
  | zero => exact absurd rfl hn
  | succ n => rfl

theorem Phi_start (c : Dev nD) (t : Fin cfg0.N) : (dat0 V c).Φ t.castSucc = Phi V c t.val := rfl
theorem Phi_end (c : Dev nD) (t : Fin cfg0.N) :
    (dat0 V c).Φ t.succ = iprop(owns (c : Thread nD τ) (Memref.whole cc0_scratch0) fullShare (proj V c)
      ∗ Pipeline.scopedRestBut spec0 c [cc0_scratch0] ∗ (∃ r, prngReg c r)) := rfl

set_option maxHeartbeats 1600000 in
/-- The body at any point. The six inputs' buffers hold their blocks; the two outputs' may hold anything (the body
    overwrites them whole without using what it loads from them). At the first point the scratch is handed over at
    anything and comes back at the projection; at a later point it is handed over at the projection and comes back
    untouched. The core owes nothing throughout. -/
theorem sound_body (c : Dev nD) (t : Fin cfg0.N) :
    iprop((dat0 V c).Φ t.castSucc ∗ (dat0 V c).owesAt () t.castSucc
      ∗ (∃ d, owns (c : Thread nD τ) (win0_0.stage (cfg0.slots t 0)) fullShare ((dat0 V c).before 0 t d))
      ∗ (∃ d, owns (c : Thread nD τ) (win0_1.stage (cfg0.slots t 1)) fullShare ((dat0 V c).before 1 t d))
      ∗ (∃ d, owns (c : Thread nD τ) (win0_2.stage (cfg0.slots t 2)) fullShare ((dat0 V c).before 2 t d))
      ∗ (∃ d, owns (c : Thread nD τ) (win0_3.stage (cfg0.slots t 3)) fullShare ((dat0 V c).before 3 t d))
      ∗ (∃ d, owns (c : Thread nD τ) (win0_4.stage (cfg0.slots t 4)) fullShare ((dat0 V c).before 4 t d))
      ∗ (∃ d, owns (c : Thread nD τ) (win0_5.stage (cfg0.slots t 5)) fullShare ((dat0 V c).before 5 t d))
      ∗ (∃ d, owns (c : Thread nD τ) (win0_6.stage (cfg0.slots t 6)) fullShare ((dat0 V c).before 6 t d))
      ∗ (∃ d, owns (c : Thread nD τ) (win0_7.stage (cfg0.slots t 7)) fullShare ((dat0 V c).before 7 t d)))
    ⊢ wp frame (wpE (defs₀ (F := F)) Variants.none c none) Set.univ (bodyAt0 t) (fun _ =>
        iprop((dat0 V c).Φ t.succ ∗ (dat0 V c).owesAt () t.succ
          ∗ (dat0 V c).leavesExact 0 t ∗ (dat0 V c).leavesExact 1 t ∗ (dat0 V c).leavesExact 2 t
          ∗ (dat0 V c).leavesExact 3 t ∗ (dat0 V c).leavesExact 4 t ∗ (dat0 V c).leavesExact 5 t
          ∗ (dat0 V c).leavesExact 6 t ∗ (dat0 V c).leavesExact 7 t)) := by
  simp only [before_0, before_1, before_2, before_3, before_4, before_5]
  rw [show (dat0 V c).owesAt () t.succ = (dat0 V c).owesAt () t.castSucc from rfl]
  simp only [leaves_eq, after_0, after_1, after_2, after_3, after_4, after_5, after_6, after_7]
  rw [Phi_start, Phi_end]
  unfold bodyAt0
  by_cases hz : t.val = 0
  · -- the first point: the scratch arrives at anything and leaves at the projection
    have ht : t = t0_0 := Fin.ext hz
    subst ht
    rw [show Phi V c (t0_0 : Fin cfg0.N).val = Pipeline.ΦA spec0 c from rfl, PhiA_split]
    unfold proj
    iintro ⟨⟨⟨⟨%s, HS⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (run_first c (grid0.coords t0_0) _ _ _ _ _ _ _ _ _ _ _ _ _ _ _ _ _ _ ((atFirst_iff t0_0).mpr rfl) _ _ _ _ _ _ _ _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS]; · iexact HS
    iintro ⟨H0, H1, H2, H3, H4, H5, H6, H7, HS⟩
    isplitl [HS HR Hg]
    · isplitl [HS]; · iexact HS
      isplitl [HR]; · iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · -- a later point: the scratch arrives at the projection and is only read
    rw [Phi_pos V c _ hz]
    iintro ⟨⟨HS, HR, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (run_later c (grid0.coords t) _ _ _ _ _ _ _ _ _ _ _ _ _ _ _ _ _ _ (fun h => hz ((atFirst_iff t).mp h)) _ _ _ _ _ _ _ _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS]; · iexact HS
    iintro ⟨H0, H1, H2, H3, H4, H5, H6, H7, HS⟩
    isplitl [HS HR Hg]
    · isplitl [HS]; · iexact HS
      isplitl [HR]; · iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

/-- The library's body obligation, at every point: the windows opened one by one. -/
theorem body_obligation0 (c : Dev nD) :
    BodyObligation (dat0 (F := F) V c) (defs₀ (F := F)) Variants.none () Set.univ := fun t => by
  rw [bigSep_W0, bigSep_W0]
  exact sound_body V c t

/-- What the launch hands the region is the invariant before the first point. -/
theorem hin0 (c : Dev nD) : (Pipeline.ΦA spec0 c : sProp 𝕄) ⊢ (dat0 V c).Φ 0 := by
  rw [show (dat0 V c).Φ 0 = Pipeline.ΦA spec0 c from rfl]
  try exact Idealize.SL.BI.Entails.refl _

/-- After the last point the invariant gives the launch's back: what the scratch holds is forgotten. -/
theorem hout0 (c : Dev nD) : (dat0 V c).Φ (Fin.last cfg0.N) ⊢ (Pipeline.ΦA spec0 c : sProp 𝕄) := by
  rw [show (dat0 V c).Φ (Fin.last cfg0.N) = Phi V c (Fin.last cfg0.N).val from rfl,
    Phi_pos V c _ (by rw [Fin.val_last]; have : cfg0.N = 10 := N_0; omega), PhiA_split]
  iintro ⟨HS, HR, Hg⟩
  isplitl [HS HR]
  · isplitl [HS]
    · iexists _; iexact HS
    iexact HR
  iexact Hg

end Cert.Kernel.Hyper

end
-- ==== Proof.Bits.ChunkData.lean ====
import proofs.«169939_g28836410425910_retrytranche2_620_30_alg».proof.Proof.Gen.Kernel.Launch
import proofs.«169939_g28836410425910_retrytranche2_620_30_alg».proof.Proof.Gen.Kernel.Skeleton
import proofs.«169939_g28836410425910_retrytranche2_620_30_alg».proof.Proof.Gen.Kernel.Points
import Idealize.ShloMosaic.Lib.Pipeline.FrameBody
import Idealize.ShloMosaic.Lib.Pipeline.Frame
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

/-! Region 1: `HGᵀ[chunk]ᵀ · z[chunk]` summed over five 400-row chunks in a scratch accumulator; the last point writes `relu` of the total. -/

namespace Cert.Kernel.Chunk

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- what core `c`'s TensorCore buffers hold when the region is entered
variable (V : (c : Dev nD) → (b : Ref sig .tc) → Buf (Elt F) ((c : Thread nD τ).loc b))

/-! ## The three tests on the grid coordinate

The body branches three times on the chunk number `k` (the one grid coordinate): `k = 0` (start the running sum),
`k ≠ 0` (add to it), `k = 4` (emit). Each test is spelled as the body computes it and decided once over the five points. -/

/-- The first conditional's test: the chunk number is zero. -/
abbrev isFirst (i : grid1.Coords) : Prop :=
  Scalar.cmpi .ne (Scalar.extui (Scalar.cmpi .eq (BitVec.ofNat 32 (i 0).val) 0#32)) 0#32 = 1#1
/-- The second conditional's test: the chunk number is not zero. -/
abbrev isLater (i : grid1.Coords) : Prop :=
  Scalar.cmpi .ne (Scalar.extui (Scalar.cmpi .ne (BitVec.ofNat 32 (i 0).val) 0#32)) 0#32 = 1#1
/-- The third conditional's test: the chunk number is the last one, four. -/
abbrev isLast (i : grid1.Coords) : Prop := k1_cond3 i = 1#1

theorem isFirst_iff : ∀ t : Fin cfg1.N, isFirst (grid1.coords t) ↔ t.val = 0 :=
  (by decide +kernel : ∀ t : Fin grid1.N, isFirst (grid1.coords t) ↔ t.val = 0)
theorem isLater_iff : ∀ t : Fin cfg1.N, isLater (grid1.coords t) ↔ t.val ≠ 0 :=
  (by decide +kernel : ∀ t : Fin grid1.N, isLater (grid1.coords t) ↔ t.val ≠ 0)
theorem isLast_iff : ∀ t : Fin cfg1.N, isLast (grid1.coords t) ↔ t.val = 4 :=
  (by decide +kernel : ∀ t : Fin grid1.N, isLast (grid1.coords t) ↔ t.val = 4)

/-- The two operand windows are never idle; the result's window is idle exactly off the last chunk, and is written
    back only there. -/
theorem live_hgt : ∀ t : Fin cfg1.N, cfg1.idle 0 (grid1.coords t) = false := by decide +kernel
theorem live_z : ∀ t : Fin cfg1.N, cfg1.idle 1 (grid1.coords t) = false := by decide +kernel
theorem idle_out : ∀ t : Fin cfg1.N, ¬isLast (grid1.coords t) → cfg1.idle 2 (grid1.coords t) = true := by decide +kernel
theorem live_out : ∀ t : Fin cfg1.N, isLast (grid1.coords t) → cfg1.idle 2 (grid1.coords t) = false := by decide +kernel
theorem noFlush_out : ∀ t : Fin cfg1.N, ¬isLast (grid1.coords t) → (cfg1.win 2).flush t = false := by decide +kernel

/-! ## Whole-buffer loads and stores

Every access of this body goes through the rectangle of the buffer's own sizes at offsets `(0, 0)`: a load through
it reads the contents, and one store through it leaves the stored value whatever was there. -/

theorem zeroOff : (![0, 0] : Fin 2 → ℕ) = fun _ => 0 := by
  funext a; fin_cases a <;> rfl

/-- A load of the whole of a buffer reads what the buffer holds. -/
theorem readAt_all {κ : Kind} {sp : Space} {S : Shape} {e : EltTy} (v : View sig κ sp S e) (f : v.ty.Contents (Elt F))
    (off : Fin S.rank → ℕ) (hoff : off = fun _ => 0) (inb : ∀ a, off a + S.size a ≤ S.size a) :
    v.readAt (Elt F) (Rect.unit off S.size inb).toLoadRect f = v.read (Elt F) f := by
  rw [View.readAt_eq_ld, View.ld_unit_zero hoff]

/-- One store through the whole of a buffer leaves the stored value, over any earlier contents. -/
theorem read_store_all {κ : Kind} {sp : Space} {S : Shape} {e : EltTy} (v : View sig κ sp S e) (f : v.ty.Contents (Elt F))
    (off : Fin S.rank → ℕ) (hoff : off = fun _ => 0) (inb : ∀ a, off a + S.size a ≤ S.size a) (w : S.Idx → Elt F e) :
    v.read (Elt F) (v.writes (Elt F) f [⟨Rect.unit off S.size inb, w⟩]) = w := by
  rw [View.read_writes_eq_canon _ _ _ (fun y => ⟨_, List.mem_singleton_self _, View.mem_set_unit_zero hoff inb y⟩),
    View.canon_unit_zero hoff]

/-! ## The body's three runs

On whole staging buffers holding an `HGᵀ` chunk `x0`, a `z` chunk `x1`, the result's buffer at `x2` and the running
sum at `xs`, the body leaves the chunks as they were and: at the first chunk the running sum SET to the chunk's
product; at a later chunk the product ADDED to it; at the last chunk, besides, the result's buffer at `relu` of the
new running sum. Off the last chunk the result's buffer is not touched. -/

theorem run_first (c : Dev nD) (i : grid1.Coords)
    (arg1 : Memref sig .tc .vmem S400x10000 .f32) (harg1 : arg1.IsWhole)
    (arg2 : Memref sig .tc .vmem S400x256 .f32) (harg2 : arg2.IsWhole)
    (arg3 : Memref sig .tc .vmem S10000x256 .bf16) (harg3 : arg3.IsWhole)
    (arg4 : Memref sig .tc .vmem S10000x256 .f32) (harg4 : arg4.IsWhole)
    (hc0 : isFirst i) (hc1 : ¬isLater i) (hc2 : ¬isLast i)
    (x0 : Vec F S400x10000 .f32) (x1 : Vec F S400x256 .f32) (x2 : Vec F S10000x256 .bf16) (xs : Vec F S10000x256 .f32)
    (E : Set ℕ) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare xs
        ∗ (iprop(owns (c : Thread nD τ) arg1 fullShare x0 ∗ owns (c : Thread nD τ) arg2 fullShare x1
            ∗ owns (c : Thread nD τ) arg3 fullShare x2 ∗ owns (c : Thread nD τ) arg4 fullShare (k1_pay2 x0 x1)) -∗ K ⟨⟩))
      ⊢ wp frame (wpE (defs₀ (F := F)) Variants.none c none) E (cc1__hg_body i arg1 harg1 arg2 harg2 arg3 harg3 arg4 harg4) K := by
  simp only [cc1__hg_body_eq_skeleton]; unfold cc1__hg_body_skel
  unfold owns
  iintro ⟨⟨%f0, %hf0, H0⟩, ⟨%f1, %hf1, H1⟩, ⟨%f2, %hf2, H2⟩, ⟨%fs, %hfs, HS⟩, Hk⟩
  obtain rfl := harg1.eq_unread hf0; obtain rfl := harg2.eq_unread hf1; obtain rfl := harg3.eq_unread hf2; obtain rfl := harg4.eq_unread hfs
  sl_exec (disch := first | exact hc0 | exact hc1 | exact hc2)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  iexists _; isplitr
  swap; · iexact HS
  ipureintro
  rw [read_store_all _ _ _ zeroOff, readAt_all _ _ _ zeroOff, readAt_all _ _ _ zeroOff, hf0, hf1]

theorem run_later (c : Dev nD) (i : grid1.Coords)
    (arg1 : Memref sig .tc .vmem S400x10000 .f32) (harg1 : arg1.IsWhole)
    (arg2 : Memref sig .tc .vmem S400x256 .f32) (harg2 : arg2.IsWhole)
    (arg3 : Memref sig .tc .vmem S10000x256 .bf16) (harg3 : arg3.IsWhole)
    (arg4 : Memref sig .tc .vmem S10000x256 .f32) (harg4 : arg4.IsWhole)
    (hc0 : ¬isFirst i) (hc1 : isLater i) (hc2 : ¬isLast i)
    (x0 : Vec F S400x10000 .f32) (x1 : Vec F S400x256 .f32) (x2 : Vec F S10000x256 .bf16) (xs : Vec F S10000x256 .f32)
    (E : Set ℕ) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare xs
        ∗ (iprop(owns (c : Thread nD τ) arg1 fullShare x0 ∗ owns (c : Thread nD τ) arg2 fullShare x1
            ∗ owns (c : Thread nD τ) arg3 fullShare x2 ∗ owns (c : Thread nD τ) arg4 fullShare (k1_pay3 x0 x1 xs)) -∗ K ⟨⟩))
      ⊢ wp frame (wpE (defs₀ (F := F)) Variants.none c none) E (cc1__hg_body i arg1 harg1 arg2 harg2 arg3 harg3 arg4 harg4) K := by
  simp only [cc1__hg_body_eq_skeleton]; unfold cc1__hg_body_skel
  unfold owns
  iintro ⟨⟨%f0, %hf0, H0⟩, ⟨%f1, %hf1, H1⟩, ⟨%f2, %hf2, H2⟩, ⟨%fs, %hfs, HS⟩, Hk⟩
  obtain rfl := harg1.eq_unread hf0; obtain rfl := harg2.eq_unread hf1; obtain rfl := harg3.eq_unread hf2; obtain rfl := harg4.eq_unread hfs
  sl_exec (disch := first | exact hc0 | exact hc1 | exact hc2)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  iexists _; isplitr
  swap; · iexact HS
  ipureintro
  rw [read_store_all _ _ _ zeroOff, readAt_all _ _ _ zeroOff, readAt_all _ _ _ zeroOff, readAt_all _ _ _ zeroOff, hf0, hf1, hfs]

theorem run_last (c : Dev nD) (i : grid1.Coords)
    (arg1 : Memref sig .tc .vmem S400x10000 .f32) (harg1 : arg1.IsWhole)
    (arg2 : Memref sig .tc .vmem S400x256 .f32) (harg2 : arg2.IsWhole)
    (arg3 : Memref sig .tc .vmem S10000x256 .bf16) (harg3 : arg3.IsWhole)
    (arg4 : Memref sig .tc .vmem S10000x256 .f32) (harg4 : arg4.IsWhole)
    (hc0 : ¬isFirst i) (hc1 : isLater i) (hc2 : isLast i)
    (x0 : Vec F S400x10000 .f32) (x1 : Vec F S400x256 .f32) (x2 : Vec F S10000x256 .bf16) (xs : Vec F S10000x256 .f32)
    (E : Set ℕ) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare xs
        ∗ (iprop(owns (c : Thread nD τ) arg1 fullShare x0 ∗ owns (c : Thread nD τ) arg2 fullShare x1
            ∗ owns (c : Thread nD τ) arg3 fullShare (k1_pay4 (k1_pay3 x0 x1 xs))
            ∗ owns (c : Thread nD τ) arg4 fullShare (k1_pay3 x0 x1 xs)) -∗ K ⟨⟩))
      ⊢ wp frame (wpE (defs₀ (F := F)) Variants.none c none) E (cc1__hg_body i arg1 harg1 arg2 harg2 arg3 harg3 arg4 harg4) K := by
  simp only [cc1__hg_body_eq_skeleton]; unfold cc1__hg_body_skel
  unfold owns
  iintro ⟨⟨%f0, %hf0, H0⟩, ⟨%f1, %hf1, H1⟩, ⟨%f2, %hf2, H2⟩, ⟨%fs, %hfs, HS⟩, Hk⟩
  obtain rfl := harg1.eq_unread hf0; obtain rfl := harg2.eq_unread hf1; obtain rfl := harg3.eq_unread hf2; obtain rfl := harg4.eq_unread hfs
  sl_exec (disch := first | exact hc0 | exact hc1 | exact hc2)
  sl_step
  iapply Hk
  isplitl [H0]
  · iexists _; isplitr; · ipureintro; exact hf0
    iexact H0
  isplitl [H1]
  · iexists _; isplitr; · ipureintro; exact hf1
    iexact H1
  isplitl [H2]
  · iexists _; isplitr
    swap; · iexact H2
    ipureintro
    unfold run_last.sl.v16 run_last.sl.HS_1
    rw [read_store_all _ _ _ zeroOff, View.readCov_unit_zero _ zeroOff, readAt_all _ _ _ zeroOff, readAt_all _ _ _ zeroOff,
      readAt_all _ _ _ zeroOff, hf0, hf1, hfs]
  iexists _; isplitr
  swap; · iexact HS
  ipureintro
  unfold run_last.sl.HS_1
  rw [read_store_all _ _ _ zeroOff, readAt_all _ _ _ zeroOff, readAt_all _ _ _ zeroOff, readAt_all _ _ _ zeroOff, hf0, hf1, hfs]

/-! ## The chunks, the running sum, the invariant -/

/-- The `HGᵀ` chunk staged at point `t`: the block of the transposed operator the window names there, read off the
    array as the region finds it. -/
def hgtChunk (c : Dev nD) (t : Fin cfg1.N) : Vec F S400x10000 .f32 :=
  ((cfg1.win 0).blk t).view.read (Elt F) (V c (Pipeline.arrRef spec1 0))

/-- The `z` chunk staged at point `t`. -/
def zChunk (c : Dev nD) (t : Fin cfg1.N) : Vec F S400x256 .f32 :=
  ((cfg1.win 1).blk t).view.read (Elt F) (V c (Pipeline.arrRef spec1 1))

/-- The running sum after chunk `n`: chunk 0's product, then each later chunk's product added to what was there. -/
def sumAfter (c : Dev nD) : (n : ℕ) → n < cfg1.N → Vec F S10000x256 .f32
  | 0, h => k1_pay2 (hgtChunk V c ⟨0, h⟩) (zChunk V c ⟨0, h⟩)
  | n + 1, h => k1_pay3 (hgtChunk V c ⟨n + 1, h⟩) (zChunk V c ⟨n + 1, h⟩) (sumAfter c n (Nat.lt_of_succ_lt h))

theorem sumAfter_first (c : Dev nD) (t : Fin cfg1.N) (h0 : t.val = 0) :
    sumAfter V c t.val t.isLt = k1_pay2 (hgtChunk V c t) (zChunk V c t) := by
  obtain ⟨n, hn⟩ := t
  cases n with
  | zero => rfl
  | succ n => exact absurd h0 (Nat.succ_ne_zero n)

theorem sumAfter_later (c : Dev nD) (t : Fin cfg1.N) (h0 : t.val ≠ 0) :
    sumAfter V c t.val t.isLt
      = k1_pay3 (hgtChunk V c t) (zChunk V c t) (sumAfter V c (t.val - 1) (Nat.lt_of_le_of_lt (Nat.sub_le _ _) t.isLt)) := by
  obtain ⟨n, hn⟩ := t
  cases n with
  | zero => exact absurd rfl h0
  | succ n => rfl

/-- The running sum's buffer: the call's own scratch, whole. -/
abbrev sumM : Memref sig .tc .vmem S10000x256 .f32 := Memref.whole cc1_scratch0

/-- The scoped buffers other than the running sum's, each at some contents. -/
abbrev otherScoped (c : Dev nD) : sProp 𝕄 :=
  Pipeline.scopedRestBut (Ix := Unit) (Name := ℕ) (U := UR sig nD τ) (Lvl := ℕ) (Val := Elt F) spec1 c [cc1_scratch0]

/-- The class invariant with the running sum's buffer split out, owned at some contents. -/
theorem PhiA_split (c : Dev nD) :
    (Pipeline.ΦA spec1 c : sProp 𝕄)
      = iprop(iprop((∃ d, owns (c : Thread nD τ) sumM fullShare d) ∗ otherScoped c) ∗ (∃ r, prngReg c r)) := by
  unfold Pipeline.ΦA; rw [scopedRest1_split]; simp only [sumM, owns_whole]; try rfl

/-- The invariant before position `n`: before the first chunk the class's; afterwards the running sum's buffer at the sum
    of the chunks so far, the other scoped buffers at anything, the generator register at some state. -/
def PhiSum (c : Dev nD) : (n : ℕ) → n ≤ cfg1.N → sProp 𝕄
  | 0, _ => Pipeline.ΦA spec1 c
  | n + 1, hn => iprop(iprop(owns (c : Thread nD τ) sumM fullShare (sumAfter V c n hn) ∗ otherScoped c) ∗ (∃ r, prngReg c r))

theorem PhiSum_zero (c : Dev nD) (n : ℕ) (h : n ≤ cfg1.N) (hz : n = 0) : PhiSum V c n h = Pipeline.ΦA spec1 c := by
  subst hz; rfl

theorem PhiSum_succ (c : Dev nD) (n : ℕ) (hn : n < cfg1.N) :
    PhiSum V c (n + 1) hn
      = iprop(iprop(owns (c : Thread nD τ) sumM fullShare (sumAfter V c n hn) ∗ otherScoped c) ∗ (∃ r, prngReg c r)) := rfl

theorem PhiSum_pos (c : Dev nD) (n : ℕ) (h : n ≤ cfg1.N) (hz : n ≠ 0) :
    PhiSum V c n h
      = iprop(iprop(owns (c : Thread nD τ) sumM fullShare (sumAfter V c (n - 1) (by omega)) ∗ otherScoped c) ∗ (∃ r, prngReg c r)) := by
  cases n with
  | zero => exact absurd rfl hz
  | succ n => rfl

/-- The proof data of pipeline 1 on core `c`, entered at `V`. -/
def dat1 (c : Dev nD) : Dat τ (Elt F) Unit ℕ (UR sig nD τ) ℕ cfg1 c where
  A w := V c (Pipeline.arrRef spec1 w)
  after w t := match w with
    | ⟨0, _⟩ => hgtChunk V c t
    | ⟨1, _⟩ => zChunk V c t
    | ⟨2, _⟩ => k1_pay4 (sumAfter V c t.val t.isLt)
  Φ t := PhiSum V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem share_full1 (c : Dev nD) (w : Fin cfg1.W) : (dat1 V c).share w = fullShare :=
  (dat1 V c).share_full (fun _ => rfl) w

theorem owed1 (c : Dev nD) (t : Fin (cfg1.N + 1)) : (dat1 V c).owed t = 0 := rfl

theorem Phi_castSucc (c : Dev nD) (t : Fin cfg1.N) :
    (dat1 V c).Φ t.castSucc = PhiSum V c t.val (Nat.le_of_lt t.isLt) := by
  dsimp only [dat1]; simp only [Fin.coe_castSucc]

theorem after_hgt (c : Dev nD) (t : Fin cfg1.N) : (dat1 V c).after 0 t = hgtChunk V c t := by dsimp only [dat1]
theorem after_z (c : Dev nD) (t : Fin cfg1.N) : (dat1 V c).after 1 t = zChunk V c t := by dsimp only [dat1]
theorem after_out (c : Dev nD) (t : Fin cfg1.N) : (dat1 V c).after 2 t = k1_pay4 (sumAfter V c t.val t.isLt) := by
  dsimp only [dat1]

/-- Both operand windows are fetched at every point, so their current buffers hold the point's chunk. -/
theorem before_hgt (c : Dev nD) (t : Fin cfg1.N) (d) : (dat1 V c).before 0 t d = hgtChunk V c t := by
  unfold Dat.before; rw [if_pos (fetch1_0 t)]; unfold Dat.fetched Dat.blockOf hgtChunk; rw [A_eq1]; try rfl
theorem before_z (c : Dev nD) (t : Fin cfg1.N) (d) : (dat1 V c).before 1 t d = zChunk V c t := by
  unfold Dat.before; rw [if_pos (fetch1_1 t)]; unfold Dat.fetched Dat.blockOf zChunk; rw [A_eq1]; try rfl

/-! ## The body obligation -/

/-- The current staging buffers at point `t`, as the pipeline passes them. -/
abbrev stHgt (t : Fin cfg1.N) : Memref sig .tc .vmem S400x10000 .f32 := win1_0.stage (cfg1.slots t 0)
abbrev stZ (t : Fin cfg1.N) : Memref sig .tc .vmem S400x256 .f32 := win1_1.stage (cfg1.slots t 1)
abbrev stOut (t : Fin cfg1.N) : Memref sig .tc .vmem S10000x256 .bf16 := win1_2.stage (cfg1.slots t 2)

/-- What the body is called with at point `t`, the windows one by one, -/
def bodyPre (c : Dev nD) (t : Fin cfg1.N) : sProp 𝕄 :=
  iprop((dat1 V c).Φ t.castSucc ∗ (dat1 V c).owesAt () t.castSucc
    ∗ (∃ d, owns (c : Thread nD τ) (stHgt t) fullShare ((dat1 V c).before 0 t d))
    ∗ (∃ d, owns (c : Thread nD τ) (stZ t) fullShare ((dat1 V c).before 1 t d))
    ∗ (∃ d, owns (c : Thread nD τ) (stOut t) fullShare ((dat1 V c).before 2 t d)))

/-- and what it returns. -/
def bodyPost (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 1600000 in
/-- The body at any point: the operand buffers hold the point's chunks; which of the three runs applies is read off the
    point's number; the invariant hands over the running sum's buffer (at anything before the first chunk, at the sum so
    far afterwards) and takes it back at the sum including this chunk; off the last chunk the result's buffer goes back
    as it came. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_hgt, before_z]
  rw [show (dat1 V c).owesAt () t.succ = (dat1 V c).owesAt () t.castSucc from rfl]
  rw [show (dat1 V c).Φ t.succ = PhiSum V c (t.val + 1) t.isLt from rfl, PhiSum_succ]
  rw [show (dat1 V c).leavesExact 0 t = owns (c : Thread nD τ) (stHgt t) fullShare ((dat1 V c).after 0 t) from by
    unfold Dat.leavesExact; rw [live_hgt t], after_hgt]
  rw [show (dat1 V c).leavesExact 1 t = owns (c : Thread nD τ) (stZ t) fullShare ((dat1 V c).after 1 t) from by
    unfold Dat.leavesExact; rw [live_z t], after_z]
  have hN : t.val < 5 := lt_of_lt_of_eq t.isLt (show cfg1.N = 5 from N_1)
  by_cases h0 : t.val = 0
  · have hc0 : isFirst (grid1.coords t) := (isFirst_iff t).mpr h0
    have hc1 : ¬isLater (grid1.coords t) := fun h => (isLater_iff t).mp h h0
    have hc2 : ¬isLast (grid1.coords t) := fun h => by have := (isLast_iff t).mp h; omega
    rw [Dat.leavesExact_idle (dat1 V c) 2 t (idle_out t hc2) (noFlush_out t hc2)]
    rw [sumAfter_first V c t h0, Phi_castSucc V c t, PhiSum_zero V c _ _ h0, PhiA_split]
    iintro ⟨⟨⟨⟨%ds, HS⟩, Hr⟩, Hg⟩, Ho, ⟨%d0, H0⟩, ⟨%d1, H1⟩, ⟨%d2, H2⟩⟩
    iapply (run_first c (grid1.coords t) _ _ _ _ _ _ _ _ hc0 hc1 hc2 (hgtChunk V c t) (zChunk V c t) _ ds Set.univ _)
    isplitl [H0]; · iexact H0
    isplitl [H1]; · iexact H1
    isplitl [H2]; · iexact H2
    isplitl [HS]; · iexact HS
    iintro ⟨H0, H1, H2, HS⟩
    isplitl [HS Hr Hg]
    · isplitr [Hg]
      · isplitl [HS]; · iexact HS
        iexact Hr
      iexact Hg
    isplitl [Ho]; · iexact Ho
    isplitl [H0]; · iexact H0
    isplitl [H1]; · iexact H1
    iexists d2; iexact H2
  · have hc0 : ¬isFirst (grid1.coords t) := fun h => h0 ((isFirst_iff t).mp h)
    have hc1 : isLater (grid1.coords t) := (isLater_iff t).mpr h0
    rw [sumAfter_later V c t h0, Phi_castSucc V c t, PhiSum_pos V c _ _ h0]
    by_cases h4 : t.val = 4
    · have hc2 : isLast (grid1.coords t) := (isLast_iff t).mpr h4
      rw [show (dat1 V c).leavesExact 2 t = owns (c : Thread nD τ) (stOut t) fullShare ((dat1 V c).after 2 t) from by
        unfold Dat.leavesExact; rw [live_out t hc2], after_out, sumAfter_later V c t h0]
      iintro ⟨⟨⟨HS, Hr⟩, Hg⟩, Ho, ⟨%d0, H0⟩, ⟨%d1, H1⟩, ⟨%d2, H2⟩⟩
      iapply (run_last c (grid1.coords t) _ _ _ _ _ _ _ _ hc0 hc1 hc2 (hgtChunk V c t) (zChunk V c t) _ _ Set.univ _)
      isplitl [H0]; · iexact H0
      isplitl [H1]; · iexact H1
      isplitl [H2]; · iexact H2
      isplitl [HS]; · iexact HS
      iintro ⟨H0, H1, H2, HS⟩
      isplitl [HS Hr Hg]
      · isplitr [Hg]
        · isplitl [HS]; · iexact HS
          iexact Hr
        iexact Hg
      isplitl [Ho]; · iexact Ho
      isplitl [H0]; · iexact H0
      isplitl [H1]; · iexact H1
      iexact H2
    · have hc2 : ¬isLast (grid1.coords t) := fun h => h4 ((isLast_iff t).mp h)
      rw [Dat.leavesExact_idle (dat1 V c) 2 t (idle_out t hc2) (noFlush_out t hc2)]
      iintro ⟨⟨⟨HS, Hr⟩, Hg⟩, Ho, ⟨%d0, H0⟩, ⟨%d1, H1⟩, ⟨%d2, H2⟩⟩
      iapply (run_later c (grid1.coords t) _ _ _ _ _ _ _ _ hc0 hc1 hc2 (hgtChunk V c t) (zChunk V c t) _ _ Set.univ _)
      isplitl [H0]; · iexact H0
      isplitl [H1]; · iexact H1
      isplitl [H2]; · iexact H2
      isplitl [HS]; · iexact HS
      iintro ⟨H0, H1, H2, HS⟩
      isplitl [HS Hr Hg]
      · isplitr [Hg]
        · isplitl [HS]; · iexact HS
          iexact Hr
        iexact Hg
      isplitl [Ho]; · iexact Ho
      isplitl [H0]; · iexact H0
      isplitl [H1]; · iexact H1
      iexists d2; iexact H2

theorem body_obligation1 (c : Dev nD) :
    BodyObligation (dat1 (F := F) V c) (defs₀ (F := F)) Variants.none () Set.univ := fun t => by
  rw [bigSep_W1, bigSep_W1]
  exact sound_body V c t

theorem hin1 (c : Dev nD) : (Pipeline.ΦA spec1 c : sProp 𝕄) ⊢ (dat1 V c).Φ 0 := by
  rw [show (dat1 V c).Φ 0 = PhiSum V c 0 (Nat.zero_le _) from rfl, PhiSum_zero V c 0 _ rfl]

theorem hout1 (c : Dev nD) : (dat1 V c).Φ (Fin.last cfg1.N) ⊢ (Pipeline.ΦA spec1 c : sProp 𝕄) := by
  rw [show (dat1 V c).Φ (Fin.last cfg1.N) = PhiSum V c (Fin.last cfg1.N).val (Nat.le_of_lt_succ (Fin.last cfg1.N).isLt) from rfl,
    PhiSum_pos V c _ _ (by rw [Fin.val_last]; have : cfg1.N = 5 := N_1; omega), PhiA_split]
  iintro ⟨⟨HS, Hr⟩, Hg⟩
  isplitr [Hg]
  · isplitl [HS]; · iexists _; iexact HS
    iexact Hr
  iexact Hg

end Cert.Kernel.Chunk

end
-- ==== Proof.Bits.FuseData.lean ====
import proofs.«169939_g28836410425910_retrytranche2_620_30_alg».proof.Proof.Gen.Kernel.Launch
import proofs.«169939_g28836410425910_retrytranche2_620_30_alg».proof.Proof.Gen.Kernel.Skeleton
import proofs.«169939_g28836410425910_retrytranche2_620_30_alg».proof.Proof.Gen.Kernel.Points
import Idealize.ShloMosaic.Lib.Pipeline.FrameBody
import Idealize.ShloMosaic.Lib.Pipeline.Frame
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.Kernel.Fuse

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! Region 2: the projection `x·Wg + bg` kept in scratch from the first point on; at every point a 200-row block of `x·Wm₀ + relu(GG·g0)·Wm₁ + hgn·Wm₂ + bm`. -/

/-! ## The one branch of the body -/

/-- The body's conditional (`program_id == 0`), as the kernel function tests it on the grid coordinate. -/
abbrev atFirst (i : grid2.Coords) : Prop := (Scalar.cmpi .ne (Scalar.extui (Scalar.cmpi .eq (BitVec.ofNat 32 (i 0).val) 0#32)) 0#32) = 1#1

/-- It holds at the first of the 50 points and at no other. -/
theorem atFirst_iff : ∀ t : Fin cfg2.N, atFirst (grid2.coords t) ↔ t.val = 0 :=
  (by decide +kernel : ∀ t : Fin grid2.N, atFirst (grid2.coords t) ↔ t.val = 0)

/-! ## What the body computes, over the contents of the buffers it reads -/

theorem zeroOffsets : (![0, 0] : Fin 2 → Nat) = fun _ => 0 := funext fun a => by fin_cases a <;> rfl

/-- The 200 rows of `x` that belong to grid point `i`: rows `200·i` to `200·i + 199`. -/
abbrev rowsOfX (i : grid2.Coords) : Rect S10000x256 := Rect.unit (s := S10000x256) (k2_off1 i) S200x256.size (k2_off1_inb i)
/-- The three 256-row blocks of `Wm`: the rows that multiply `x`, `gnn` and `hgn`. -/
abbrev wmForX : Rect S768x256 := Rect.unit (s := S768x256) ![0, 0] S256x256.size inb_S768x256_S256x256_0_0
abbrev wmForGnn : Rect S768x256 := Rect.unit (s := S768x256) ![256, 0] S256x256.size inb_S768x256_S256x256_256_0
abbrev wmForHgn : Rect S768x256 := Rect.unit (s := S768x256) ![512, 0] S256x256.size inb_S768x256_S256x256_512_0

/-- The projection `x·Wg + bg` the first point leaves in the scratch. -/
def projection (x : Vec F S10000x256 .f32) (wg : Vec F S256x256 .f32) (bg : Vec F S1x256 .f32) : Vec F S10000x256 .bf16 :=
  k2_pay1 x wg bg

/-- The 200-row block of the fused output at grid point `i`, from the point's block of `GG`, the projection `g0`,
    the whole `x`, the point's block of `hgn`, the whole `Wm` and the bias row:
    `x[rows]·Wm[0:256] + relu(GG_block·g0)·Wm[256:512] + hgn_block·Wm[512:768] + bm`. -/
def fusedBlock (i : grid2.Coords) (gg : Vec F S200x10000 .f32) (g0 : Vec F S10000x256 .bf16) (x : Vec F S10000x256 .f32)
    (hgn : Vec F S200x256 .bf16) (wm : Vec F S768x256 .f32) (bm : Vec F S1x256 .f32) : Vec F S200x256 .f32 :=
  k2_pay2 gg g0 (View.ld x (rowsOfX i)) (View.ld wm wmForX) (View.ld wm wmForGnn) hgn (View.ld wm wmForHgn) bm

/-! ## The body's two runs -/

set_option maxHeartbeats 1000000 in
/-- AT THE FIRST POINT the body fills the scratch with the projection and then stores the point's block: the seven
    input buffers are handed back as they were, the output buffer and the scratch (both at anything before) at the
    block and at the projection. -/
theorem run_first (c : Dev nD) (i : grid2.Coords)
    (a1 : Memref sig .tc .vmem S200x10000 .f32) (h1 : a1.IsWhole) (a2 : Memref sig .tc .vmem S10000x256 .f32) (h2 : a2.IsWhole)
    (a3 : Memref sig .tc .vmem S200x256 .bf16) (h3 : a3.IsWhole) (a4 : Memref sig .tc .vmem S256x256 .f32) (h4 : a4.IsWhole)
    (a5 : Memref sig .tc .vmem S1x256 .f32) (h5 : a5.IsWhole) (a6 : Memref sig .tc .vmem S768x256 .f32) (h6 : a6.IsWhole)
    (a7 : Memref sig .tc .vmem S1x256 .f32) (h7 : a7.IsWhole) (a8 : Memref sig .tc .vmem S200x256 .f32) (h8 : a8.IsWhole)
    (a9 : Memref sig .tc .vmem S10000x256 .bf16) (h9 : a9.IsWhole)
    (hc : atFirst i)
    (gg : Vec F S200x10000 .f32) (x : Vec F S10000x256 .f32) (hgn : Vec F S200x256 .bf16) (wg : Vec F S256x256 .f32)
    (bg : Vec F S1x256 .f32) (wm : Vec F S768x256 .f32) (bm : Vec F S1x256 .f32)
    (E : Set ℕ) (K : PUnit → sProp 𝕄) :
    iprop(owns (c : Thread nD τ) a1 fullShare gg ∗ owns (c : Thread nD τ) a2 fullShare x ∗ owns (c : Thread nD τ) a3 fullShare hgn
        ∗ owns (c : Thread nD τ) a4 fullShare wg ∗ owns (c : Thread nD τ) a5 fullShare bg ∗ owns (c : Thread nD τ) a6 fullShare wm
        ∗ owns (c : Thread nD τ) a7 fullShare bm ∗ (∃ d, owns (c : Thread nD τ) a8 fullShare d) ∗ (∃ d, owns (c : Thread nD τ) a9 fullShare d)
        ∗ (iprop(owns (c : Thread nD τ) a1 fullShare gg ∗ owns (c : Thread nD τ) a2 fullShare x ∗ owns (c : Thread nD τ) a3 fullShare hgn
            ∗ owns (c : Thread nD τ) a4 fullShare wg ∗ owns (c : Thread nD τ) a5 fullShare bg ∗ owns (c : Thread nD τ) a6 fullShare wm
            ∗ owns (c : Thread nD τ) a7 fullShare bm
            ∗ owns (c : Thread nD τ) a8 fullShare (fusedBlock i gg (projection x wg bg) x hgn wm bm)
            ∗ owns (c : Thread nD τ) a9 fullShare (projection x wg bg)) -∗ K ⟨⟩))
      ⊢ wp frame (wpE (defs₀ (F := F)) Variants.none c none) E (cc2__main_body i a1 h1 a2 h2 a3 h3 a4 h4 a5 h5 a6 h6 a7 h7 a8 h8 a9 h9) K := by
  simp only [cc2__main_body_eq_skeleton]; unfold cc2__main_body_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, Hk⟩
  subst hf1 hf2 hf3 hf4 hf5 hf6 hf7
  sl_exec (disch := exact hc)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    rw [View.read_writes_eq_canon _ _ _ (fun y => ⟨_, List.mem_singleton_self _, View.mem_set_unit_zero zeroOffsets inb_S200x256_S200x256_0_0 y⟩), View.canon_unit_zero zeroOffsets]
    unfold run_first.sl.v5 run_first.sl.H9_1
    rw [View.readCov_unit_zero _ zeroOffsets]
    unfold fusedBlock projection
    simp only [View.readAt_eq_ld, View.ld_unit_zero (S := S200x10000) zeroOffsets, View.ld_unit_zero (S := S10000x256) zeroOffsets,
      View.ld_unit_zero (S := S256x256) zeroOffsets, View.ld_unit_zero (S := S1x256) zeroOffsets, View.ld_unit_zero (S := S200x256) zeroOffsets]
  iexists _; isplitr
  swap; · iexact H9
  ipureintro
  unfold run_first.sl.H9_1
  rw [View.read_writes_eq_canon _ _ _ (fun y => ⟨_, List.mem_singleton_self _, View.mem_set_unit_zero zeroOffsets inb_S10000x256_S10000x256_0_0 y⟩), View.canon_unit_zero zeroOffsets]
  unfold projection
  simp only [View.readAt_eq_ld, View.ld_unit_zero (S := S200x10000) zeroOffsets, View.ld_unit_zero (S := S10000x256) zeroOffsets,
      View.ld_unit_zero (S := S256x256) zeroOffsets, View.ld_unit_zero (S := S1x256) zeroOffsets, View.ld_unit_zero (S := S200x256) zeroOffsets]

set_option maxHeartbeats 1000000 in
/-- AT EVERY LATER POINT the body leaves the scratch alone and stores the point's block computed from it: the seven
    input buffers and the scratch are handed back as they were, the output buffer (at anything before) at the block. -/
theorem run_later (c : Dev nD) (i : grid2.Coords)
    (a1 : Memref sig .tc .vmem S200x10000 .f32) (h1 : a1.IsWhole) (a2 : Memref sig .tc .vmem S10000x256 .f32) (h2 : a2.IsWhole)
    (a3 : Memref sig .tc .vmem S200x256 .bf16) (h3 : a3.IsWhole) (a4 : Memref sig .tc .vmem S256x256 .f32) (h4 : a4.IsWhole)
    (a5 : Memref sig .tc .vmem S1x256 .f32) (h5 : a5.IsWhole) (a6 : Memref sig .tc .vmem S768x256 .f32) (h6 : a6.IsWhole)
    (a7 : Memref sig .tc .vmem S1x256 .f32) (h7 : a7.IsWhole) (a8 : Memref sig .tc .vmem S200x256 .f32) (h8 : a8.IsWhole)
    (a9 : Memref sig .tc .vmem S10000x256 .bf16) (h9 : a9.IsWhole)
    (hc : ¬ atFirst i)
    (gg : Vec F S200x10000 .f32) (x : Vec F S10000x256 .f32) (hgn : Vec F S200x256 .bf16) (wg : Vec F S256x256 .f32)
    (bg : Vec F S1x256 .f32) (wm : Vec F S768x256 .f32) (bm : Vec F S1x256 .f32) (g0 : Vec F S10000x256 .bf16)
    (E : Set ℕ) (K : PUnit → sProp 𝕄) :
    iprop(owns (c : Thread nD τ) a1 fullShare gg ∗ owns (c : Thread nD τ) a2 fullShare x ∗ owns (c : Thread nD τ) a3 fullShare hgn
        ∗ owns (c : Thread nD τ) a4 fullShare wg ∗ owns (c : Thread nD τ) a5 fullShare bg ∗ owns (c : Thread nD τ) a6 fullShare wm
        ∗ owns (c : Thread nD τ) a7 fullShare bm ∗ (∃ d, owns (c : Thread nD τ) a8 fullShare d) ∗ owns (c : Thread nD τ) a9 fullShare g0
        ∗ (iprop(owns (c : Thread nD τ) a1 fullShare gg ∗ owns (c : Thread nD τ) a2 fullShare x ∗ owns (c : Thread nD τ) a3 fullShare hgn
            ∗ owns (c : Thread nD τ) a4 fullShare wg ∗ owns (c : Thread nD τ) a5 fullShare bg ∗ owns (c : Thread nD τ) a6 fullShare wm
            ∗ owns (c : Thread nD τ) a7 fullShare bm
            ∗ owns (c : Thread nD τ) a8 fullShare (fusedBlock i gg g0 x hgn wm bm)
            ∗ owns (c : Thread nD τ) a9 fullShare g0) -∗ K ⟨⟩))
      ⊢ wp frame (wpE (defs₀ (F := F)) Variants.none c none) E (cc2__main_body i a1 h1 a2 h2 a3 h3 a4 h4 a5 h5 a6 h6 a7 h7 a8 h8 a9 h9) K := by
  simp only [cc2__main_body_eq_skeleton]; unfold cc2__main_body_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, Hk⟩
  subst hf1 hf2 hf3 hf4 hf5 hf6 hf7 hf9
  sl_exec (disch := exact hc)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    rw [View.read_writes_eq_canon _ _ _ (fun y => ⟨_, List.mem_singleton_self _, View.mem_set_unit_zero zeroOffsets inb_S200x256_S200x256_0_0 y⟩), View.canon_unit_zero zeroOffsets]
    unfold fusedBlock
    simp only [View.readAt_eq_ld, View.ld_unit_zero (S := S200x10000) zeroOffsets, View.ld_unit_zero (S := S10000x256) zeroOffsets,
      View.ld_unit_zero (S := S256x256) zeroOffsets, View.ld_unit_zero (S := S1x256) zeroOffsets, View.ld_unit_zero (S := S200x256) zeroOffsets]
  iexists f9; isplitr; · ipureintro; rfl
  iexact H9

/-! ## The proof data -/

-- what core `c`'s TensorCore buffers hold when the region is entered
variable (V : (c : Dev nD) → (b : Ref sig .tc) → Buf (Elt F) ((c : Thread nD τ).loc b))

/-- Window `w`'s block at point `t`, read off its array as the region finds it. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The first grid point. -/
def firstPoint : Fin cfg2.N := ⟨0, Nat.lt_of_lt_of_eq (by decide : 0 < 50) N_2.symm⟩

/-- What the scratch holds from the first point on: the projection of the whole `x` (window 1) by `Wg` (window 3)
    and the bias row `bg` (window 4), as the first point finds them. -/
def scratchKept (c : Dev nD) : Vec F S10000x256 .bf16 :=
  projection (iblk V c 1 firstPoint) (iblk V c 3 firstPoint) (iblk V c 4 firstPoint)

/-- The call's own scratch buffer, whole. -/
abbrev scratchBuf : Memref sig .tc .vmem S10000x256 .bf16 := Memref.whole cc2_scratch0

/-- The core's scoped buffers that no window of this call stages, apart from the call's scratch. -/
abbrev othersScoped (c : Dev nD) : sProp 𝕄 :=
  Pipeline.scopedRestBut (Ix := Unit) (Name := ℕ) (U := UR sig nD τ) (Lvl := ℕ) (Val := Elt F) spec2 c [cc2_scratch0]

/-- The invariant before position `n`: before the first point the class's (every scoped buffer at anything); after
    it the scratch at the projection, the other scoped buffers at anything, the generator register at some state. -/
def keptInv (c : Dev nD) : ℕ → sProp 𝕄
  | 0 => Pipeline.ΦA spec2 c
  | _ + 1 => iprop(owns (c : Thread nD τ) scratchBuf fullShare (scratchKept V c) ∗ othersScoped (F := F) c ∗ (∃ r, prngReg c r))

theorem keptInv_pos (c : Dev nD) (n : ℕ) (hn : n ≠ 0) :
    keptInv V c n = iprop(owns (c : Thread nD τ) scratchBuf fullShare (scratchKept V c) ∗ othersScoped (F := F) c ∗ (∃ r, prngReg c r)) := by
  cases n with
  | zero => exact absurd rfl hn
  | succ n => rfl

/-- The class's invariant with the call's scratch split out of the scoped buffers, owned at some contents. -/
theorem classInv_split (c : Dev nD) :
    (Pipeline.ΦA spec2 c : sProp 𝕄)
      = iprop(iprop(iprop(∃ d, owns (c : Thread nD τ) scratchBuf fullShare d) ∗ othersScoped (F := F) c) ∗ (∃ r, prngReg c r)) := by
  unfold Pipeline.ΦA
  rw [Pipeline.scopedRest_split_of_list spec2 c [cc2_scratch0] (by decide) (by decide)]
  simp only [scratchBuf, owns_whole]; try rfl

/-- The proof data of pipeline 2 on core `c`, entered at `V`. -/
def dat2 (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => fusedBlock (grid2.coords t) (iblk V c 0 t) (scratchKept V c) (iblk V c 1 t) (iblk V c 2 t) (iblk V c 5 t) (iblk V c 6 t)
  Φ t := keptInv V c t.val
  q _ := fullShare
  owed _ := 0

theorem A_eq2 (c : Dev nD) (w : Fin cfg2.W) : (dat2 V c).A w = V c (Pipeline.arrRef spec2 w) := by
  dsimp only [dat2]

theorem share_full2 (c : Dev nD) (w : Fin cfg2.W) : (dat2 V c).share w = fullShare :=
  (dat2 V c).share_full (fun _ => rfl) w

theorem owed2 (c : Dev nD) (t : Fin (cfg2.N + 1)) : (dat2 V c).owed t = 0 := rfl

/-- What the body leaves, window by window. -/
theorem after2_0 (c : Dev nD) (t : Fin cfg2.N) : (dat2 V c).after 0 t = iblk V c 0 t := by dsimp only [dat2]
theorem after2_1 (c : Dev nD) (t : Fin cfg2.N) : (dat2 V c).after 1 t = iblk V c 1 t := by dsimp only [dat2]
theorem after2_2 (c : Dev nD) (t : Fin cfg2.N) : (dat2 V c).after 2 t = iblk V c 2 t := by dsimp only [dat2]
theorem after2_3 (c : Dev nD) (t : Fin cfg2.N) : (dat2 V c).after 3 t = iblk V c 3 t := by dsimp only [dat2]
theorem after2_4 (c : Dev nD) (t : Fin cfg2.N) : (dat2 V c).after 4 t = iblk V c 4 t := by dsimp only [dat2]
theorem after2_5 (c : Dev nD) (t : Fin cfg2.N) : (dat2 V c).after 5 t = iblk V c 5 t := by dsimp only [dat2]
theorem after2_6 (c : Dev nD) (t : Fin cfg2.N) : (dat2 V c).after 6 t = iblk V c 6 t := by dsimp only [dat2]
theorem after2_7 (c : Dev nD) (t : Fin cfg2.N) : (dat2 V c).after 7 t
    = fusedBlock (grid2.coords t) (iblk V c 0 t) (scratchKept V c) (iblk V c 1 t) (iblk V c 2 t) (iblk V c 5 t) (iblk V c 6 t) := by dsimp only [dat2]

/-- Each input's current staging buffer holds its block at every point, fetched there or not. -/
theorem before2_0 (c : Dev nD) (t : Fin cfg2.N) (d) : (dat2 V c).before 0 t d = iblk V c 0 t :=
  ((dat2 V c).before_in_eq_fetched 0 rfl (fun _ => rfl) (fun _ _ _ => rfl)
    (fun t => by rw [after2_0]; unfold Dat.blockOf iblk; rw [A_eq2]; try rfl) t d).trans
    (by unfold Dat.fetched Dat.blockOf iblk; rw [A_eq2]; try rfl)
theorem before2_1 (c : Dev nD) (t : Fin cfg2.N) (d) : (dat2 V c).before 1 t d = iblk V c 1 t :=
  ((dat2 V c).before_in_eq_fetched 1 rfl (fun _ => rfl) (fun _ _ _ => rfl)
    (fun t => by rw [after2_1]; unfold Dat.blockOf iblk; rw [A_eq2]; try rfl) t d).trans
    (by unfold Dat.fetched Dat.blockOf iblk; rw [A_eq2]; try rfl)
theorem before2_2 (c : Dev nD) (t : Fin cfg2.N) (d) : (dat2 V c).before 2 t d = iblk V c 2 t :=
  ((dat2 V c).before_in_eq_fetched 2 rfl (fun _ => rfl) (fun _ _ _ => rfl)
    (fun t => by rw [after2_2]; unfold Dat.blockOf iblk; rw [A_eq2]; try rfl) t d).trans
    (by unfold Dat.fetched Dat.blockOf iblk; rw [A_eq2]; try rfl)
theorem before2_3 (c : Dev nD) (t : Fin cfg2.N) (d) : (dat2 V c).before 3 t d = iblk V c 3 t :=
  ((dat2 V c).before_in_eq_fetched 3 rfl (fun _ => rfl) (fun _ _ _ => rfl)
    (fun t => by rw [after2_3]; unfold Dat.blockOf iblk; rw [A_eq2]; try rfl) t d).trans
    (by unfold Dat.fetched Dat.blockOf iblk; rw [A_eq2]; try rfl)
theorem before2_4 (c : Dev nD) (t : Fin cfg2.N) (d) : (dat2 V c).before 4 t d = iblk V c 4 t :=
  ((dat2 V c).before_in_eq_fetched 4 rfl (fun _ => rfl) (fun _ _ _ => rfl)
    (fun t => by rw [after2_4]; unfold Dat.blockOf iblk; rw [A_eq2]; try rfl) t d).trans
    (by unfold Dat.fetched Dat.blockOf iblk; rw [A_eq2]; try rfl)
theorem before2_5 (c : Dev nD) (t : Fin cfg2.N) (d) : (dat2 V c).before 5 t d = iblk V c 5 t :=
  ((dat2 V c).before_in_eq_fetched 5 rfl (fun _ => rfl) (fun _ _ _ => rfl)
    (fun t => by rw [after2_5]; unfold Dat.blockOf iblk; rw [A_eq2]; try rfl) t d).trans
    (by unfold Dat.fetched Dat.blockOf iblk; rw [A_eq2]; try rfl)
theorem before2_6 (c : Dev nD) (t : Fin cfg2.N) (d) : (dat2 V c).before 6 t d = iblk V c 6 t :=
  ((dat2 V c).before_in_eq_fetched 6 rfl (fun _ => rfl) (fun _ _ _ => rfl)
    (fun t => by rw [after2_6]; unfold Dat.blockOf iblk; rw [A_eq2]; try rfl) t d).trans
    (by unfold Dat.fetched Dat.blockOf iblk; rw [A_eq2]; try rfl)

theorem inv_castSucc (c : Dev nD) (t : Fin cfg2.N) : (dat2 V c).Φ t.castSucc = keptInv V c t.val := by
  dsimp only [dat2]; simp only [Fin.coe_castSucc]

/-! ## The body obligation -/

/-- What the body is called with at point `t`, the windows one by one, -/
def bodyPre (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d)))

/-- and what it returns. -/
def bodyPost (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t))

set_option maxHeartbeats 2000000 in
/-- The body at any point: the inputs' buffers hold their blocks; at the first point the invariant hands the body the
    scratch at anything and takes it back at the projection; at a later point it hands it at the projection and takes it
    back unchanged; the other scoped buffers, the generator register and what the core owes pass through unread. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before2_0, before2_1, before2_2, before2_3, before2_4, before2_5, before2_6]
  rw [show (dat2 V c).owesAt () t.succ = (dat2 V c).owesAt () t.castSucc from rfl,
    after2_0, after2_1, after2_2, after2_3, after2_4, after2_5, after2_6, after2_7]
  rw [show (dat2 V c).Φ t.succ = keptInv V c (t.val + 1) from rfl, keptInv_pos V c (t.val + 1) (Nat.succ_ne_zero _), inv_castSucc]
  by_cases hz : t.val = 0
  · have ht : t = firstPoint := Fin.ext hz
    subst ht
    rw [show keptInv V c (firstPoint : Fin cfg2.N).val = Pipeline.ΦA spec2 c from rfl, classInv_split]
    iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (run_first c (grid2.coords firstPoint) _ _ _ _ _ _ _ _ _ _ _ _ _ _ _ _ _ _ ((atFirst_iff firstPoint).mpr rfl)
      (iblk V c 0 firstPoint) (iblk V c 1 firstPoint) (iblk V c 2 firstPoint) (iblk V c 3 firstPoint) (iblk V c 4 firstPoint)
      (iblk V c 5 firstPoint) (iblk V c 6 firstPoint) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS]; · iexact HS
    iintro ⟨H0, H1, H2, H3, H4, H5, H6, H7, HS⟩
    isplitl [HS Hrest Hg]
    · isplitl [HS]; · iexact HS
      isplitl [Hrest]; · iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · rw [keptInv_pos V c t.val hz]
    iintro ⟨⟨HS, Hrest, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (run_later c (grid2.coords t) _ _ _ _ _ _ _ _ _ _ _ _ _ _ _ _ _ _ (fun h => hz ((atFirst_iff t).mp h))
      (iblk V c 0 t) (iblk V c 1 t) (iblk V c 2 t) (iblk V c 3 t) (iblk V c 4 t)
      (iblk V c 5 t) (iblk V c 6 t) (scratchKept V c) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS]; · iexact HS
    iintro ⟨H0, H1, H2, H3, H4, H5, H6, H7, HS⟩
    isplitl [HS Hrest Hg]
    · isplitl [HS]; · iexact HS
      isplitl [Hrest]; · iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

theorem body_obligation2 (c : Dev nD) :
    BodyObligation (dat2 (F := F) V c) (defs₀ (F := F)) Variants.none () Set.univ := fun t => by
  rw [bigSep_W2, bigSep_W2]
  exact sound_body V c t

theorem hin2 (c : Dev nD) : (Pipeline.ΦA spec2 c : sProp 𝕄) ⊢ (dat2 V c).Φ 0 :=
  Idealize.SL.BI.Entails.refl _

theorem hout2 (c : Dev nD) : (dat2 V c).Φ (Fin.last cfg2.N) ⊢ (Pipeline.ΦA spec2 c : sProp 𝕄) := by
  rw [show (dat2 V c).Φ (Fin.last cfg2.N) = keptInv V c (Fin.last cfg2.N).val from rfl,
    keptInv_pos V c _ (by rw [Fin.val_last]; have : cfg2.N = 50 := N_2; omega), classInv_split]
  iintro ⟨HS, Hrest, Hg⟩
  isplitl [HS Hrest]
  · isplitl [HS]; · iexists _; iexact HS
    iexact Hrest
  iexact Hg

end Cert.Kernel.Fuse

end
-- ==== Proof.Bits.Run.lean ====
import proofs.«169939_g28836410425910_retrytranche2_620_30_alg».proof.Proof.Bits.HyperData
import proofs.«169939_g28836410425910_retrytranche2_620_30_alg».proof.Proof.Bits.ChunkData
import proofs.«169939_g28836410425910_retrytranche2_620_30_alg».proof.Proof.Bits.FuseData
import proofs.«169939_g28836410425910_retrytranche2_620_30_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! @main's run: the host stretch (four bias rows reshaped, HG transposed), then the three kernel regions one after
    the other. Between two items every unscoped buffer is held whole at a named valuation: after the host stretch the
    launch memory with the stretch's results; after a region the valuation before it with the region's arrays at what
    its write-backs leave. Every weakly fair execution ends with every unscoped buffer at the last valuation. -/

set_option maxRecDepth 16384

noncomputable section

namespace Cert.Kernel.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.Kernel Cert.Kernel.Gen Cert.Kernel.Hyper Cert.Kernel.Chunk Cert.Kernel.Fuse

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between items -/

/-- After the host stretch: region 0's entry. -/
abbrev B1 (c : Dev nD) : Valuation τ sig (Elt F) := V1 m c
/-- The same read at the TensorCore's references. -/
abbrev E1 : (c : Dev nD) → (b : Ref sig .tc) → Buf (Elt F) ((c : Thread nD τ).loc b) := fun c b => B1 m c b

/-- After region 0: its arrays at what the write-backs leave, every other buffer as entered. -/
def B2 (c : Dev nD) : Valuation τ sig (Elt F) :=
  Pipeline.withArrays spec0 c (B1 m c) fun w => (dat0 (E1 m) c).arrAt w cfg0.N
abbrev E2 : (c : Dev nD) → (b : Ref sig .tc) → Buf (Elt F) ((c : Thread nD τ).loc b) := fun c b => B2 m c b

/-- After region 1. -/
def B3 (c : Dev nD) : Valuation τ sig (Elt F) :=
  Pipeline.withArrays spec1 c (B2 m c) fun w => (dat1 (E2 m) c).arrAt w cfg1.N
abbrev E3 : (c : Dev nD) → (b : Ref sig .tc) → Buf (Elt F) ((c : Thread nD τ).loc b) := fun c b => B3 m c b

/-- After region 2: what @main returns with. -/
def B4 (c : Dev nD) : Valuation τ sig (Elt F) :=
  Pipeline.withArrays spec2 c (B3 m c) fun w => (dat2 (E3 m) c).arrAt w cfg2.N
abbrev E4 : (c : Dev nD) → (b : Ref sig .tc) → Buf (Elt F) ((c : Thread nD τ).loc b) := fun c b => B4 m c b

theorem B2_arr (c : Dev nD) (w : Fin cfg0.W) :
    B2 m c (Proc.devRef .tc (Pipeline.arrRef spec0 w)) = (dat0 (E1 m) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m c (Proc.devRef .tc b) = B1 m c (Proc.devRef .tc b) := by
  unfold B2; exact Pipeline.withArrays_of_ne spec0 c _ _ b hb
theorem B3_arr (c : Dev nD) (w : Fin cfg1.W) :
    B3 m c (Proc.devRef .tc (Pipeline.arrRef spec1 w)) = (dat1 (E2 m) c).arrAt w cfg1.N := by
  unfold B3; exact Pipeline.withArrays_arr spec1 launch1.win.arr_inj c _ _ w
theorem B3_of_ne (c : Dev nD) (b : Ref sig .tc) (hb : ∀ w, Pipeline.arrRef spec1 w ≠ b) :
    B3 m c (Proc.devRef .tc b) = B2 m c (Proc.devRef .tc b) := by
  unfold B3; exact Pipeline.withArrays_of_ne spec1 c _ _ b hb
theorem B4_arr (c : Dev nD) (w : Fin cfg2.W) :
    B4 m c (Proc.devRef .tc (Pipeline.arrRef spec2 w)) = (dat2 (E3 m) c).arrAt w cfg2.N := by
  unfold B4; exact Pipeline.withArrays_arr spec2 launch2.win.arr_inj c _ _ w
theorem B4_of_ne (c : Dev nD) (b : Ref sig .tc) (hb : ∀ w, Pipeline.arrRef spec2 w ≠ b) :
    B4 m c (Proc.devRef .tc b) = B3 m c (Proc.devRef .tc b) := by
  unfold B4; exact Pipeline.withArrays_of_ne spec2 c _ _ b hb

/-! ## The proof data family and what rides beside the buffers -/

/-- Every pipeline's proof data, each at its region's entry contents. -/
def pdats : (p : Fin 3) → (c : Dev nD) → Dat τ (Elt F) Unit ℕ (UR sig nD τ) ℕ (cfgs p) c
  | ⟨0, _⟩ => fun c => dat0 (E1 m) c
  | ⟨1, _⟩ => fun c => dat1 (E2 m) c
  | ⟨2, _⟩ => fun c => dat2 (E3 m) c

abbrev 𝒱₀ : Variants := Variants.none
/-- No core owes another anything: no level is assigned. -/
abbrev L : GSem nD τ sig → Finset Unit := fun _ => ∅
abbrev lv : GSem nD τ sig → Unit → ℕ := fun _ _ => 0
/-- Beside the buffers through every item: the core's generator register at some state, and nothing owed. -/
abbrev R (c : Dev nD) : sProp 𝕄 := iprop((∃ r, prngReg c r) ∗ ∃ W, owes (c : Thread nD τ) (0 : CellTallies nD τ sig Unit) W)

/-! ## The regions as segments

Each region is entered from every unscoped buffer at the valuation before it and left at the one after it. Its arrays
are split out of the unscoped buffers and put back at what the write-backs leave; the generator register goes into the
region's invariant and comes out; nothing is owed; the kernel has no semaphore of its own. -/

-- a library lemma stated over the pinned configuration unifies with this one only when unification may unfold plain
-- definitions in a metavariable's type
set_option backward.isDefEq.respectTransparency.types false in
/-- REGION 0: the projection `x·W1 + b1`, then `hyper` and `z` block by block. -/
def reg0 : RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ L lv 0 fun c t => owed0 (E1 m) c t
  pre c := iprop(StableHlo.held (c : Thread nD τ) (Pipeline.ucRefs τ sig) (B1 m c) ∗ R c)
  post c := iprop(StableHlo.held (c : Thread nD τ) (Pipeline.ucRefs τ sig) (B2 m c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m) launch0.win launch0.arr_whole c
      (share_full0 (E1 m) c) (E1 m c) (A_eq0 (E1 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c :=
    (show _ ⊢ (Pipeline.ΦA spec0 c : sProp 𝕄) from by
      unfold Pipeline.ΦA
      iintro ⟨Hp, -, Hr⟩
      isplitl [Hr]; · iexact Hr
      iexact Hp).trans (hin0 (E1 m) c)
  hout c := by
    rw [Pipeline.ownSems0_none]
    exact (hout0 (E1 m) c).trans (show (Pipeline.ΦA spec0 c : sProp 𝕄) ⊢ _ from by
      unfold Pipeline.ΦA
      iintro ⟨Hr, Hp⟩
      isplitl [Hp]; · iexact Hp
      isplitr; · iempintro
      iexact Hr)
  hexit c := by
    have hjoin := Pipeline.unscopedBufs_of_arrays (p := 0) (pcfgs (F := F)) adm (Ix := Unit) (Name := ℕ) (U := UR sig nD τ) (Lvl := ℕ)
      launch0.win launch0.arr_whole c (pdats m) (share_full0 (E1 m) c)
      (E1 m c) (fun b => B2 m c b) ((pdats m 0 c).arrAt · cfg0.N)
      (fun w => (B2_arr m c w).symm)
      (fun b hb => B2_of_ne m c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with this one only when unification may unfold plain
-- definitions in a metavariable's type
set_option backward.isDefEq.respectTransparency.types false in
/-- REGION 1: the chunked product `HG·z`, accumulated, and its `relu`. -/
def reg1 : RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E2 m) c).loose
  hwaits := Pipeline.hwaits_of_owed_zero _ _ _ _ L lv 1 fun c t => owed1 (E2 m) c t
  pre c := iprop(StableHlo.held (c : Thread nD τ) (Pipeline.ucRefs τ sig) (B2 m c) ∗ R c)
  post c := iprop(StableHlo.held (c : Thread nD τ) (Pipeline.ucRefs τ sig) (B3 m c) ∗ R c)
  X c := iprop(∃ r, prngReg c r)
  Y c := iprop(∃ r, prngReg c r)
  Z c := Pipeline.unscopedRest (Ix := Unit) (Name := ℕ) (U := UR sig nD τ) (Lvl := ℕ) spec1 c (E2 m c)
  hentry c := by
    rw [Pipeline.ownSems0_none]
    have hsplit := Pipeline.arrays_of_unscopedBufs (p := 1) (pcfgs (F := F)) adm (pdats m) launch1.win launch1.arr_whole c
      (share_full1 (E2 m) c) (E2 m c) (A_eq1 (E2 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c :=
    (show _ ⊢ (Pipeline.ΦA spec1 c : sProp 𝕄) from by
      unfold Pipeline.ΦA
      iintro ⟨Hp, -, Hr⟩
      isplitl [Hr]; · iexact Hr
      iexact Hp).trans (hin1 (E2 m) c)
  hout c := by
    rw [Pipeline.ownSems0_none]
    exact (hout1 (E2 m) c).trans (show (Pipeline.ΦA spec1 c : sProp 𝕄) ⊢ _ from by
      unfold Pipeline.ΦA
      iintro ⟨Hr, Hp⟩
      isplitl [Hp]; · iexact Hp
      isplitr; · iempintro
      iexact Hr)
  hexit c := by
    have hjoin := Pipeline.unscopedBufs_of_arrays (p := 1) (pcfgs (F := F)) adm (Ix := Unit) (Name := ℕ) (U := UR sig nD τ) (Lvl := ℕ)
      launch1.win launch1.arr_whole c (pdats m) (share_full1 (E2 m) c)
      (E2 m c) (fun b => B3 m c b) ((pdats m 1 c).arrAt · cfg1.N)
      (fun w => (B3_arr m c w).symm)
      (fun b hb => B3_of_ne m c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with this one only when unification may unfold plain
-- definitions in a metavariable's type
set_option backward.isDefEq.respectTransparency.types false in
/-- REGION 2: the projection `x·Wg + bg`, then the fused rows block by block. -/
def reg2 : RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (E3 m) c).loose
  hwaits := Pipeline.hwaits_of_owed_zero _ _ _ _ L lv 2 fun c t => owed2 (E3 m) c t
  pre c := iprop(StableHlo.held (c : Thread nD τ) (Pipeline.ucRefs τ sig) (B3 m c) ∗ R c)
  post c := iprop(StableHlo.held (c : Thread nD τ) (Pipeline.ucRefs τ sig) (B4 m c) ∗ R c)
  X c := iprop(∃ r, prngReg c r)
  Y c := iprop(∃ r, prngReg c r)
  Z c := Pipeline.unscopedRest (Ix := Unit) (Name := ℕ) (U := UR sig nD τ) (Lvl := ℕ) spec2 c (E3 m c)
  hentry c := by
    rw [Pipeline.ownSems0_none]
    have hsplit := Pipeline.arrays_of_unscopedBufs (p := 2) (pcfgs (F := F)) adm (pdats m) launch2.win launch2.arr_whole c
      (share_full2 (E3 m) c) (E3 m c) (A_eq2 (E3 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c :=
    (show _ ⊢ (Pipeline.ΦA spec2 c : sProp 𝕄) from by
      unfold Pipeline.ΦA
      iintro ⟨Hp, -, Hr⟩
      isplitl [Hr]; · iexact Hr
      iexact Hp).trans (hin2 (E3 m) c)
  hout c := by
    rw [Pipeline.ownSems0_none]
    exact (hout2 (E3 m) c).trans (show (Pipeline.ΦA spec2 c : sProp 𝕄) ⊢ _ from by
      unfold Pipeline.ΦA
      iintro ⟨Hr, Hp⟩
      isplitl [Hp]; · iexact Hp
      isplitr; · iempintro
      iexact Hr)
  hexit c := by
    have hjoin := Pipeline.unscopedBufs_of_arrays (p := 2) (pcfgs (F := F)) adm (Ix := Unit) (Name := ℕ) (U := UR sig nD τ) (Lvl := ℕ)
      launch2.win launch2.arr_whole c (pdats m) (share_full2 (E3 m) c)
      (E3 m c) (fun b => B4 m c b) ((pdats m 2 c).arrAt · cfg2.N)
      (fun w => (B4_arr m c w).symm)
      (fun b hb => B4_of_ne m c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's four items in order: the host stretch from the launch memory, then the three regions. -/
abbrev items (c : Dev nD) : List (Seg (pcfgs (F := F)) adm (pdats m) () defs₀ 𝒱₀ L lv) :=
  [.host (seg0 m 𝒱₀ L lv (fun _ => R)), .region (reg0 m), .region (reg1 m), .region (reg2 m)]

/-- The last thread state without the `owes`: every unscoped buffer at the last valuation, the generator register at
    some state. -/
abbrev Tₙ (c : Dev nD) : sProp 𝕄 :=
  iprop(StableHlo.held (c : Thread nD τ) (Pipeline.ucRefs τ sig) (B4 m c) ∗ ∃ r, prngReg c r)

-- the launch theorem's implicit arguments are found by unifying its conclusion with this one, which takes unfolding
-- plain definitions in a metavariable's type
set_option backward.isDefEq.respectTransparency.types false in
/-- From any memory with zero counters, every weakly fair execution of @main on the TensorCores terminates, nothing
    faulting, and in every final state each unscoped buffer holds the last valuation's contents: the launch over the
    four items, the last thread state read against the final state. -/
theorem run_bufs : θ_run defs (onTc (τ := τ) (main (F := F))) ⟨m, fun _ => 0, ρ⟩ (fun r => ∀ c : Dev nD,
      ∀ b ∈ Pipeline.ucRefs τ sig, r.2.mem (((c : Thread nD τ)).1, b) = B4 m c b) := by
  refine Pipeline.θ_run_regions_kit_dev (pcfgs (F := F)) adm (pdats m) () cellOf_inj emb₁ defs₀ 𝒱₀ L lv m ρ main
    (items m)
    (fun c Q => by
      rewrite [main_chain c, Seg.run_eq_chain,
        show (items m c).map Seg.prog = [
          StableHlo.seq hostOps0,
          Prog.lift (.customCall (Pipeline.entry 0) ()),
          Prog.lift (.customCall (Pipeline.entry 1) ()),
          Prog.lift (.customCall (Pipeline.entry 2) ()) ] from rfl]
      exact .rfl)
    (fun c => by simp only [items, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c)) (Tₙ := Tₙ m)
    (hch := fun c => ⟨.rfl, .rfl, .rfl, .rfl,
      (show iprop(StableHlo.held (c : Thread nD τ) (Pipeline.ucRefs τ sig) (B4 m c) ∗ R c)
          ⊢ (iprop(Tₙ m c ∗ ∃ W, owes (c : Thread nD τ) (0 : CellTallies nD τ sig Unit) W) : sProp 𝕄) from by
        iintro ⟨Hh, Hp, HO⟩
        isplitl [Hh Hp]
        · isplitl [Hh]; · iexact Hh
          iexact Hp
        iexact HO)⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B4 m c b)
    (hfin := fun c s' => by
      iintro ⟨⟨Hh, -⟩, HSI⟩
      unfold StableHlo.held
      imodintro
      iapply (pointsTo_read_all (Pipeline.ucRefs τ sig) (fun b => (((c : Thread nD τ)).1, b)) (B4 m c) s')
      isplitl [Hh] <;> iassumption)
    (hQ := fun s h c => h c)

/-! ## The arguments end as launched

No item writes an argument: a region reads it through an input window, whose array the pipeline never writes, or does not
stage it at all; the host stretch writes only its own five results. -/

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- Region 0 leaves an input window's array as it found it. -/
theorem B2_in (c : Dev nD) (w : Fin cfg0.W) (hw : (cfg0.win w).isOut = false) :
    B2 m c (Proc.devRef .tc (Pipeline.arrRef spec0 w)) = B1 m c (Proc.devRef .tc (Pipeline.arrRef spec0 w)) :=
  (B2_arr m c w).trans (((dat0 (E1 m) c).arrAt_in w hw _).trans (A_eq0 (E1 m) c w))
/-- Region 1 leaves an input window's array as it found it. -/
theorem B3_in (c : Dev nD) (w : Fin cfg1.W) (hw : (cfg1.win w).isOut = false) :
    B3 m c (Proc.devRef .tc (Pipeline.arrRef spec1 w)) = B2 m c (Proc.devRef .tc (Pipeline.arrRef spec1 w)) :=
  (B3_arr m c w).trans (((dat1 (E2 m) c).arrAt_in w hw _).trans (A_eq1 (E2 m) c w))
/-- Region 2 leaves an input window's array as it found it. -/
theorem B4_in (c : Dev nD) (w : Fin cfg2.W) (hw : (cfg2.win w).isOut = false) :
    B4 m c (Proc.devRef .tc (Pipeline.arrRef spec2 w)) = B3 m c (Proc.devRef .tc (Pipeline.arrRef spec2 w)) :=
  (B4_arr m c w).trans (((dat2 (E3 m) c).arrAt_in w hw _).trans (A_eq2 (E3 m) c w))

theorem B4_main_arg0 (c : Dev nD) : B4 m c (Proc.devRef .tc main_arg0) = m ((c : Thread nD τ).loc main_arg0) :=
  calc B4 m c (Proc.devRef .tc main_arg0)
    _ = B3 m c (Proc.devRef .tc main_arg0) := B4_in m c 1 rfl
    _ = B2 m c (Proc.devRef .tc main_arg0) := B3_of_ne m c main_arg0 (by decide)
    _ = B1 m c (Proc.devRef .tc main_arg0) := B2_in m c 1 rfl
    _ = V0 m c (Proc.devRef .tc main_arg0) := V1_of m c main_arg0 (by decide)
    _ = m ((c : Thread nD τ).loc main_arg0) := rfl

theorem B4_main_arg1 (c : Dev nD) : B4 m c (Proc.devRef .tc main_arg1) = m ((c : Thread nD τ).loc main_arg1) :=
  calc B4 m c (Proc.devRef .tc main_arg1)
    _ = B3 m c (Proc.devRef .tc main_arg1) := B4_in m c 0 rfl
    _ = B2 m c (Proc.devRef .tc main_arg1) := B3_of_ne m c main_arg1 (by decide)
    _ = B1 m c (Proc.devRef .tc main_arg1) := B2_of_ne m c main_arg1 (by decide)
    _ = V0 m c (Proc.devRef .tc main_arg1) := V1_of m c main_arg1 (by decide)
    _ = m ((c : Thread nD τ).loc main_arg1) := rfl

theorem B4_main_arg2 (c : Dev nD) : B4 m c (Proc.devRef .tc main_arg2) = m ((c : Thread nD τ).loc main_arg2) :=
  calc B4 m c (Proc.devRef .tc main_arg2)
    _ = B3 m c (Proc.devRef .tc main_arg2) := B4_of_ne m c main_arg2 (by decide)
    _ = B2 m c (Proc.devRef .tc main_arg2) := B3_of_ne m c main_arg2 (by decide)
    _ = B1 m c (Proc.devRef .tc main_arg2) := B2_in m c 0 rfl
    _ = V0 m c (Proc.devRef .tc main_arg2) := V1_of m c main_arg2 (by decide)
    _ = m ((c : Thread nD τ).loc main_arg2) := rfl

theorem B4_main_arg3 (c : Dev nD) : B4 m c (Proc.devRef .tc main_arg3) = m ((c : Thread nD τ).loc main_arg3) :=
  calc B4 m c (Proc.devRef .tc main_arg3)
    _ = B3 m c (Proc.devRef .tc main_arg3) := B4_of_ne m c main_arg3 (by decide)
    _ = B2 m c (Proc.devRef .tc main_arg3) := B3_of_ne m c main_arg3 (by decide)
    _ = B1 m c (Proc.devRef .tc main_arg3) := B2_of_ne m c main_arg3 (by decide)
    _ = V0 m c (Proc.devRef .tc main_arg3) := V1_of m c main_arg3 (by decide)
    _ = m ((c : Thread nD τ).loc main_arg3) := rfl

theorem B4_main_arg4 (c : Dev nD) : B4 m c (Proc.devRef .tc main_arg4) = m ((c : Thread nD τ).loc main_arg4) :=
  calc B4 m c (Proc.devRef .tc main_arg4)
    _ = B3 m c (Proc.devRef .tc main_arg4) := B4_in m c 3 rfl
    _ = B2 m c (Proc.devRef .tc main_arg4) := B3_of_ne m c main_arg4 (by decide)
    _ = B1 m c (Proc.devRef .tc main_arg4) := B2_of_ne m c main_arg4 (by decide)
    _ = V0 m c (Proc.devRef .tc main_arg4) := V1_of m c main_arg4 (by decide)
    _ = m ((c : Thread nD τ).loc main_arg4) := rfl

theorem B4_main_arg5 (c : Dev nD) : B4 m c (Proc.devRef .tc main_arg5) = m ((c : Thread nD τ).loc main_arg5) :=
  calc B4 m c (Proc.devRef .tc main_arg5)
    _ = B3 m c (Proc.devRef .tc main_arg5) := B4_of_ne m c main_arg5 (by decide)
    _ = B2 m c (Proc.devRef .tc main_arg5) := B3_of_ne m c main_arg5 (by decide)
    _ = B1 m c (Proc.devRef .tc main_arg5) := B2_of_ne m c main_arg5 (by decide)
    _ = V0 m c (Proc.devRef .tc main_arg5) := V1_of m c main_arg5 (by decide)
    _ = m ((c : Thread nD τ).loc main_arg5) := rfl

theorem B4_main_arg6 (c : Dev nD) : B4 m c (Proc.devRef .tc main_arg6) = m ((c : Thread nD τ).loc main_arg6) :=
  calc B4 m c (Proc.devRef .tc main_arg6)
    _ = B3 m c (Proc.devRef .tc main_arg6) := B4_of_ne m c main_arg6 (by decide)
    _ = B2 m c (Proc.devRef .tc main_arg6) := B3_of_ne m c main_arg6 (by decide)
    _ = B1 m c (Proc.devRef .tc main_arg6) := B2_in m c 2 rfl
    _ = V0 m c (Proc.devRef .tc main_arg6) := V1_of m c main_arg6 (by decide)
    _ = m ((c : Thread nD τ).loc main_arg6) := rfl

theorem B4_main_arg7 (c : Dev nD) : B4 m c (Proc.devRef .tc main_arg7) = m ((c : Thread nD τ).loc main_arg7) :=
  calc B4 m c (Proc.devRef .tc main_arg7)
    _ = B3 m c (Proc.devRef .tc main_arg7) := B4_of_ne m c main_arg7 (by decide)
    _ = B2 m c (Proc.devRef .tc main_arg7) := B3_of_ne m c main_arg7 (by decide)
    _ = B1 m c (Proc.devRef .tc main_arg7) := B2_of_ne m c main_arg7 (by decide)
    _ = V0 m c (Proc.devRef .tc main_arg7) := V1_of m c main_arg7 (by decide)
    _ = m ((c : Thread nD τ).loc main_arg7) := rfl

theorem B4_main_arg8 (c : Dev nD) : B4 m c (Proc.devRef .tc main_arg8) = m ((c : Thread nD τ).loc main_arg8) :=
  calc B4 m c (Proc.devRef .tc main_arg8)
    _ = B3 m c (Proc.devRef .tc main_arg8) := B4_of_ne m c main_arg8 (by decide)
    _ = B2 m c (Proc.devRef .tc main_arg8) := B3_of_ne m c main_arg8 (by decide)
    _ = B1 m c (Proc.devRef .tc main_arg8) := B2_in m c 4 rfl
    _ = V0 m c (Proc.devRef .tc main_arg8) := V1_of m c main_arg8 (by decide)
    _ = m ((c : Thread nD τ).loc main_arg8) := rfl

theorem B4_main_arg9 (c : Dev nD) : B4 m c (Proc.devRef .tc main_arg9) = m ((c : Thread nD τ).loc main_arg9) :=
  calc B4 m c (Proc.devRef .tc main_arg9)
    _ = B3 m c (Proc.devRef .tc main_arg9) := B4_of_ne m c main_arg9 (by decide)
    _ = B2 m c (Proc.devRef .tc main_arg9) := B3_of_ne m c main_arg9 (by decide)
    _ = B1 m c (Proc.devRef .tc main_arg9) := B2_of_ne m c main_arg9 (by decide)
    _ = V0 m c (Proc.devRef .tc main_arg9) := V1_of m c main_arg9 (by decide)
    _ = m ((c : Thread nD τ).loc main_arg9) := rfl

theorem B4_main_arg10 (c : Dev nD) : B4 m c (Proc.devRef .tc main_arg10) = m ((c : Thread nD τ).loc main_arg10) :=
  calc B4 m c (Proc.devRef .tc main_arg10)
    _ = B3 m c (Proc.devRef .tc main_arg10) := B4_in m c 5 rfl
    _ = B2 m c (Proc.devRef .tc main_arg10) := B3_of_ne m c main_arg10 (by decide)
    _ = B1 m c (Proc.devRef .tc main_arg10) := B2_of_ne m c main_arg10 (by decide)
    _ = V0 m c (Proc.devRef .tc main_arg10) := V1_of m c main_arg10 (by decide)
    _ = m ((c : Thread nD τ).loc main_arg10) := rfl

theorem B4_main_arg11 (c : Dev nD) : B4 m c (Proc.devRef .tc main_arg11) = m ((c : Thread nD τ).loc main_arg11) :=
  calc B4 m c (Proc.devRef .tc main_arg11)
    _ = B3 m c (Proc.devRef .tc main_arg11) := B4_of_ne m c main_arg11 (by decide)
    _ = B2 m c (Proc.devRef .tc main_arg11) := B3_of_ne m c main_arg11 (by decide)
    _ = B1 m c (Proc.devRef .tc main_arg11) := B2_of_ne m c main_arg11 (by decide)
    _ = V0 m c (Proc.devRef .tc main_arg11) := V1_of m c main_arg11 (by decide)
    _ = m ((c : Thread nD τ).loc main_arg11) := rfl

/-! ## The frame -/

/-- Every weakly fair execution of @main terminates, nothing faulting, with every argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)
      ∧       r.2.mem ((c.tc : Thread nD τ).loc main_arg7) = m ((c.tc : Thread nD τ).loc main_arg7)
      ∧       r.2.mem ((c.tc : Thread nD τ).loc main_arg8) = m ((c.tc : Thread nD τ).loc main_arg8)
      ∧       r.2.mem ((c.tc : Thread nD τ).loc main_arg9) = m ((c.tc : Thread nD τ).loc main_arg9)
      ∧       r.2.mem ((c.tc : Thread nD τ).loc main_arg10) = m ((c.tc : Thread nD τ).loc main_arg10)
      ∧       r.2.mem ((c.tc : Thread nD τ).loc main_arg11) = m ((c.tc : Thread nD τ).loc main_arg11)) :=
  (θ_run defs _ _).mono (fun r h c => ⟨(h c _ (mem_uc main_arg0 (by decide))).trans (B4_main_arg0 m c),
    (h c _ (mem_uc main_arg1 (by decide))).trans (B4_main_arg1 m c),
    (h c _ (mem_uc main_arg2 (by decide))).trans (B4_main_arg2 m c),
    (h c _ (mem_uc main_arg3 (by decide))).trans (B4_main_arg3 m c),
    (h c _ (mem_uc main_arg4 (by decide))).trans (B4_main_arg4 m c),
    (h c _ (mem_uc main_arg5 (by decide))).trans (B4_main_arg5 m c),
    (h c _ (mem_uc main_arg6 (by decide))).trans (B4_main_arg6 m c),
    (h c _ (mem_uc main_arg7 (by decide))).trans (B4_main_arg7 m c),
    (h c _ (mem_uc main_arg8 (by decide))).trans (B4_main_arg8 m c),
    (h c _ (mem_uc main_arg9 (by decide))).trans (B4_main_arg9 m c),
    (h c _ (mem_uc main_arg10 (by decide))).trans (B4_main_arg10 m c),
    (h c _ (mem_uc main_arg11 (by decide))).trans (B4_main_arg11 m c)⟩) (run_bufs m ρ)

end Cert.Kernel.Whole

end
-- ==== Proof.HyperData.lean ====
import proofs.«169939_g28836410425910_retrytranche2_620_30_alg».proof.Proof.Gen.KernelIdeal.Launch
import proofs.«169939_g28836410425910_retrytranche2_620_30_alg».proof.Proof.Gen.KernelIdeal.Skeleton
import proofs.«169939_g28836410425910_retrytranche2_620_30_alg».proof.Proof.Gen.KernelIdeal.Points
import Idealize.ShloMosaic.Lib.Pipeline.FrameBody
import Idealize.ShloMosaic.Lib.Pipeline.Frame
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

/-! Region 0: the projection `x·W1 + b1` kept in scratch from the first point on; at every point a 200-row block of `relu(HH·h0)` and of `z = hyper·W2 + b2`. -/

namespace Cert.KernelIdeal.Hyper

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The body's one conditional, as the kernel computes it from the grid coordinate: "this is the first point". -/
abbrev atFirst (i : grid0.Coords) : Prop :=
  (Scalar.cmpi .ne (Scalar.extui (Scalar.cmpi .eq (BitVec.ofNat 32 (i 0).val) 0#32)) 0#32) = 1#1

/-- Over the ten points of the grid it holds at point 0 and nowhere else. -/
theorem atFirst_iff : ∀ t : Fin cfg0.N, atFirst (grid0.coords t) ↔ t.val = 0 :=
  (by decide +kernel : ∀ t : Fin grid0.N, atFirst (grid0.coords t) ↔ t.val = 0)

theorem zeros2 : (![0, 0] : Fin 2 → ℕ) = fun _ => 0 := funext fun a => by fin_cases a <;> rfl

/-- Loading all of a whole buffer owned at `X` reads `X`. -/
theorem load_all {S : Shape} {e : EltTy} (M : Memref sig .tc .vmem S e) (hM : M.IsWhole) {off : Fin S.rank → ℕ}
    (h : off = fun _ => 0) (inb : ∀ a, off a + S.size a ≤ S.size a) (X : S.Idx → Elt F e) :
    View.readAt (Elt F) M.view (Rect.unit off S.size inb).toLoadRect (hM.unread X) = X := by
  rw [View.readAt_eq_ld, hM.read_unread, View.ld_unit_zero h]

/-- One store over all of a buffer leaves its payload there, whatever the buffer held. -/
theorem store_all {S : Shape} {e : EltTy} (M : Memref sig .tc .vmem S e) (f : M.view.ty.Contents (Elt F)) {off : Fin S.rank → ℕ}
    (h : off = fun _ => 0) (inb : ∀ a, off a + S.size a ≤ S.size a) (w : S.Idx → Elt F e) :
    View.read (Elt F) M.view (M.view.writes (Elt F) f [⟨Rect.unit off S.size inb, w⟩]) = w := by
  rw [View.read_writes_eq_canon _ _ _ (fun y => ⟨_, List.mem_singleton_self _, View.mem_set_unit_zero h inb y⟩),
    View.canon_unit_zero h]

/-- A point after the first: the conditional is skipped; the two output buffers are overwritten whole from the row
    block `hh` and the projection `h0` the scratch holds; everything else is as it was. -/
theorem run_later (c : Dev nD) (i : grid0.Coords) (arg1 : Memref sig .tc .vmem S200x10000 .f32) (harg1 : arg1.IsWhole) (arg2 : Memref sig .tc .vmem S10000x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S200x256 .f32) (harg7 : arg7.IsWhole) (arg8 : Memref sig .tc .vmem S200x256 .f32) (harg8 : arg8.IsWhole) (arg9 : Memref sig .tc .vmem S10000x256 .bf16) (harg9 : arg9.IsWhole)
    (hc : ¬ atFirst i)
    (hh : Vec F S200x10000 .f32) (x : Vec F S10000x256 .f32) (w1 : Vec F S256x256 .f32) (b1 : Vec F S1x256 .f32)
    (w2 : Vec F S256x256 .f32) (b2 : Vec F S1x256 .f32) (o6 o7 : Vec F S200x256 .f32) (h0 : Vec F S10000x256 .bf16)
    (E : Set ℕ) (K : PUnit → sProp 𝕄) :
    iprop(owns (c : Thread nD τ) arg1 fullShare hh ∗ owns (c : Thread nD τ) arg2 fullShare x ∗ owns (c : Thread nD τ) arg3 fullShare w1
        ∗ owns (c : Thread nD τ) arg4 fullShare b1 ∗ owns (c : Thread nD τ) arg5 fullShare w2 ∗ owns (c : Thread nD τ) arg6 fullShare b2
        ∗ owns (c : Thread nD τ) arg7 fullShare o6 ∗ owns (c : Thread nD τ) arg8 fullShare o7
        ∗ owns (c : Thread nD τ) arg9 fullShare h0
        ∗ (iprop(owns (c : Thread nD τ) arg1 fullShare hh ∗ owns (c : Thread nD τ) arg2 fullShare x ∗ owns (c : Thread nD τ) arg3 fullShare w1
            ∗ owns (c : Thread nD τ) arg4 fullShare b1 ∗ owns (c : Thread nD τ) arg5 fullShare w2 ∗ owns (c : Thread nD τ) arg6 fullShare b2
            ∗ owns (c : Thread nD τ) arg7 fullShare (k0_pay2 hh h0) ∗ owns (c : Thread nD τ) arg8 fullShare (k0_pay3 hh h0 w2 b2)
            ∗ owns (c : Thread nD τ) arg9 fullShare h0) -∗ K ⟨⟩))
      ⊢ wp frame (wpE (defs₀ (F := F)) Variants.none c none) E (cc0__hyper_body i arg1 harg1 arg2 harg2 arg3 harg3 arg4 harg4 arg5 harg5 arg6 harg6 arg7 harg7 arg8 harg8 arg9 harg9) K := by
  simp only [cc0__hyper_body_eq_skeleton]; unfold cc0__hyper_body_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  obtain rfl := harg1.eq_unread hf1; obtain rfl := harg2.eq_unread hf2; obtain rfl := harg3.eq_unread hf3
  obtain rfl := harg4.eq_unread hf4; obtain rfl := harg5.eq_unread hf5; obtain rfl := harg6.eq_unread hf6
  obtain rfl := harg7.eq_unread hf7; obtain rfl := harg8.eq_unread hf8; obtain rfl := harg9.eq_unread hf9
  sl_exec (disch := first | exact hc)
  sl_step
  iapply Hk
  isplitl [H1]; · iexists _; isplitr; · ipureintro; exact hf1
                  iexact H1
  isplitl [H2]; · iexists _; isplitr; · ipureintro; exact hf2
                  iexact H2
  isplitl [H3]; · iexists _; isplitr; · ipureintro; exact hf3
                  iexact H3
  isplitl [H4]; · iexists _; isplitr; · ipureintro; exact hf4
                  iexact H4
  isplitl [H5]; · iexists _; isplitr; · ipureintro; exact hf5
                  iexact H5
  isplitl [H6]; · iexists _; isplitr; · ipureintro; exact hf6
                  iexact H6
  isplitl [H7]
  · iexists _; isplitr
    swap; · iexact H7
    ipureintro
    rw [store_all _ _ zeros2, load_all _ _ zeros2, load_all _ _ zeros2]
  isplitl [H8]
  · iexists _; isplitr
    swap; · iexact H8
    ipureintro
    rw [store_all _ _ zeros2, load_all _ _ zeros2, load_all _ _ zeros2, load_all _ _ zeros2, load_all _ _ zeros2]
  iexists _; isplitr; · ipureintro; exact hf9
  iexact H9

/-- The first point: the conditional is taken; the scratch, whatever it held, is overwritten whole with the projection
    of `x`, `w1`, `b1`, and the two outputs are then computed from the row block and that projection read back. -/
theorem run_first (c : Dev nD) (i : grid0.Coords) (arg1 : Memref sig .tc .vmem S200x10000 .f32) (harg1 : arg1.IsWhole) (arg2 : Memref sig .tc .vmem S10000x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S200x256 .f32) (harg7 : arg7.IsWhole) (arg8 : Memref sig .tc .vmem S200x256 .f32) (harg8 : arg8.IsWhole) (arg9 : Memref sig .tc .vmem S10000x256 .bf16) (harg9 : arg9.IsWhole)
    (hc : atFirst i)
    (hh : Vec F S200x10000 .f32) (x : Vec F S10000x256 .f32) (w1 : Vec F S256x256 .f32) (b1 : Vec F S1x256 .f32)
    (w2 : Vec F S256x256 .f32) (b2 : Vec F S1x256 .f32) (o6 o7 : Vec F S200x256 .f32) (h0 : Vec F S10000x256 .bf16)
    (E : Set ℕ) (K : PUnit → sProp 𝕄) :
    iprop(owns (c : Thread nD τ) arg1 fullShare hh ∗ owns (c : Thread nD τ) arg2 fullShare x ∗ owns (c : Thread nD τ) arg3 fullShare w1
        ∗ owns (c : Thread nD τ) arg4 fullShare b1 ∗ owns (c : Thread nD τ) arg5 fullShare w2 ∗ owns (c : Thread nD τ) arg6 fullShare b2
        ∗ owns (c : Thread nD τ) arg7 fullShare o6 ∗ owns (c : Thread nD τ) arg8 fullShare o7
        ∗ owns (c : Thread nD τ) arg9 fullShare h0
        ∗ (iprop(owns (c : Thread nD τ) arg1 fullShare hh ∗ owns (c : Thread nD τ) arg2 fullShare x ∗ owns (c : Thread nD τ) arg3 fullShare w1
            ∗ owns (c : Thread nD τ) arg4 fullShare b1 ∗ owns (c : Thread nD τ) arg5 fullShare w2 ∗ owns (c : Thread nD τ) arg6 fullShare b2
            ∗ owns (c : Thread nD τ) arg7 fullShare (k0_pay2 hh (k0_pay1 x w1 b1)) ∗ owns (c : Thread nD τ) arg8 fullShare (k0_pay3 hh (k0_pay1 x w1 b1) w2 b2)
            ∗ owns (c : Thread nD τ) arg9 fullShare (k0_pay1 x w1 b1)) -∗ K ⟨⟩))
      ⊢ wp frame (wpE (defs₀ (F := F)) Variants.none c none) E (cc0__hyper_body i arg1 harg1 arg2 harg2 arg3 harg3 arg4 harg4 arg5 harg5 arg6 harg6 arg7 harg7 arg8 harg8 arg9 harg9) K := by
  simp only [cc0__hyper_body_eq_skeleton]; unfold cc0__hyper_body_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  obtain rfl := harg1.eq_unread hf1; obtain rfl := harg2.eq_unread hf2; obtain rfl := harg3.eq_unread hf3
  obtain rfl := harg4.eq_unread hf4; obtain rfl := harg5.eq_unread hf5; obtain rfl := harg6.eq_unread hf6
  obtain rfl := harg7.eq_unread hf7; obtain rfl := harg8.eq_unread hf8; obtain rfl := harg9.eq_unread hf9
  sl_exec (disch := first | exact hc)
  sl_step
  iapply Hk
  isplitl [H1]; · iexists _; isplitr; · ipureintro; exact hf1
                  iexact H1
  isplitl [H2]; · iexists _; isplitr; · ipureintro; exact hf2
                  iexact H2
  isplitl [H3]; · iexists _; isplitr; · ipureintro; exact hf3
                  iexact H3
  isplitl [H4]; · iexists _; isplitr; · ipureintro; exact hf4
                  iexact H4
  isplitl [H5]; · iexists _; isplitr; · ipureintro; exact hf5
                  iexact H5
  isplitl [H6]; · iexists _; isplitr; · ipureintro; exact hf6
                  iexact H6
  isplitl [H7]
  · iexists _; isplitr
    swap; · iexact H7
    ipureintro
    sl_unfold_words
    rw [store_all _ _ zeros2, load_all _ _ zeros2, View.readCov_unit_zero _ zeros2, load_all _ _ zeros2, load_all _ _ zeros2, load_all _ _ zeros2]
  isplitl [H8]
  · iexists _; isplitr
    swap; · iexact H8
    ipureintro
    sl_unfold_words
    rw [store_all _ _ zeros2, load_all _ _ zeros2, View.readCov_unit_zero _ zeros2, load_all _ _ zeros2, load_all _ _ zeros2, load_all _ _ zeros2, load_all _ _ zeros2, load_all _ _ zeros2]
  iexists _; isplitr
  swap; · iexact H9
  ipureintro
  sl_unfold_words
  rw [store_all _ _ zeros2, load_all _ _ zeros2, load_all _ _ zeros2, load_all _ _ zeros2]

-- what core `c`'s TensorCore buffers hold when the region is entered
variable (V : (c : Dev nD) → (b : Ref sig .tc) → Buf (Elt F) ((c : Thread nD τ).loc b))

/-- Window `w`'s block at point `t`, read off its array as the region finds it. -/
def blockAt (c : Dev nD) (w : Fin cfg0.W) (t : Fin cfg0.N) :
    ((cfg0.win w).xblock (cfg0.grid.coords t)).Idx → Elt F (cfg0.win w).elt :=
  ((cfg0.win w).blk t).view.read (Elt F) (V c (Pipeline.arrRef spec0 w))

/-- What the scratch holds from the first point on: the projection of the whole arrays `x`, `W1` and the row `b1`,
    read as the first point's windows 1, 2, 3 show them (those windows show the same whole arrays at every point). -/
def proj (c : Dev nD) : Vec F S10000x256 .bf16 :=
  k0_pay1 (blockAt V c 1 t0_0) (blockAt V c 2 t0_0) (blockAt V c 3 t0_0)

/-- The region's invariant before position `n`: before the first point what the launch hands over (every scoped buffer
    at anything); afterwards the scratch at the projection, the other scoped buffers at anything, the generator register
    at some state. -/
def Phi (c : Dev nD) : ℕ → sProp 𝕄
  | 0 => Pipeline.ΦA spec0 c
  | _ + 1 => iprop(owns (c : Thread nD τ) (Memref.whole cc0_scratch0) fullShare (proj V c)
      ∗ Pipeline.scopedRestBut spec0 c [cc0_scratch0] ∗ (∃ r, prngReg c r))

/-- The proof data of pipeline 0 on core `c`, entered at `V`: an input's buffer holds its block after the body as before
    it; output 6's holds the rectified product of the row block with the projection, output 7's that block's `z`. -/
def dat0 (c : Dev nD) : Dat τ (Elt F) Unit ℕ (UR sig nD τ) ℕ cfg0 c where
  A w := V c (Pipeline.arrRef spec0 w)
  after w t := match w with
    | ⟨0, _⟩ => blockAt V c 0 t
    | ⟨1, _⟩ => blockAt V c 1 t
    | ⟨2, _⟩ => blockAt V c 2 t
    | ⟨3, _⟩ => blockAt V c 3 t
    | ⟨4, _⟩ => blockAt V c 4 t
    | ⟨5, _⟩ => blockAt V c 5 t
    | ⟨6, _⟩ => k0_pay2 (blockAt V c 0 t) (proj V c)
    | ⟨7, _⟩ => k0_pay3 (blockAt V c 0 t) (proj V c) (blockAt V c 4 t) (blockAt V c 5 t)
  Φ t := Phi V c t.val
  q _ := fullShare
  owed _ := 0

theorem A_eq0 (c : Dev nD) (w : Fin cfg0.W) : (dat0 V c).A w = V c (Pipeline.arrRef spec0 w) := by
  dsimp only [dat0]

theorem share_full0 (c : Dev nD) (w : Fin cfg0.W) : (dat0 V c).share w = fullShare :=
  (dat0 V c).share_full (fun _ => rfl) w

theorem owed0 (c : Dev nD) (t : Fin (cfg0.N + 1)) : (dat0 V c).owed t = 0 := rfl

/-! What the body leaves, window by window. -/
theorem after_0 (c : Dev nD) (t : Fin cfg0.N) : (dat0 V c).after 0 t = blockAt V c 0 t := by dsimp only [dat0]
theorem after_1 (c : Dev nD) (t : Fin cfg0.N) : (dat0 V c).after 1 t = blockAt V c 1 t := by dsimp only [dat0]
theorem after_2 (c : Dev nD) (t : Fin cfg0.N) : (dat0 V c).after 2 t = blockAt V c 2 t := by dsimp only [dat0]
theorem after_3 (c : Dev nD) (t : Fin cfg0.N) : (dat0 V c).after 3 t = blockAt V c 3 t := by dsimp only [dat0]
theorem after_4 (c : Dev nD) (t : Fin cfg0.N) : (dat0 V c).after 4 t = blockAt V c 4 t := by dsimp only [dat0]
theorem after_5 (c : Dev nD) (t : Fin cfg0.N) : (dat0 V c).after 5 t = blockAt V c 5 t := by dsimp only [dat0]
theorem after_6 (c : Dev nD) (t : Fin cfg0.N) :
    (dat0 V c).after 6 t = k0_pay2 (blockAt V c 0 t) (proj V c) := by dsimp only [dat0]
theorem after_7 (c : Dev nD) (t : Fin cfg0.N) :
    (dat0 V c).after 7 t = k0_pay3 (blockAt V c 0 t) (proj V c) (blockAt V c 4 t) (blockAt V c 5 t) := by dsimp only [dat0]

/-! An input's current buffer holds its block at every point, fetched there or not: where it is not fetched the block
    index has not moved and the body left the block in place. -/
theorem before_0 (c : Dev nD) (t : Fin cfg0.N) (d) : (dat0 V c).before 0 t d = blockAt V c 0 t :=
  ((dat0 V c).before_in_eq_fetched 0 rfl (fun _ => rfl) (fun _ _ _ => rfl)
      (fun t => by rw [after_0]; unfold Dat.blockOf blockAt; rw [A_eq0]; try rfl) t d).trans
    (by unfold Dat.fetched Dat.blockOf blockAt; rw [A_eq0]; try rfl)
theorem before_1 (c : Dev nD) (t : Fin cfg0.N) (d) : (dat0 V c).before 1 t d = blockAt V c 1 t :=
  ((dat0 V c).before_in_eq_fetched 1 rfl (fun _ => rfl) (fun _ _ _ => rfl)
      (fun t => by rw [after_1]; unfold Dat.blockOf blockAt; rw [A_eq0]; try rfl) t d).trans
    (by unfold Dat.fetched Dat.blockOf blockAt; rw [A_eq0]; try rfl)
theorem before_2 (c : Dev nD) (t : Fin cfg0.N) (d) : (dat0 V c).before 2 t d = blockAt V c 2 t :=
  ((dat0 V c).before_in_eq_fetched 2 rfl (fun _ => rfl) (fun _ _ _ => rfl)
      (fun t => by rw [after_2]; unfold Dat.blockOf blockAt; rw [A_eq0]; try rfl) t d).trans
    (by unfold Dat.fetched Dat.blockOf blockAt; rw [A_eq0]; try rfl)
theorem before_3 (c : Dev nD) (t : Fin cfg0.N) (d) : (dat0 V c).before 3 t d = blockAt V c 3 t :=
  ((dat0 V c).before_in_eq_fetched 3 rfl (fun _ => rfl) (fun _ _ _ => rfl)
      (fun t => by rw [after_3]; unfold Dat.blockOf blockAt; rw [A_eq0]; try rfl) t d).trans
    (by unfold Dat.fetched Dat.blockOf blockAt; rw [A_eq0]; try rfl)
theorem before_4 (c : Dev nD) (t : Fin cfg0.N) (d) : (dat0 V c).before 4 t d = blockAt V c 4 t :=
  ((dat0 V c).before_in_eq_fetched 4 rfl (fun _ => rfl) (fun _ _ _ => rfl)
      (fun t => by rw [after_4]; unfold Dat.blockOf blockAt; rw [A_eq0]; try rfl) t d).trans
    (by unfold Dat.fetched Dat.blockOf blockAt; rw [A_eq0]; try rfl)
theorem before_5 (c : Dev nD) (t : Fin cfg0.N) (d) : (dat0 V c).before 5 t d = blockAt V c 5 t :=
  ((dat0 V c).before_in_eq_fetched 5 rfl (fun _ => rfl) (fun _ _ _ => rfl)
      (fun t => by rw [after_5]; unfold Dat.blockOf blockAt; rw [A_eq0]; try rfl) t d).trans
    (by unfold Dat.fetched Dat.blockOf blockAt; rw [A_eq0]; try rfl)

/-- No window is ever idle: after the body each buffer is owned at the proof data's contents. -/
theorem leaves_eq (c : Dev nD) (w : Fin cfg0.W) (t : Fin cfg0.N) :
    (dat0 V c).leavesExact w t
      = owns (c : Thread nD τ) ((cfg0.win w).stage (cfg0.slots t w)) fullShare ((dat0 V c).after w t) := rfl

/-- The launch's invariant with this call's scratch taken out of the scoped rest. -/
theorem PhiA_split (c : Dev nD) :
    (Pipeline.ΦA spec0 c : sProp 𝕄)
      = iprop(((∃ s, owns (c : Thread nD τ) (Memref.whole cc0_scratch0) fullShare s)
          ∗ Pipeline.scopedRestBut spec0 c [cc0_scratch0]) ∗ (∃ r, prngReg c r)) := by
  unfold Pipeline.ΦA
  rw [show (Pipeline.scopedRest spec0 c : sProp 𝕄)
      = iprop(iprop(∃ f : Buf (Elt F) ((c : Thread nD τ).loc cc0_scratch0), ((c : Thread nD τ).loc cc0_scratch0) ↦{fullShare} f)
          ∗ Pipeline.scopedRestBut spec0 c [cc0_scratch0]) from
    Pipeline.scopedRest_split_of_list spec0 c [cc0_scratch0] (by decide) (by decide)]
  simp only [owns_whole]

theorem Phi_pos (c : Dev nD) (n : ℕ) (hn : n ≠ 0) :
    Phi V c n = iprop(owns (c : Thread nD τ) (Memref.whole cc0_scratch0) fullShare (proj V c)
      ∗ Pipeline.scopedRestBut spec0 c [cc0_scratch0] ∗ (∃ r, prngReg c r)) := by
  cases n with
  | zero => exact absurd rfl hn
  | succ n => rfl

theorem Phi_start (c : Dev nD) (t : Fin cfg0.N) : (dat0 V c).Φ t.castSucc = Phi V c t.val := rfl
theorem Phi_end (c : Dev nD) (t : Fin cfg0.N) :
    (dat0 V c).Φ t.succ = iprop(owns (c : Thread nD τ) (Memref.whole cc0_scratch0) fullShare (proj V c)
      ∗ Pipeline.scopedRestBut spec0 c [cc0_scratch0] ∗ (∃ r, prngReg c r)) := rfl

set_option maxHeartbeats 1600000 in
/-- The body at any point. The six inputs' buffers hold their blocks; the two outputs' may hold anything (the body
    overwrites them whole without using what it loads from them). At the first point the scratch is handed over at
    anything and comes back at the projection; at a later point it is handed over at the projection and comes back
    untouched. The core owes nothing throughout. -/
theorem sound_body (c : Dev nD) (t : Fin cfg0.N) :
    iprop((dat0 V c).Φ t.castSucc ∗ (dat0 V c).owesAt () t.castSucc
      ∗ (∃ d, owns (c : Thread nD τ) (win0_0.stage (cfg0.slots t 0)) fullShare ((dat0 V c).before 0 t d))
      ∗ (∃ d, owns (c : Thread nD τ) (win0_1.stage (cfg0.slots t 1)) fullShare ((dat0 V c).before 1 t d))
      ∗ (∃ d, owns (c : Thread nD τ) (win0_2.stage (cfg0.slots t 2)) fullShare ((dat0 V c).before 2 t d))
      ∗ (∃ d, owns (c : Thread nD τ) (win0_3.stage (cfg0.slots t 3)) fullShare ((dat0 V c).before 3 t d))
      ∗ (∃ d, owns (c : Thread nD τ) (win0_4.stage (cfg0.slots t 4)) fullShare ((dat0 V c).before 4 t d))
      ∗ (∃ d, owns (c : Thread nD τ) (win0_5.stage (cfg0.slots t 5)) fullShare ((dat0 V c).before 5 t d))
      ∗ (∃ d, owns (c : Thread nD τ) (win0_6.stage (cfg0.slots t 6)) fullShare ((dat0 V c).before 6 t d))
      ∗ (∃ d, owns (c : Thread nD τ) (win0_7.stage (cfg0.slots t 7)) fullShare ((dat0 V c).before 7 t d)))
    ⊢ wp frame (wpE (defs₀ (F := F)) Variants.none c none) Set.univ (bodyAt0 t) (fun _ =>
        iprop((dat0 V c).Φ t.succ ∗ (dat0 V c).owesAt () t.succ
          ∗ (dat0 V c).leavesExact 0 t ∗ (dat0 V c).leavesExact 1 t ∗ (dat0 V c).leavesExact 2 t
          ∗ (dat0 V c).leavesExact 3 t ∗ (dat0 V c).leavesExact 4 t ∗ (dat0 V c).leavesExact 5 t
          ∗ (dat0 V c).leavesExact 6 t ∗ (dat0 V c).leavesExact 7 t)) := by
  simp only [before_0, before_1, before_2, before_3, before_4, before_5]
  rw [show (dat0 V c).owesAt () t.succ = (dat0 V c).owesAt () t.castSucc from rfl]
  simp only [leaves_eq, after_0, after_1, after_2, after_3, after_4, after_5, after_6, after_7]
  rw [Phi_start, Phi_end]
  unfold bodyAt0
  by_cases hz : t.val = 0
  · -- the first point: the scratch arrives at anything and leaves at the projection
    have ht : t = t0_0 := Fin.ext hz
    subst ht
    rw [show Phi V c (t0_0 : Fin cfg0.N).val = Pipeline.ΦA spec0 c from rfl, PhiA_split]
    unfold proj
    iintro ⟨⟨⟨⟨%s, HS⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (run_first c (grid0.coords t0_0) _ _ _ _ _ _ _ _ _ _ _ _ _ _ _ _ _ _ ((atFirst_iff t0_0).mpr rfl) _ _ _ _ _ _ _ _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS]; · iexact HS
    iintro ⟨H0, H1, H2, H3, H4, H5, H6, H7, HS⟩
    isplitl [HS HR Hg]
    · isplitl [HS]; · iexact HS
      isplitl [HR]; · iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · -- a later point: the scratch arrives at the projection and is only read
    rw [Phi_pos V c _ hz]
    iintro ⟨⟨HS, HR, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (run_later c (grid0.coords t) _ _ _ _ _ _ _ _ _ _ _ _ _ _ _ _ _ _ (fun h => hz ((atFirst_iff t).mp h)) _ _ _ _ _ _ _ _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS]; · iexact HS
    iintro ⟨H0, H1, H2, H3, H4, H5, H6, H7, HS⟩
    isplitl [HS HR Hg]
    · isplitl [HS]; · iexact HS
      isplitl [HR]; · iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

/-- The library's body obligation, at every point: the windows opened one by one. -/
theorem body_obligation0 (c : Dev nD) :
    BodyObligation (dat0 (F := F) V c) (defs₀ (F := F)) Variants.none () Set.univ := fun t => by
  rw [bigSep_W0, bigSep_W0]
  exact sound_body V c t

/-- What the launch hands the region is the invariant before the first point. -/
theorem hin0 (c : Dev nD) : (Pipeline.ΦA spec0 c : sProp 𝕄) ⊢ (dat0 V c).Φ 0 := by
  rw [show (dat0 V c).Φ 0 = Pipeline.ΦA spec0 c from rfl]
  try exact Idealize.SL.BI.Entails.refl _

/-- After the last point the invariant gives the launch's back: what the scratch holds is forgotten. -/
theorem hout0 (c : Dev nD) : (dat0 V c).Φ (Fin.last cfg0.N) ⊢ (Pipeline.ΦA spec0 c : sProp 𝕄) := by
  rw [show (dat0 V c).Φ (Fin.last cfg0.N) = Phi V c (Fin.last cfg0.N).val from rfl,
    Phi_pos V c _ (by rw [Fin.val_last]; have : cfg0.N = 10 := N_0; omega), PhiA_split]
  iintro ⟨HS, HR, Hg⟩
  isplitl [HS HR]
  · isplitl [HS]
    · iexists _; iexact HS
    iexact HR
  iexact Hg

end Cert.KernelIdeal.Hyper

end
-- ==== Proof.ChunkData.lean ====
import proofs.«169939_g28836410425910_retrytranche2_620_30_alg».proof.Proof.Gen.KernelIdeal.Launch
import proofs.«169939_g28836410425910_retrytranche2_620_30_alg».proof.Proof.Gen.KernelIdeal.Skeleton
import proofs.«169939_g28836410425910_retrytranche2_620_30_alg».proof.Proof.Gen.KernelIdeal.Points
import Idealize.ShloMosaic.Lib.Pipeline.FrameBody
import Idealize.ShloMosaic.Lib.Pipeline.Frame
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

/-! Region 1: `HGᵀ[chunk]ᵀ · z[chunk]` summed over five 400-row chunks in a scratch accumulator; the last point writes `relu` of the total. -/

namespace Cert.KernelIdeal.Chunk

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- what core `c`'s TensorCore buffers hold when the region is entered
variable (V : (c : Dev nD) → (b : Ref sig .tc) → Buf (Elt F) ((c : Thread nD τ).loc b))

/-! ## The three tests on the grid coordinate

The body branches three times on the chunk number `k` (the one grid coordinate): `k = 0` (start the running sum),
`k ≠ 0` (add to it), `k = 4` (emit). Each test is spelled as the body computes it and decided once over the five points. -/

/-- The first conditional's test: the chunk number is zero. -/
abbrev isFirst (i : grid1.Coords) : Prop :=
  Scalar.cmpi .ne (Scalar.extui (Scalar.cmpi .eq (BitVec.ofNat 32 (i 0).val) 0#32)) 0#32 = 1#1
/-- The second conditional's test: the chunk number is not zero. -/
abbrev isLater (i : grid1.Coords) : Prop :=
  Scalar.cmpi .ne (Scalar.extui (Scalar.cmpi .ne (BitVec.ofNat 32 (i 0).val) 0#32)) 0#32 = 1#1
/-- The third conditional's test: the chunk number is the last one, four. -/
abbrev isLast (i : grid1.Coords) : Prop := k1_cond3 i = 1#1

theorem isFirst_iff : ∀ t : Fin cfg1.N, isFirst (grid1.coords t) ↔ t.val = 0 :=
  (by decide +kernel : ∀ t : Fin grid1.N, isFirst (grid1.coords t) ↔ t.val = 0)
theorem isLater_iff : ∀ t : Fin cfg1.N, isLater (grid1.coords t) ↔ t.val ≠ 0 :=
  (by decide +kernel : ∀ t : Fin grid1.N, isLater (grid1.coords t) ↔ t.val ≠ 0)
theorem isLast_iff : ∀ t : Fin cfg1.N, isLast (grid1.coords t) ↔ t.val = 4 :=
  (by decide +kernel : ∀ t : Fin grid1.N, isLast (grid1.coords t) ↔ t.val = 4)

/-- The two operand windows are never idle; the result's window is idle exactly off the last chunk, and is written
    back only there. -/
theorem live_hgt : ∀ t : Fin cfg1.N, cfg1.idle 0 (grid1.coords t) = false := by decide +kernel
theorem live_z : ∀ t : Fin cfg1.N, cfg1.idle 1 (grid1.coords t) = false := by decide +kernel
theorem idle_out : ∀ t : Fin cfg1.N, ¬isLast (grid1.coords t) → cfg1.idle 2 (grid1.coords t) = true := by decide +kernel
theorem live_out : ∀ t : Fin cfg1.N, isLast (grid1.coords t) → cfg1.idle 2 (grid1.coords t) = false := by decide +kernel
theorem noFlush_out : ∀ t : Fin cfg1.N, ¬isLast (grid1.coords t) → (cfg1.win 2).flush t = false := by decide +kernel

/-! ## Whole-buffer loads and stores

Every access of this body goes through the rectangle of the buffer's own sizes at offsets `(0, 0)`: a load through
it reads the contents, and one store through it leaves the stored value whatever was there. -/

theorem zeroOff : (![0, 0] : Fin 2 → ℕ) = fun _ => 0 := by
  funext a; fin_cases a <;> rfl

/-- A load of the whole of a buffer reads what the buffer holds. -/
theorem readAt_all {κ : Kind} {sp : Space} {S : Shape} {e : EltTy} (v : View sig κ sp S e) (f : v.ty.Contents (Elt F))
    (off : Fin S.rank → ℕ) (hoff : off = fun _ => 0) (inb : ∀ a, off a + S.size a ≤ S.size a) :
    v.readAt (Elt F) (Rect.unit off S.size inb).toLoadRect f = v.read (Elt F) f := by
  rw [View.readAt_eq_ld, View.ld_unit_zero hoff]

/-- One store through the whole of a buffer leaves the stored value, over any earlier contents. -/
theorem read_store_all {κ : Kind} {sp : Space} {S : Shape} {e : EltTy} (v : View sig κ sp S e) (f : v.ty.Contents (Elt F))
    (off : Fin S.rank → ℕ) (hoff : off = fun _ => 0) (inb : ∀ a, off a + S.size a ≤ S.size a) (w : S.Idx → Elt F e) :
    v.read (Elt F) (v.writes (Elt F) f [⟨Rect.unit off S.size inb, w⟩]) = w := by
  rw [View.read_writes_eq_canon _ _ _ (fun y => ⟨_, List.mem_singleton_self _, View.mem_set_unit_zero hoff inb y⟩),
    View.canon_unit_zero hoff]

/-! ## The body's three runs

On whole staging buffers holding an `HGᵀ` chunk `x0`, a `z` chunk `x1`, the result's buffer at `x2` and the running
sum at `xs`, the body leaves the chunks as they were and: at the first chunk the running sum SET to the chunk's
product; at a later chunk the product ADDED to it; at the last chunk, besides, the result's buffer at `relu` of the
new running sum. Off the last chunk the result's buffer is not touched. -/

theorem run_first (c : Dev nD) (i : grid1.Coords)
    (arg1 : Memref sig .tc .vmem S400x10000 .f32) (harg1 : arg1.IsWhole)
    (arg2 : Memref sig .tc .vmem S400x256 .f32) (harg2 : arg2.IsWhole)
    (arg3 : Memref sig .tc .vmem S10000x256 .bf16) (harg3 : arg3.IsWhole)
    (arg4 : Memref sig .tc .vmem S10000x256 .f32) (harg4 : arg4.IsWhole)
    (hc0 : isFirst i) (hc1 : ¬isLater i) (hc2 : ¬isLast i)
    (x0 : Vec F S400x10000 .f32) (x1 : Vec F S400x256 .f32) (x2 : Vec F S10000x256 .bf16) (xs : Vec F S10000x256 .f32)
    (E : Set ℕ) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare xs
        ∗ (iprop(owns (c : Thread nD τ) arg1 fullShare x0 ∗ owns (c : Thread nD τ) arg2 fullShare x1
            ∗ owns (c : Thread nD τ) arg3 fullShare x2 ∗ owns (c : Thread nD τ) arg4 fullShare (k1_pay2 x0 x1)) -∗ K ⟨⟩))
      ⊢ wp frame (wpE (defs₀ (F := F)) Variants.none c none) E (cc1__hg_body i arg1 harg1 arg2 harg2 arg3 harg3 arg4 harg4) K := by
  simp only [cc1__hg_body_eq_skeleton]; unfold cc1__hg_body_skel
  unfold owns
  iintro ⟨⟨%f0, %hf0, H0⟩, ⟨%f1, %hf1, H1⟩, ⟨%f2, %hf2, H2⟩, ⟨%fs, %hfs, HS⟩, Hk⟩
  obtain rfl := harg1.eq_unread hf0; obtain rfl := harg2.eq_unread hf1; obtain rfl := harg3.eq_unread hf2; obtain rfl := harg4.eq_unread hfs
  sl_exec (disch := first | exact hc0 | exact hc1 | exact hc2)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  iexists _; isplitr
  swap; · iexact HS
  ipureintro
  rw [read_store_all _ _ _ zeroOff, readAt_all _ _ _ zeroOff, readAt_all _ _ _ zeroOff, hf0, hf1]

theorem run_later (c : Dev nD) (i : grid1.Coords)
    (arg1 : Memref sig .tc .vmem S400x10000 .f32) (harg1 : arg1.IsWhole)
    (arg2 : Memref sig .tc .vmem S400x256 .f32) (harg2 : arg2.IsWhole)
    (arg3 : Memref sig .tc .vmem S10000x256 .bf16) (harg3 : arg3.IsWhole)
    (arg4 : Memref sig .tc .vmem S10000x256 .f32) (harg4 : arg4.IsWhole)
    (hc0 : ¬isFirst i) (hc1 : isLater i) (hc2 : ¬isLast i)
    (x0 : Vec F S400x10000 .f32) (x1 : Vec F S400x256 .f32) (x2 : Vec F S10000x256 .bf16) (xs : Vec F S10000x256 .f32)
    (E : Set ℕ) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare xs
        ∗ (iprop(owns (c : Thread nD τ) arg1 fullShare x0 ∗ owns (c : Thread nD τ) arg2 fullShare x1
            ∗ owns (c : Thread nD τ) arg3 fullShare x2 ∗ owns (c : Thread nD τ) arg4 fullShare (k1_pay3 x0 x1 xs)) -∗ K ⟨⟩))
      ⊢ wp frame (wpE (defs₀ (F := F)) Variants.none c none) E (cc1__hg_body i arg1 harg1 arg2 harg2 arg3 harg3 arg4 harg4) K := by
  simp only [cc1__hg_body_eq_skeleton]; unfold cc1__hg_body_skel
  unfold owns
  iintro ⟨⟨%f0, %hf0, H0⟩, ⟨%f1, %hf1, H1⟩, ⟨%f2, %hf2, H2⟩, ⟨%fs, %hfs, HS⟩, Hk⟩
  obtain rfl := harg1.eq_unread hf0; obtain rfl := harg2.eq_unread hf1; obtain rfl := harg3.eq_unread hf2; obtain rfl := harg4.eq_unread hfs
  sl_exec (disch := first | exact hc0 | exact hc1 | exact hc2)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  iexists _; isplitr
  swap; · iexact HS
  ipureintro
  rw [read_store_all _ _ _ zeroOff, readAt_all _ _ _ zeroOff, readAt_all _ _ _ zeroOff, readAt_all _ _ _ zeroOff, hf0, hf1, hfs]

theorem run_last (c : Dev nD) (i : grid1.Coords)
    (arg1 : Memref sig .tc .vmem S400x10000 .f32) (harg1 : arg1.IsWhole)
    (arg2 : Memref sig .tc .vmem S400x256 .f32) (harg2 : arg2.IsWhole)
    (arg3 : Memref sig .tc .vmem S10000x256 .bf16) (harg3 : arg3.IsWhole)
    (arg4 : Memref sig .tc .vmem S10000x256 .f32) (harg4 : arg4.IsWhole)
    (hc0 : ¬isFirst i) (hc1 : isLater i) (hc2 : isLast i)
    (x0 : Vec F S400x10000 .f32) (x1 : Vec F S400x256 .f32) (x2 : Vec F S10000x256 .bf16) (xs : Vec F S10000x256 .f32)
    (E : Set ℕ) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare xs
        ∗ (iprop(owns (c : Thread nD τ) arg1 fullShare x0 ∗ owns (c : Thread nD τ) arg2 fullShare x1
            ∗ owns (c : Thread nD τ) arg3 fullShare (k1_pay4 (k1_pay3 x0 x1 xs))
            ∗ owns (c : Thread nD τ) arg4 fullShare (k1_pay3 x0 x1 xs)) -∗ K ⟨⟩))
      ⊢ wp frame (wpE (defs₀ (F := F)) Variants.none c none) E (cc1__hg_body i arg1 harg1 arg2 harg2 arg3 harg3 arg4 harg4) K := by
  simp only [cc1__hg_body_eq_skeleton]; unfold cc1__hg_body_skel
  unfold owns
  iintro ⟨⟨%f0, %hf0, H0⟩, ⟨%f1, %hf1, H1⟩, ⟨%f2, %hf2, H2⟩, ⟨%fs, %hfs, HS⟩, Hk⟩
  obtain rfl := harg1.eq_unread hf0; obtain rfl := harg2.eq_unread hf1; obtain rfl := harg3.eq_unread hf2; obtain rfl := harg4.eq_unread hfs
  sl_exec (disch := first | exact hc0 | exact hc1 | exact hc2)
  sl_step
  iapply Hk
  isplitl [H0]
  · iexists _; isplitr; · ipureintro; exact hf0
    iexact H0
  isplitl [H1]
  · iexists _; isplitr; · ipureintro; exact hf1
    iexact H1
  isplitl [H2]
  · iexists _; isplitr
    swap; · iexact H2
    ipureintro
    unfold run_last.sl.v16 run_last.sl.HS_1
    rw [read_store_all _ _ _ zeroOff, View.readCov_unit_zero _ zeroOff, readAt_all _ _ _ zeroOff, readAt_all _ _ _ zeroOff,
      readAt_all _ _ _ zeroOff, hf0, hf1, hfs]
  iexists _; isplitr
  swap; · iexact HS
  ipureintro
  unfold run_last.sl.HS_1
  rw [read_store_all _ _ _ zeroOff, readAt_all _ _ _ zeroOff, readAt_all _ _ _ zeroOff, readAt_all _ _ _ zeroOff, hf0, hf1, hfs]

/-! ## The chunks, the running sum, the invariant -/

/-- The `HGᵀ` chunk staged at point `t`: the block of the transposed operator the window names there, read off the
    array as the region finds it. -/
def hgtChunk (c : Dev nD) (t : Fin cfg1.N) : Vec F S400x10000 .f32 :=
  ((cfg1.win 0).blk t).view.read (Elt F) (V c (Pipeline.arrRef spec1 0))

/-- The `z` chunk staged at point `t`. -/
def zChunk (c : Dev nD) (t : Fin cfg1.N) : Vec F S400x256 .f32 :=
  ((cfg1.win 1).blk t).view.read (Elt F) (V c (Pipeline.arrRef spec1 1))

/-- The running sum after chunk `n`: chunk 0's product, then each later chunk's product added to what was there. -/
def sumAfter (c : Dev nD) : (n : ℕ) → n < cfg1.N → Vec F S10000x256 .f32
  | 0, h => k1_pay2 (hgtChunk V c ⟨0, h⟩) (zChunk V c ⟨0, h⟩)
  | n + 1, h => k1_pay3 (hgtChunk V c ⟨n + 1, h⟩) (zChunk V c ⟨n + 1, h⟩) (sumAfter c n (Nat.lt_of_succ_lt h))

theorem sumAfter_first (c : Dev nD) (t : Fin cfg1.N) (h0 : t.val = 0) :
    sumAfter V c t.val t.isLt = k1_pay2 (hgtChunk V c t) (zChunk V c t) := by
  obtain ⟨n, hn⟩ := t
  cases n with
  | zero => rfl
  | succ n => exact absurd h0 (Nat.succ_ne_zero n)

theorem sumAfter_later (c : Dev nD) (t : Fin cfg1.N) (h0 : t.val ≠ 0) :
    sumAfter V c t.val t.isLt
      = k1_pay3 (hgtChunk V c t) (zChunk V c t) (sumAfter V c (t.val - 1) (Nat.lt_of_le_of_lt (Nat.sub_le _ _) t.isLt)) := by
  obtain ⟨n, hn⟩ := t
  cases n with
  | zero => exact absurd rfl h0
  | succ n => rfl

/-- The running sum's buffer: the call's own scratch, whole. -/
abbrev sumM : Memref sig .tc .vmem S10000x256 .f32 := Memref.whole cc1_scratch0

/-- The scoped buffers other than the running sum's, each at some contents. -/
abbrev otherScoped (c : Dev nD) : sProp 𝕄 :=
  Pipeline.scopedRestBut (Ix := Unit) (Name := ℕ) (U := UR sig nD τ) (Lvl := ℕ) (Val := Elt F) spec1 c [cc1_scratch0]

/-- The class invariant with the running sum's buffer split out, owned at some contents. -/
theorem PhiA_split (c : Dev nD) :
    (Pipeline.ΦA spec1 c : sProp 𝕄)
      = iprop(iprop((∃ d, owns (c : Thread nD τ) sumM fullShare d) ∗ otherScoped c) ∗ (∃ r, prngReg c r)) := by
  unfold Pipeline.ΦA; rw [scopedRest1_split]; simp only [sumM, owns_whole]; try rfl

/-- The invariant before position `n`: before the first chunk the class's; afterwards the running sum's buffer at the sum
    of the chunks so far, the other scoped buffers at anything, the generator register at some state. -/
def PhiSum (c : Dev nD) : (n : ℕ) → n ≤ cfg1.N → sProp 𝕄
  | 0, _ => Pipeline.ΦA spec1 c
  | n + 1, hn => iprop(iprop(owns (c : Thread nD τ) sumM fullShare (sumAfter V c n hn) ∗ otherScoped c) ∗ (∃ r, prngReg c r))

theorem PhiSum_zero (c : Dev nD) (n : ℕ) (h : n ≤ cfg1.N) (hz : n = 0) : PhiSum V c n h = Pipeline.ΦA spec1 c := by
  subst hz; rfl

theorem PhiSum_succ (c : Dev nD) (n : ℕ) (hn : n < cfg1.N) :
    PhiSum V c (n + 1) hn
      = iprop(iprop(owns (c : Thread nD τ) sumM fullShare (sumAfter V c n hn) ∗ otherScoped c) ∗ (∃ r, prngReg c r)) := rfl

theorem PhiSum_pos (c : Dev nD) (n : ℕ) (h : n ≤ cfg1.N) (hz : n ≠ 0) :
    PhiSum V c n h
      = iprop(iprop(owns (c : Thread nD τ) sumM fullShare (sumAfter V c (n - 1) (by omega)) ∗ otherScoped c) ∗ (∃ r, prngReg c r)) := by
  cases n with
  | zero => exact absurd rfl hz
  | succ n => rfl

/-- The proof data of pipeline 1 on core `c`, entered at `V`. -/
def dat1 (c : Dev nD) : Dat τ (Elt F) Unit ℕ (UR sig nD τ) ℕ cfg1 c where
  A w := V c (Pipeline.arrRef spec1 w)
  after w t := match w with
    | ⟨0, _⟩ => hgtChunk V c t
    | ⟨1, _⟩ => zChunk V c t
    | ⟨2, _⟩ => k1_pay4 (sumAfter V c t.val t.isLt)
  Φ t := PhiSum V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem share_full1 (c : Dev nD) (w : Fin cfg1.W) : (dat1 V c).share w = fullShare :=
  (dat1 V c).share_full (fun _ => rfl) w

theorem owed1 (c : Dev nD) (t : Fin (cfg1.N + 1)) : (dat1 V c).owed t = 0 := rfl

theorem Phi_castSucc (c : Dev nD) (t : Fin cfg1.N) :
    (dat1 V c).Φ t.castSucc = PhiSum V c t.val (Nat.le_of_lt t.isLt) := by
  dsimp only [dat1]; simp only [Fin.coe_castSucc]

theorem after_hgt (c : Dev nD) (t : Fin cfg1.N) : (dat1 V c).after 0 t = hgtChunk V c t := by dsimp only [dat1]
theorem after_z (c : Dev nD) (t : Fin cfg1.N) : (dat1 V c).after 1 t = zChunk V c t := by dsimp only [dat1]
theorem after_out (c : Dev nD) (t : Fin cfg1.N) : (dat1 V c).after 2 t = k1_pay4 (sumAfter V c t.val t.isLt) := by
  dsimp only [dat1]

/-- Both operand windows are fetched at every point, so their current buffers hold the point's chunk. -/
theorem before_hgt (c : Dev nD) (t : Fin cfg1.N) (d) : (dat1 V c).before 0 t d = hgtChunk V c t := by
  unfold Dat.before; rw [if_pos (fetch1_0 t)]; unfold Dat.fetched Dat.blockOf hgtChunk; rw [A_eq1]; try rfl
theorem before_z (c : Dev nD) (t : Fin cfg1.N) (d) : (dat1 V c).before 1 t d = zChunk V c t := by
  unfold Dat.before; rw [if_pos (fetch1_1 t)]; unfold Dat.fetched Dat.blockOf zChunk; rw [A_eq1]; try rfl

/-! ## The body obligation -/

/-- The current staging buffers at point `t`, as the pipeline passes them. -/
abbrev stHgt (t : Fin cfg1.N) : Memref sig .tc .vmem S400x10000 .f32 := win1_0.stage (cfg1.slots t 0)
abbrev stZ (t : Fin cfg1.N) : Memref sig .tc .vmem S400x256 .f32 := win1_1.stage (cfg1.slots t 1)
abbrev stOut (t : Fin cfg1.N) : Memref sig .tc .vmem S10000x256 .bf16 := win1_2.stage (cfg1.slots t 2)

/-- What the body is called with at point `t`, the windows one by one, -/
def bodyPre (c : Dev nD) (t : Fin cfg1.N) : sProp 𝕄 :=
  iprop((dat1 V c).Φ t.castSucc ∗ (dat1 V c).owesAt () t.castSucc
    ∗ (∃ d, owns (c : Thread nD τ) (stHgt t) fullShare ((dat1 V c).before 0 t d))
    ∗ (∃ d, owns (c : Thread nD τ) (stZ t) fullShare ((dat1 V c).before 1 t d))
    ∗ (∃ d, owns (c : Thread nD τ) (stOut t) fullShare ((dat1 V c).before 2 t d)))

/-- and what it returns. -/
def bodyPost (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 1600000 in
/-- The body at any point: the operand buffers hold the point's chunks; which of the three runs applies is read off the
    point's number; the invariant hands over the running sum's buffer (at anything before the first chunk, at the sum so
    far afterwards) and takes it back at the sum including this chunk; off the last chunk the result's buffer goes back
    as it came. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_hgt, before_z]
  rw [show (dat1 V c).owesAt () t.succ = (dat1 V c).owesAt () t.castSucc from rfl]
  rw [show (dat1 V c).Φ t.succ = PhiSum V c (t.val + 1) t.isLt from rfl, PhiSum_succ]
  rw [show (dat1 V c).leavesExact 0 t = owns (c : Thread nD τ) (stHgt t) fullShare ((dat1 V c).after 0 t) from by
    unfold Dat.leavesExact; rw [live_hgt t], after_hgt]
  rw [show (dat1 V c).leavesExact 1 t = owns (c : Thread nD τ) (stZ t) fullShare ((dat1 V c).after 1 t) from by
    unfold Dat.leavesExact; rw [live_z t], after_z]
  have hN : t.val < 5 := lt_of_lt_of_eq t.isLt (show cfg1.N = 5 from N_1)
  by_cases h0 : t.val = 0
  · have hc0 : isFirst (grid1.coords t) := (isFirst_iff t).mpr h0
    have hc1 : ¬isLater (grid1.coords t) := fun h => (isLater_iff t).mp h h0
    have hc2 : ¬isLast (grid1.coords t) := fun h => by have := (isLast_iff t).mp h; omega
    rw [Dat.leavesExact_idle (dat1 V c) 2 t (idle_out t hc2) (noFlush_out t hc2)]
    rw [sumAfter_first V c t h0, Phi_castSucc V c t, PhiSum_zero V c _ _ h0, PhiA_split]
    iintro ⟨⟨⟨⟨%ds, HS⟩, Hr⟩, Hg⟩, Ho, ⟨%d0, H0⟩, ⟨%d1, H1⟩, ⟨%d2, H2⟩⟩
    iapply (run_first c (grid1.coords t) _ _ _ _ _ _ _ _ hc0 hc1 hc2 (hgtChunk V c t) (zChunk V c t) _ ds Set.univ _)
    isplitl [H0]; · iexact H0
    isplitl [H1]; · iexact H1
    isplitl [H2]; · iexact H2
    isplitl [HS]; · iexact HS
    iintro ⟨H0, H1, H2, HS⟩
    isplitl [HS Hr Hg]
    · isplitr [Hg]
      · isplitl [HS]; · iexact HS
        iexact Hr
      iexact Hg
    isplitl [Ho]; · iexact Ho
    isplitl [H0]; · iexact H0
    isplitl [H1]; · iexact H1
    iexists d2; iexact H2
  · have hc0 : ¬isFirst (grid1.coords t) := fun h => h0 ((isFirst_iff t).mp h)
    have hc1 : isLater (grid1.coords t) := (isLater_iff t).mpr h0
    rw [sumAfter_later V c t h0, Phi_castSucc V c t, PhiSum_pos V c _ _ h0]
    by_cases h4 : t.val = 4
    · have hc2 : isLast (grid1.coords t) := (isLast_iff t).mpr h4
      rw [show (dat1 V c).leavesExact 2 t = owns (c : Thread nD τ) (stOut t) fullShare ((dat1 V c).after 2 t) from by
        unfold Dat.leavesExact; rw [live_out t hc2], after_out, sumAfter_later V c t h0]
      iintro ⟨⟨⟨HS, Hr⟩, Hg⟩, Ho, ⟨%d0, H0⟩, ⟨%d1, H1⟩, ⟨%d2, H2⟩⟩
      iapply (run_last c (grid1.coords t) _ _ _ _ _ _ _ _ hc0 hc1 hc2 (hgtChunk V c t) (zChunk V c t) _ _ Set.univ _)
      isplitl [H0]; · iexact H0
      isplitl [H1]; · iexact H1
      isplitl [H2]; · iexact H2
      isplitl [HS]; · iexact HS
      iintro ⟨H0, H1, H2, HS⟩
      isplitl [HS Hr Hg]
      · isplitr [Hg]
        · isplitl [HS]; · iexact HS
          iexact Hr
        iexact Hg
      isplitl [Ho]; · iexact Ho
      isplitl [H0]; · iexact H0
      isplitl [H1]; · iexact H1
      iexact H2
    · have hc2 : ¬isLast (grid1.coords t) := fun h => h4 ((isLast_iff t).mp h)
      rw [Dat.leavesExact_idle (dat1 V c) 2 t (idle_out t hc2) (noFlush_out t hc2)]
      iintro ⟨⟨⟨HS, Hr⟩, Hg⟩, Ho, ⟨%d0, H0⟩, ⟨%d1, H1⟩, ⟨%d2, H2⟩⟩
      iapply (run_later c (grid1.coords t) _ _ _ _ _ _ _ _ hc0 hc1 hc2 (hgtChunk V c t) (zChunk V c t) _ _ Set.univ _)
      isplitl [H0]; · iexact H0
      isplitl [H1]; · iexact H1
      isplitl [H2]; · iexact H2
      isplitl [HS]; · iexact HS
      iintro ⟨H0, H1, H2, HS⟩
      isplitl [HS Hr Hg]
      · isplitr [Hg]
        · isplitl [HS]; · iexact HS
          iexact Hr
        iexact Hg
      isplitl [Ho]; · iexact Ho
      isplitl [H0]; · iexact H0
      isplitl [H1]; · iexact H1
      iexists d2; iexact H2

theorem body_obligation1 (c : Dev nD) :
    BodyObligation (dat1 (F := F) V c) (defs₀ (F := F)) Variants.none () Set.univ := fun t => by
  rw [bigSep_W1, bigSep_W1]
  exact sound_body V c t

theorem hin1 (c : Dev nD) : (Pipeline.ΦA spec1 c : sProp 𝕄) ⊢ (dat1 V c).Φ 0 := by
  rw [show (dat1 V c).Φ 0 = PhiSum V c 0 (Nat.zero_le _) from rfl, PhiSum_zero V c 0 _ rfl]

theorem hout1 (c : Dev nD) : (dat1 V c).Φ (Fin.last cfg1.N) ⊢ (Pipeline.ΦA spec1 c : sProp 𝕄) := by
  rw [show (dat1 V c).Φ (Fin.last cfg1.N) = PhiSum V c (Fin.last cfg1.N).val (Nat.le_of_lt_succ (Fin.last cfg1.N).isLt) from rfl,
    PhiSum_pos V c _ _ (by rw [Fin.val_last]; have : cfg1.N = 5 := N_1; omega), PhiA_split]
  iintro ⟨⟨HS, Hr⟩, Hg⟩
  isplitr [Hg]
  · isplitl [HS]; · iexists _; iexact HS
    iexact Hr
  iexact Hg

end Cert.KernelIdeal.Chunk

end
-- ==== Proof.FuseData.lean ====
import proofs.«169939_g28836410425910_retrytranche2_620_30_alg».proof.Proof.Gen.KernelIdeal.Launch
import proofs.«169939_g28836410425910_retrytranche2_620_30_alg».proof.Proof.Gen.KernelIdeal.Skeleton
import proofs.«169939_g28836410425910_retrytranche2_620_30_alg».proof.Proof.Gen.KernelIdeal.Points
import Idealize.ShloMosaic.Lib.Pipeline.FrameBody
import Idealize.ShloMosaic.Lib.Pipeline.Frame
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.Fuse

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! Region 2: the projection `x·Wg + bg` kept in scratch from the first point on; at every point a 200-row block of `x·Wm₀ + relu(GG·g0)·Wm₁ + hgn·Wm₂ + bm`. -/

/-! ## The one branch of the body -/

/-- The body's conditional (`program_id == 0`), as the kernel function tests it on the grid coordinate. -/
abbrev atFirst (i : grid2.Coords) : Prop := (Scalar.cmpi .ne (Scalar.extui (Scalar.cmpi .eq (BitVec.ofNat 32 (i 0).val) 0#32)) 0#32) = 1#1

/-- It holds at the first of the 50 points and at no other. -/
theorem atFirst_iff : ∀ t : Fin cfg2.N, atFirst (grid2.coords t) ↔ t.val = 0 :=
  (by decide +kernel : ∀ t : Fin grid2.N, atFirst (grid2.coords t) ↔ t.val = 0)

/-! ## What the body computes, over the contents of the buffers it reads -/

theorem zeroOffsets : (![0, 0] : Fin 2 → Nat) = fun _ => 0 := funext fun a => by fin_cases a <;> rfl

/-- The 200 rows of `x` that belong to grid point `i`: rows `200·i` to `200·i + 199`. -/
abbrev rowsOfX (i : grid2.Coords) : Rect S10000x256 := Rect.unit (s := S10000x256) (k2_off1 i) S200x256.size (k2_off1_inb i)
/-- The three 256-row blocks of `Wm`: the rows that multiply `x`, `gnn` and `hgn`. -/
abbrev wmForX : Rect S768x256 := Rect.unit (s := S768x256) ![0, 0] S256x256.size inb_S768x256_S256x256_0_0
abbrev wmForGnn : Rect S768x256 := Rect.unit (s := S768x256) ![256, 0] S256x256.size inb_S768x256_S256x256_256_0
abbrev wmForHgn : Rect S768x256 := Rect.unit (s := S768x256) ![512, 0] S256x256.size inb_S768x256_S256x256_512_0

/-- The projection `x·Wg + bg` the first point leaves in the scratch. -/
def projection (x : Vec F S10000x256 .f32) (wg : Vec F S256x256 .f32) (bg : Vec F S1x256 .f32) : Vec F S10000x256 .bf16 :=
  k2_pay1 x wg bg

/-- The 200-row block of the fused output at grid point `i`, from the point's block of `GG`, the projection `g0`,
    the whole `x`, the point's block of `hgn`, the whole `Wm` and the bias row:
    `x[rows]·Wm[0:256] + relu(GG_block·g0)·Wm[256:512] + hgn_block·Wm[512:768] + bm`. -/
def fusedBlock (i : grid2.Coords) (gg : Vec F S200x10000 .f32) (g0 : Vec F S10000x256 .bf16) (x : Vec F S10000x256 .f32)
    (hgn : Vec F S200x256 .bf16) (wm : Vec F S768x256 .f32) (bm : Vec F S1x256 .f32) : Vec F S200x256 .f32 :=
  k2_pay2 gg g0 (View.ld x (rowsOfX i)) (View.ld wm wmForX) (View.ld wm wmForGnn) hgn (View.ld wm wmForHgn) bm

/-! ## The body's two runs -/

set_option maxHeartbeats 1000000 in
/-- AT THE FIRST POINT the body fills the scratch with the projection and then stores the point's block: the seven
    input buffers are handed back as they were, the output buffer and the scratch (both at anything before) at the
    block and at the projection. -/
theorem run_first (c : Dev nD) (i : grid2.Coords)
    (a1 : Memref sig .tc .vmem S200x10000 .f32) (h1 : a1.IsWhole) (a2 : Memref sig .tc .vmem S10000x256 .f32) (h2 : a2.IsWhole)
    (a3 : Memref sig .tc .vmem S200x256 .bf16) (h3 : a3.IsWhole) (a4 : Memref sig .tc .vmem S256x256 .f32) (h4 : a4.IsWhole)
    (a5 : Memref sig .tc .vmem S1x256 .f32) (h5 : a5.IsWhole) (a6 : Memref sig .tc .vmem S768x256 .f32) (h6 : a6.IsWhole)
    (a7 : Memref sig .tc .vmem S1x256 .f32) (h7 : a7.IsWhole) (a8 : Memref sig .tc .vmem S200x256 .f32) (h8 : a8.IsWhole)
    (a9 : Memref sig .tc .vmem S10000x256 .bf16) (h9 : a9.IsWhole)
    (hc : atFirst i)
    (gg : Vec F S200x10000 .f32) (x : Vec F S10000x256 .f32) (hgn : Vec F S200x256 .bf16) (wg : Vec F S256x256 .f32)
    (bg : Vec F S1x256 .f32) (wm : Vec F S768x256 .f32) (bm : Vec F S1x256 .f32)
    (E : Set ℕ) (K : PUnit → sProp 𝕄) :
    iprop(owns (c : Thread nD τ) a1 fullShare gg ∗ owns (c : Thread nD τ) a2 fullShare x ∗ owns (c : Thread nD τ) a3 fullShare hgn
        ∗ owns (c : Thread nD τ) a4 fullShare wg ∗ owns (c : Thread nD τ) a5 fullShare bg ∗ owns (c : Thread nD τ) a6 fullShare wm
        ∗ owns (c : Thread nD τ) a7 fullShare bm ∗ (∃ d, owns (c : Thread nD τ) a8 fullShare d) ∗ (∃ d, owns (c : Thread nD τ) a9 fullShare d)
        ∗ (iprop(owns (c : Thread nD τ) a1 fullShare gg ∗ owns (c : Thread nD τ) a2 fullShare x ∗ owns (c : Thread nD τ) a3 fullShare hgn
            ∗ owns (c : Thread nD τ) a4 fullShare wg ∗ owns (c : Thread nD τ) a5 fullShare bg ∗ owns (c : Thread nD τ) a6 fullShare wm
            ∗ owns (c : Thread nD τ) a7 fullShare bm
            ∗ owns (c : Thread nD τ) a8 fullShare (fusedBlock i gg (projection x wg bg) x hgn wm bm)
            ∗ owns (c : Thread nD τ) a9 fullShare (projection x wg bg)) -∗ K ⟨⟩))
      ⊢ wp frame (wpE (defs₀ (F := F)) Variants.none c none) E (cc2__main_body i a1 h1 a2 h2 a3 h3 a4 h4 a5 h5 a6 h6 a7 h7 a8 h8 a9 h9) K := by
  simp only [cc2__main_body_eq_skeleton]; unfold cc2__main_body_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, Hk⟩
  subst hf1 hf2 hf3 hf4 hf5 hf6 hf7
  sl_exec (disch := exact hc)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    rw [View.read_writes_eq_canon _ _ _ (fun y => ⟨_, List.mem_singleton_self _, View.mem_set_unit_zero zeroOffsets inb_S200x256_S200x256_0_0 y⟩), View.canon_unit_zero zeroOffsets]
    unfold run_first.sl.v5 run_first.sl.H9_1
    rw [View.readCov_unit_zero _ zeroOffsets]
    unfold fusedBlock projection
    simp only [View.readAt_eq_ld, View.ld_unit_zero (S := S200x10000) zeroOffsets, View.ld_unit_zero (S := S10000x256) zeroOffsets,
      View.ld_unit_zero (S := S256x256) zeroOffsets, View.ld_unit_zero (S := S1x256) zeroOffsets, View.ld_unit_zero (S := S200x256) zeroOffsets]
  iexists _; isplitr
  swap; · iexact H9
  ipureintro
  unfold run_first.sl.H9_1
  rw [View.read_writes_eq_canon _ _ _ (fun y => ⟨_, List.mem_singleton_self _, View.mem_set_unit_zero zeroOffsets inb_S10000x256_S10000x256_0_0 y⟩), View.canon_unit_zero zeroOffsets]
  unfold projection
  simp only [View.readAt_eq_ld, View.ld_unit_zero (S := S200x10000) zeroOffsets, View.ld_unit_zero (S := S10000x256) zeroOffsets,
      View.ld_unit_zero (S := S256x256) zeroOffsets, View.ld_unit_zero (S := S1x256) zeroOffsets, View.ld_unit_zero (S := S200x256) zeroOffsets]

set_option maxHeartbeats 1000000 in
/-- AT EVERY LATER POINT the body leaves the scratch alone and stores the point's block computed from it: the seven
    input buffers and the scratch are handed back as they were, the output buffer (at anything before) at the block. -/
theorem run_later (c : Dev nD) (i : grid2.Coords)
    (a1 : Memref sig .tc .vmem S200x10000 .f32) (h1 : a1.IsWhole) (a2 : Memref sig .tc .vmem S10000x256 .f32) (h2 : a2.IsWhole)
    (a3 : Memref sig .tc .vmem S200x256 .bf16) (h3 : a3.IsWhole) (a4 : Memref sig .tc .vmem S256x256 .f32) (h4 : a4.IsWhole)
    (a5 : Memref sig .tc .vmem S1x256 .f32) (h5 : a5.IsWhole) (a6 : Memref sig .tc .vmem S768x256 .f32) (h6 : a6.IsWhole)
    (a7 : Memref sig .tc .vmem S1x256 .f32) (h7 : a7.IsWhole) (a8 : Memref sig .tc .vmem S200x256 .f32) (h8 : a8.IsWhole)
    (a9 : Memref sig .tc .vmem S10000x256 .bf16) (h9 : a9.IsWhole)
    (hc : ¬ atFirst i)
    (gg : Vec F S200x10000 .f32) (x : Vec F S10000x256 .f32) (hgn : Vec F S200x256 .bf16) (wg : Vec F S256x256 .f32)
    (bg : Vec F S1x256 .f32) (wm : Vec F S768x256 .f32) (bm : Vec F S1x256 .f32) (g0 : Vec F S10000x256 .bf16)
    (E : Set ℕ) (K : PUnit → sProp 𝕄) :
    iprop(owns (c : Thread nD τ) a1 fullShare gg ∗ owns (c : Thread nD τ) a2 fullShare x ∗ owns (c : Thread nD τ) a3 fullShare hgn
        ∗ owns (c : Thread nD τ) a4 fullShare wg ∗ owns (c : Thread nD τ) a5 fullShare bg ∗ owns (c : Thread nD τ) a6 fullShare wm
        ∗ owns (c : Thread nD τ) a7 fullShare bm ∗ (∃ d, owns (c : Thread nD τ) a8 fullShare d) ∗ owns (c : Thread nD τ) a9 fullShare g0
        ∗ (iprop(owns (c : Thread nD τ) a1 fullShare gg ∗ owns (c : Thread nD τ) a2 fullShare x ∗ owns (c : Thread nD τ) a3 fullShare hgn
            ∗ owns (c : Thread nD τ) a4 fullShare wg ∗ owns (c : Thread nD τ) a5 fullShare bg ∗ owns (c : Thread nD τ) a6 fullShare wm
            ∗ owns (c : Thread nD τ) a7 fullShare bm
            ∗ owns (c : Thread nD τ) a8 fullShare (fusedBlock i gg g0 x hgn wm bm)
            ∗ owns (c : Thread nD τ) a9 fullShare g0) -∗ K ⟨⟩))
      ⊢ wp frame (wpE (defs₀ (F := F)) Variants.none c none) E (cc2__main_body i a1 h1 a2 h2 a3 h3 a4 h4 a5 h5 a6 h6 a7 h7 a8 h8 a9 h9) K := by
  simp only [cc2__main_body_eq_skeleton]; unfold cc2__main_body_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, Hk⟩
  subst hf1 hf2 hf3 hf4 hf5 hf6 hf7 hf9
  sl_exec (disch := exact hc)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    rw [View.read_writes_eq_canon _ _ _ (fun y => ⟨_, List.mem_singleton_self _, View.mem_set_unit_zero zeroOffsets inb_S200x256_S200x256_0_0 y⟩), View.canon_unit_zero zeroOffsets]
    unfold fusedBlock
    simp only [View.readAt_eq_ld, View.ld_unit_zero (S := S200x10000) zeroOffsets, View.ld_unit_zero (S := S10000x256) zeroOffsets,
      View.ld_unit_zero (S := S256x256) zeroOffsets, View.ld_unit_zero (S := S1x256) zeroOffsets, View.ld_unit_zero (S := S200x256) zeroOffsets]
  iexists f9; isplitr; · ipureintro; rfl
  iexact H9

/-! ## The proof data -/

-- what core `c`'s TensorCore buffers hold when the region is entered
variable (V : (c : Dev nD) → (b : Ref sig .tc) → Buf (Elt F) ((c : Thread nD τ).loc b))

/-- Window `w`'s block at point `t`, read off its array as the region finds it. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The first grid point. -/
def firstPoint : Fin cfg2.N := ⟨0, Nat.lt_of_lt_of_eq (by decide : 0 < 50) N_2.symm⟩

/-- What the scratch holds from the first point on: the projection of the whole `x` (window 1) by `Wg` (window 3)
    and the bias row `bg` (window 4), as the first point finds them. -/
def scratchKept (c : Dev nD) : Vec F S10000x256 .bf16 :=
  projection (iblk V c 1 firstPoint) (iblk V c 3 firstPoint) (iblk V c 4 firstPoint)

/-- The call's own scratch buffer, whole. -/
abbrev scratchBuf : Memref sig .tc .vmem S10000x256 .bf16 := Memref.whole cc2_scratch0

/-- The core's scoped buffers that no window of this call stages, apart from the call's scratch. -/
abbrev othersScoped (c : Dev nD) : sProp 𝕄 :=
  Pipeline.scopedRestBut (Ix := Unit) (Name := ℕ) (U := UR sig nD τ) (Lvl := ℕ) (Val := Elt F) spec2 c [cc2_scratch0]

/-- The invariant before position `n`: before the first point the class's (every scoped buffer at anything); after
    it the scratch at the projection, the other scoped buffers at anything, the generator register at some state. -/
def keptInv (c : Dev nD) : ℕ → sProp 𝕄
  | 0 => Pipeline.ΦA spec2 c
  | _ + 1 => iprop(owns (c : Thread nD τ) scratchBuf fullShare (scratchKept V c) ∗ othersScoped (F := F) c ∗ (∃ r, prngReg c r))

theorem keptInv_pos (c : Dev nD) (n : ℕ) (hn : n ≠ 0) :
    keptInv V c n = iprop(owns (c : Thread nD τ) scratchBuf fullShare (scratchKept V c) ∗ othersScoped (F := F) c ∗ (∃ r, prngReg c r)) := by
  cases n with
  | zero => exact absurd rfl hn
  | succ n => rfl

/-- The class's invariant with the call's scratch split out of the scoped buffers, owned at some contents. -/
theorem classInv_split (c : Dev nD) :
    (Pipeline.ΦA spec2 c : sProp 𝕄)
      = iprop(iprop(iprop(∃ d, owns (c : Thread nD τ) scratchBuf fullShare d) ∗ othersScoped (F := F) c) ∗ (∃ r, prngReg c r)) := by
  unfold Pipeline.ΦA
  rw [Pipeline.scopedRest_split_of_list spec2 c [cc2_scratch0] (by decide) (by decide)]
  simp only [scratchBuf, owns_whole]; try rfl

/-- The proof data of pipeline 2 on core `c`, entered at `V`. -/
def dat2 (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => fusedBlock (grid2.coords t) (iblk V c 0 t) (scratchKept V c) (iblk V c 1 t) (iblk V c 2 t) (iblk V c 5 t) (iblk V c 6 t)
  Φ t := keptInv V c t.val
  q _ := fullShare
  owed _ := 0

theorem A_eq2 (c : Dev nD) (w : Fin cfg2.W) : (dat2 V c).A w = V c (Pipeline.arrRef spec2 w) := by
  dsimp only [dat2]

theorem share_full2 (c : Dev nD) (w : Fin cfg2.W) : (dat2 V c).share w = fullShare :=
  (dat2 V c).share_full (fun _ => rfl) w

theorem owed2 (c : Dev nD) (t : Fin (cfg2.N + 1)) : (dat2 V c).owed t = 0 := rfl

/-- What the body leaves, window by window. -/
theorem after2_0 (c : Dev nD) (t : Fin cfg2.N) : (dat2 V c).after 0 t = iblk V c 0 t := by dsimp only [dat2]
theorem after2_1 (c : Dev nD) (t : Fin cfg2.N) : (dat2 V c).after 1 t = iblk V c 1 t := by dsimp only [dat2]
theorem after2_2 (c : Dev nD) (t : Fin cfg2.N) : (dat2 V c).after 2 t = iblk V c 2 t := by dsimp only [dat2]
theorem after2_3 (c : Dev nD) (t : Fin cfg2.N) : (dat2 V c).after 3 t = iblk V c 3 t := by dsimp only [dat2]
theorem after2_4 (c : Dev nD) (t : Fin cfg2.N) : (dat2 V c).after 4 t = iblk V c 4 t := by dsimp only [dat2]
theorem after2_5 (c : Dev nD) (t : Fin cfg2.N) : (dat2 V c).after 5 t = iblk V c 5 t := by dsimp only [dat2]
theorem after2_6 (c : Dev nD) (t : Fin cfg2.N) : (dat2 V c).after 6 t = iblk V c 6 t := by dsimp only [dat2]
theorem after2_7 (c : Dev nD) (t : Fin cfg2.N) : (dat2 V c).after 7 t
    = fusedBlock (grid2.coords t) (iblk V c 0 t) (scratchKept V c) (iblk V c 1 t) (iblk V c 2 t) (iblk V c 5 t) (iblk V c 6 t) := by dsimp only [dat2]

/-- Each input's current staging buffer holds its block at every point, fetched there or not. -/
theorem before2_0 (c : Dev nD) (t : Fin cfg2.N) (d) : (dat2 V c).before 0 t d = iblk V c 0 t :=
  ((dat2 V c).before_in_eq_fetched 0 rfl (fun _ => rfl) (fun _ _ _ => rfl)
    (fun t => by rw [after2_0]; unfold Dat.blockOf iblk; rw [A_eq2]; try rfl) t d).trans
    (by unfold Dat.fetched Dat.blockOf iblk; rw [A_eq2]; try rfl)
theorem before2_1 (c : Dev nD) (t : Fin cfg2.N) (d) : (dat2 V c).before 1 t d = iblk V c 1 t :=
  ((dat2 V c).before_in_eq_fetched 1 rfl (fun _ => rfl) (fun _ _ _ => rfl)
    (fun t => by rw [after2_1]; unfold Dat.blockOf iblk; rw [A_eq2]; try rfl) t d).trans
    (by unfold Dat.fetched Dat.blockOf iblk; rw [A_eq2]; try rfl)
theorem before2_2 (c : Dev nD) (t : Fin cfg2.N) (d) : (dat2 V c).before 2 t d = iblk V c 2 t :=
  ((dat2 V c).before_in_eq_fetched 2 rfl (fun _ => rfl) (fun _ _ _ => rfl)
    (fun t => by rw [after2_2]; unfold Dat.blockOf iblk; rw [A_eq2]; try rfl) t d).trans
    (by unfold Dat.fetched Dat.blockOf iblk; rw [A_eq2]; try rfl)
theorem before2_3 (c : Dev nD) (t : Fin cfg2.N) (d) : (dat2 V c).before 3 t d = iblk V c 3 t :=
  ((dat2 V c).before_in_eq_fetched 3 rfl (fun _ => rfl) (fun _ _ _ => rfl)
    (fun t => by rw [after2_3]; unfold Dat.blockOf iblk; rw [A_eq2]; try rfl) t d).trans
    (by unfold Dat.fetched Dat.blockOf iblk; rw [A_eq2]; try rfl)
theorem before2_4 (c : Dev nD) (t : Fin cfg2.N) (d) : (dat2 V c).before 4 t d = iblk V c 4 t :=
  ((dat2 V c).before_in_eq_fetched 4 rfl (fun _ => rfl) (fun _ _ _ => rfl)
    (fun t => by rw [after2_4]; unfold Dat.blockOf iblk; rw [A_eq2]; try rfl) t d).trans
    (by unfold Dat.fetched Dat.blockOf iblk; rw [A_eq2]; try rfl)
theorem before2_5 (c : Dev nD) (t : Fin cfg2.N) (d) : (dat2 V c).before 5 t d = iblk V c 5 t :=
  ((dat2 V c).before_in_eq_fetched 5 rfl (fun _ => rfl) (fun _ _ _ => rfl)
    (fun t => by rw [after2_5]; unfold Dat.blockOf iblk; rw [A_eq2]; try rfl) t d).trans
    (by unfold Dat.fetched Dat.blockOf iblk; rw [A_eq2]; try rfl)
theorem before2_6 (c : Dev nD) (t : Fin cfg2.N) (d) : (dat2 V c).before 6 t d = iblk V c 6 t :=
  ((dat2 V c).before_in_eq_fetched 6 rfl (fun _ => rfl) (fun _ _ _ => rfl)
    (fun t => by rw [after2_6]; unfold Dat.blockOf iblk; rw [A_eq2]; try rfl) t d).trans
    (by unfold Dat.fetched Dat.blockOf iblk; rw [A_eq2]; try rfl)

theorem inv_castSucc (c : Dev nD) (t : Fin cfg2.N) : (dat2 V c).Φ t.castSucc = keptInv V c t.val := by
  dsimp only [dat2]; simp only [Fin.coe_castSucc]

/-! ## The body obligation -/

/-- What the body is called with at point `t`, the windows one by one, -/
def bodyPre (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d)))

/-- and what it returns. -/
def bodyPost (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t))

set_option maxHeartbeats 2000000 in
/-- The body at any point: the inputs' buffers hold their blocks; at the first point the invariant hands the body the
    scratch at anything and takes it back at the projection; at a later point it hands it at the projection and takes it
    back unchanged; the other scoped buffers, the generator register and what the core owes pass through unread. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before2_0, before2_1, before2_2, before2_3, before2_4, before2_5, before2_6]
  rw [show (dat2 V c).owesAt () t.succ = (dat2 V c).owesAt () t.castSucc from rfl,
    after2_0, after2_1, after2_2, after2_3, after2_4, after2_5, after2_6, after2_7]
  rw [show (dat2 V c).Φ t.succ = keptInv V c (t.val + 1) from rfl, keptInv_pos V c (t.val + 1) (Nat.succ_ne_zero _), inv_castSucc]
  by_cases hz : t.val = 0
  · have ht : t = firstPoint := Fin.ext hz
    subst ht
    rw [show keptInv V c (firstPoint : Fin cfg2.N).val = Pipeline.ΦA spec2 c from rfl, classInv_split]
    iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (run_first c (grid2.coords firstPoint) _ _ _ _ _ _ _ _ _ _ _ _ _ _ _ _ _ _ ((atFirst_iff firstPoint).mpr rfl)
      (iblk V c 0 firstPoint) (iblk V c 1 firstPoint) (iblk V c 2 firstPoint) (iblk V c 3 firstPoint) (iblk V c 4 firstPoint)
      (iblk V c 5 firstPoint) (iblk V c 6 firstPoint) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS]; · iexact HS
    iintro ⟨H0, H1, H2, H3, H4, H5, H6, H7, HS⟩
    isplitl [HS Hrest Hg]
    · isplitl [HS]; · iexact HS
      isplitl [Hrest]; · iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · rw [keptInv_pos V c t.val hz]
    iintro ⟨⟨HS, Hrest, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (run_later c (grid2.coords t) _ _ _ _ _ _ _ _ _ _ _ _ _ _ _ _ _ _ (fun h => hz ((atFirst_iff t).mp h))
      (iblk V c 0 t) (iblk V c 1 t) (iblk V c 2 t) (iblk V c 3 t) (iblk V c 4 t)
      (iblk V c 5 t) (iblk V c 6 t) (scratchKept V c) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS]; · iexact HS
    iintro ⟨H0, H1, H2, H3, H4, H5, H6, H7, HS⟩
    isplitl [HS Hrest Hg]
    · isplitl [HS]; · iexact HS
      isplitl [Hrest]; · iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

theorem body_obligation2 (c : Dev nD) :
    BodyObligation (dat2 (F := F) V c) (defs₀ (F := F)) Variants.none () Set.univ := fun t => by
  rw [bigSep_W2, bigSep_W2]
  exact sound_body V c t

theorem hin2 (c : Dev nD) : (Pipeline.ΦA spec2 c : sProp 𝕄) ⊢ (dat2 V c).Φ 0 :=
  Idealize.SL.BI.Entails.refl _

theorem hout2 (c : Dev nD) : (dat2 V c).Φ (Fin.last cfg2.N) ⊢ (Pipeline.ΦA spec2 c : sProp 𝕄) := by
  rw [show (dat2 V c).Φ (Fin.last cfg2.N) = keptInv V c (Fin.last cfg2.N).val from rfl,
    keptInv_pos V c _ (by rw [Fin.val_last]; have : cfg2.N = 50 := N_2; omega), classInv_split]
  iintro ⟨HS, Hrest, Hg⟩
  isplitl [HS Hrest]
  · isplitl [HS]; · iexists _; iexact HS
    iexact Hrest
  iexact Hg

end Cert.KernelIdeal.Fuse

end
-- ==== Proof.Run.lean ====
import proofs.«169939_g28836410425910_retrytranche2_620_30_alg».proof.Proof.HyperData
import proofs.«169939_g28836410425910_retrytranche2_620_30_alg».proof.Proof.ChunkData
import proofs.«169939_g28836410425910_retrytranche2_620_30_alg».proof.Proof.FuseData
import proofs.«169939_g28836410425910_retrytranche2_620_30_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! @main's run: the host stretch (four bias rows reshaped, HG transposed), then the three kernel regions one after
    the other. Between two items every unscoped buffer is held whole at a named valuation: after the host stretch the
    launch memory with the stretch's results; after a region the valuation before it with the region's arrays at what
    its write-backs leave. Every weakly fair execution ends with every unscoped buffer at the last valuation. -/

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.KernelIdeal Cert.KernelIdeal.Gen Cert.KernelIdeal.Hyper Cert.KernelIdeal.Chunk Cert.KernelIdeal.Fuse

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between items -/

/-- After the host stretch: region 0's entry. -/
abbrev B1 (c : Dev nD) : Valuation τ sig (Elt F) := V1 m c
/-- The same read at the TensorCore's references. -/
abbrev E1 : (c : Dev nD) → (b : Ref sig .tc) → Buf (Elt F) ((c : Thread nD τ).loc b) := fun c b => B1 m c b

/-- After region 0: its arrays at what the write-backs leave, every other buffer as entered. -/
def B2 (c : Dev nD) : Valuation τ sig (Elt F) :=
  Pipeline.withArrays spec0 c (B1 m c) fun w => (dat0 (E1 m) c).arrAt w cfg0.N
abbrev E2 : (c : Dev nD) → (b : Ref sig .tc) → Buf (Elt F) ((c : Thread nD τ).loc b) := fun c b => B2 m c b

/-- After region 1. -/
def B3 (c : Dev nD) : Valuation τ sig (Elt F) :=
  Pipeline.withArrays spec1 c (B2 m c) fun w => (dat1 (E2 m) c).arrAt w cfg1.N
abbrev E3 : (c : Dev nD) → (b : Ref sig .tc) → Buf (Elt F) ((c : Thread nD τ).loc b) := fun c b => B3 m c b

/-- After region 2: what @main returns with. -/
def B4 (c : Dev nD) : Valuation τ sig (Elt F) :=
  Pipeline.withArrays spec2 c (B3 m c) fun w => (dat2 (E3 m) c).arrAt w cfg2.N
abbrev E4 : (c : Dev nD) → (b : Ref sig .tc) → Buf (Elt F) ((c : Thread nD τ).loc b) := fun c b => B4 m c b

theorem B2_arr (c : Dev nD) (w : Fin cfg0.W) :
    B2 m c (Proc.devRef .tc (Pipeline.arrRef spec0 w)) = (dat0 (E1 m) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m c (Proc.devRef .tc b) = B1 m c (Proc.devRef .tc b) := by
  unfold B2; exact Pipeline.withArrays_of_ne spec0 c _ _ b hb
theorem B3_arr (c : Dev nD) (w : Fin cfg1.W) :
    B3 m c (Proc.devRef .tc (Pipeline.arrRef spec1 w)) = (dat1 (E2 m) c).arrAt w cfg1.N := by
  unfold B3; exact Pipeline.withArrays_arr spec1 launch1.win.arr_inj c _ _ w
theorem B3_of_ne (c : Dev nD) (b : Ref sig .tc) (hb : ∀ w, Pipeline.arrRef spec1 w ≠ b) :
    B3 m c (Proc.devRef .tc b) = B2 m c (Proc.devRef .tc b) := by
  unfold B3; exact Pipeline.withArrays_of_ne spec1 c _ _ b hb
theorem B4_arr (c : Dev nD) (w : Fin cfg2.W) :
    B4 m c (Proc.devRef .tc (Pipeline.arrRef spec2 w)) = (dat2 (E3 m) c).arrAt w cfg2.N := by
  unfold B4; exact Pipeline.withArrays_arr spec2 launch2.win.arr_inj c _ _ w
theorem B4_of_ne (c : Dev nD) (b : Ref sig .tc) (hb : ∀ w, Pipeline.arrRef spec2 w ≠ b) :
    B4 m c (Proc.devRef .tc b) = B3 m c (Proc.devRef .tc b) := by
  unfold B4; exact Pipeline.withArrays_of_ne spec2 c _ _ b hb

/-! ## The proof data family and what rides beside the buffers -/

/-- Every pipeline's proof data, each at its region's entry contents. -/
def pdats : (p : Fin 3) → (c : Dev nD) → Dat τ (Elt F) Unit ℕ (UR sig nD τ) ℕ (cfgs p) c
  | ⟨0, _⟩ => fun c => dat0 (E1 m) c
  | ⟨1, _⟩ => fun c => dat1 (E2 m) c
  | ⟨2, _⟩ => fun c => dat2 (E3 m) c

abbrev 𝒱₀ : Variants := Variants.none
/-- No core owes another anything: no level is assigned. -/
abbrev L : GSem nD τ sig → Finset Unit := fun _ => ∅
abbrev lv : GSem nD τ sig → Unit → ℕ := fun _ _ => 0
/-- Beside the buffers through every item: the core's generator register at some state, and nothing owed. -/
abbrev R (c : Dev nD) : sProp 𝕄 := iprop((∃ r, prngReg c r) ∗ ∃ W, owes (c : Thread nD τ) (0 : CellTallies nD τ sig Unit) W)

/-! ## The regions as segments

Each region is entered from every unscoped buffer at the valuation before it and left at the one after it. Its arrays
are split out of the unscoped buffers and put back at what the write-backs leave; the generator register goes into the
region's invariant and comes out; nothing is owed; the kernel has no semaphore of its own. -/

-- a library lemma stated over the pinned configuration unifies with this one only when unification may unfold plain
-- definitions in a metavariable's type
set_option backward.isDefEq.respectTransparency.types false in
/-- REGION 0: the projection `x·W1 + b1`, then `hyper` and `z` block by block. -/
def reg0 : RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ L lv 0 fun c t => owed0 (E1 m) c t
  pre c := iprop(StableHlo.held (c : Thread nD τ) (Pipeline.ucRefs τ sig) (B1 m c) ∗ R c)
  post c := iprop(StableHlo.held (c : Thread nD τ) (Pipeline.ucRefs τ sig) (B2 m c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m) launch0.win launch0.arr_whole c
      (share_full0 (E1 m) c) (E1 m c) (A_eq0 (E1 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c :=
    (show _ ⊢ (Pipeline.ΦA spec0 c : sProp 𝕄) from by
      unfold Pipeline.ΦA
      iintro ⟨Hp, -, Hr⟩
      isplitl [Hr]; · iexact Hr
      iexact Hp).trans (hin0 (E1 m) c)
  hout c := by
    rw [Pipeline.ownSems0_none]
    exact (hout0 (E1 m) c).trans (show (Pipeline.ΦA spec0 c : sProp 𝕄) ⊢ _ from by
      unfold Pipeline.ΦA
      iintro ⟨Hr, Hp⟩
      isplitl [Hp]; · iexact Hp
      isplitr; · iempintro
      iexact Hr)
  hexit c := by
    have hjoin := Pipeline.unscopedBufs_of_arrays (p := 0) (pcfgs (F := F)) adm (Ix := Unit) (Name := ℕ) (U := UR sig nD τ) (Lvl := ℕ)
      launch0.win launch0.arr_whole c (pdats m) (share_full0 (E1 m) c)
      (E1 m c) (fun b => B2 m c b) ((pdats m 0 c).arrAt · cfg0.N)
      (fun w => (B2_arr m c w).symm)
      (fun b hb => B2_of_ne m c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with this one only when unification may unfold plain
-- definitions in a metavariable's type
set_option backward.isDefEq.respectTransparency.types false in
/-- REGION 1: the chunked product `HG·z`, accumulated, and its `relu`. -/
def reg1 : RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E2 m) c).loose
  hwaits := Pipeline.hwaits_of_owed_zero _ _ _ _ L lv 1 fun c t => owed1 (E2 m) c t
  pre c := iprop(StableHlo.held (c : Thread nD τ) (Pipeline.ucRefs τ sig) (B2 m c) ∗ R c)
  post c := iprop(StableHlo.held (c : Thread nD τ) (Pipeline.ucRefs τ sig) (B3 m c) ∗ R c)
  X c := iprop(∃ r, prngReg c r)
  Y c := iprop(∃ r, prngReg c r)
  Z c := Pipeline.unscopedRest (Ix := Unit) (Name := ℕ) (U := UR sig nD τ) (Lvl := ℕ) spec1 c (E2 m c)
  hentry c := by
    rw [Pipeline.ownSems0_none]
    have hsplit := Pipeline.arrays_of_unscopedBufs (p := 1) (pcfgs (F := F)) adm (pdats m) launch1.win launch1.arr_whole c
      (share_full1 (E2 m) c) (E2 m c) (A_eq1 (E2 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c :=
    (show _ ⊢ (Pipeline.ΦA spec1 c : sProp 𝕄) from by
      unfold Pipeline.ΦA
      iintro ⟨Hp, -, Hr⟩
      isplitl [Hr]; · iexact Hr
      iexact Hp).trans (hin1 (E2 m) c)
  hout c := by
    rw [Pipeline.ownSems0_none]
    exact (hout1 (E2 m) c).trans (show (Pipeline.ΦA spec1 c : sProp 𝕄) ⊢ _ from by
      unfold Pipeline.ΦA
      iintro ⟨Hr, Hp⟩
      isplitl [Hp]; · iexact Hp
      isplitr; · iempintro
      iexact Hr)
  hexit c := by
    have hjoin := Pipeline.unscopedBufs_of_arrays (p := 1) (pcfgs (F := F)) adm (Ix := Unit) (Name := ℕ) (U := UR sig nD τ) (Lvl := ℕ)
      launch1.win launch1.arr_whole c (pdats m) (share_full1 (E2 m) c)
      (E2 m c) (fun b => B3 m c b) ((pdats m 1 c).arrAt · cfg1.N)
      (fun w => (B3_arr m c w).symm)
      (fun b hb => B3_of_ne m c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with this one only when unification may unfold plain
-- definitions in a metavariable's type
set_option backward.isDefEq.respectTransparency.types false in
/-- REGION 2: the projection `x·Wg + bg`, then the fused rows block by block. -/
def reg2 : RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (E3 m) c).loose
  hwaits := Pipeline.hwaits_of_owed_zero _ _ _ _ L lv 2 fun c t => owed2 (E3 m) c t
  pre c := iprop(StableHlo.held (c : Thread nD τ) (Pipeline.ucRefs τ sig) (B3 m c) ∗ R c)
  post c := iprop(StableHlo.held (c : Thread nD τ) (Pipeline.ucRefs τ sig) (B4 m c) ∗ R c)
  X c := iprop(∃ r, prngReg c r)
  Y c := iprop(∃ r, prngReg c r)
  Z c := Pipeline.unscopedRest (Ix := Unit) (Name := ℕ) (U := UR sig nD τ) (Lvl := ℕ) spec2 c (E3 m c)
  hentry c := by
    rw [Pipeline.ownSems0_none]
    have hsplit := Pipeline.arrays_of_unscopedBufs (p := 2) (pcfgs (F := F)) adm (pdats m) launch2.win launch2.arr_whole c
      (share_full2 (E3 m) c) (E3 m c) (A_eq2 (E3 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c :=
    (show _ ⊢ (Pipeline.ΦA spec2 c : sProp 𝕄) from by
      unfold Pipeline.ΦA
      iintro ⟨Hp, -, Hr⟩
      isplitl [Hr]; · iexact Hr
      iexact Hp).trans (hin2 (E3 m) c)
  hout c := by
    rw [Pipeline.ownSems0_none]
    exact (hout2 (E3 m) c).trans (show (Pipeline.ΦA spec2 c : sProp 𝕄) ⊢ _ from by
      unfold Pipeline.ΦA
      iintro ⟨Hr, Hp⟩
      isplitl [Hp]; · iexact Hp
      isplitr; · iempintro
      iexact Hr)
  hexit c := by
    have hjoin := Pipeline.unscopedBufs_of_arrays (p := 2) (pcfgs (F := F)) adm (Ix := Unit) (Name := ℕ) (U := UR sig nD τ) (Lvl := ℕ)
      launch2.win launch2.arr_whole c (pdats m) (share_full2 (E3 m) c)
      (E3 m c) (fun b => B4 m c b) ((pdats m 2 c).arrAt · cfg2.N)
      (fun w => (B4_arr m c w).symm)
      (fun b hb => B4_of_ne m c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's four items in order: the host stretch from the launch memory, then the three regions. -/
abbrev items (c : Dev nD) : List (Seg (pcfgs (F := F)) adm (pdats m) () defs₀ 𝒱₀ L lv) :=
  [.host (seg0 m 𝒱₀ L lv (fun _ => R)), .region (reg0 m), .region (reg1 m), .region (reg2 m)]

/-- The last thread state without the `owes`: every unscoped buffer at the last valuation, the generator register at
    some state. -/
abbrev Tₙ (c : Dev nD) : sProp 𝕄 :=
  iprop(StableHlo.held (c : Thread nD τ) (Pipeline.ucRefs τ sig) (B4 m c) ∗ ∃ r, prngReg c r)

-- the launch theorem's implicit arguments are found by unifying its conclusion with this one, which takes unfolding
-- plain definitions in a metavariable's type
set_option backward.isDefEq.respectTransparency.types false in
/-- From any memory with zero counters, every weakly fair execution of @main on the TensorCores terminates, nothing
    faulting, and in every final state each unscoped buffer holds the last valuation's contents: the launch over the
    four items, the last thread state read against the final state. -/
theorem run_bufs : θ_run defs (onTc (τ := τ) (main (F := F))) ⟨m, fun _ => 0, ρ⟩ (fun r => ∀ c : Dev nD,
      ∀ b ∈ Pipeline.ucRefs τ sig, r.2.mem (((c : Thread nD τ)).1, b) = B4 m c b) := by
  refine Pipeline.θ_run_regions_kit_dev (pcfgs (F := F)) adm (pdats m) () cellOf_inj emb₁ defs₀ 𝒱₀ L lv m ρ main
    (items m)
    (fun c Q => by
      rewrite [main_chain c, Seg.run_eq_chain,
        show (items m c).map Seg.prog = [
          StableHlo.seq hostOps0,
          Prog.lift (.customCall (Pipeline.entry 0) ()),
          Prog.lift (.customCall (Pipeline.entry 1) ()),
          Prog.lift (.customCall (Pipeline.entry 2) ()) ] from rfl]
      exact .rfl)
    (fun c => by simp only [items, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c)) (Tₙ := Tₙ m)
    (hch := fun c => ⟨.rfl, .rfl, .rfl, .rfl,
      (show iprop(StableHlo.held (c : Thread nD τ) (Pipeline.ucRefs τ sig) (B4 m c) ∗ R c)
          ⊢ (iprop(Tₙ m c ∗ ∃ W, owes (c : Thread nD τ) (0 : CellTallies nD τ sig Unit) W) : sProp 𝕄) from by
        iintro ⟨Hh, Hp, HO⟩
        isplitl [Hh Hp]
        · isplitl [Hh]; · iexact Hh
          iexact Hp
        iexact HO)⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B4 m c b)
    (hfin := fun c s' => by
      iintro ⟨⟨Hh, -⟩, HSI⟩
      unfold StableHlo.held
      imodintro
      iapply (pointsTo_read_all (Pipeline.ucRefs τ sig) (fun b => (((c : Thread nD τ)).1, b)) (B4 m c) s')
      isplitl [Hh] <;> iassumption)
    (hQ := fun s h c => h c)

/-! ## The arguments end as launched

No item writes an argument: a region reads it through an input window, whose array the pipeline never writes, or does not
stage it at all; the host stretch writes only its own five results. -/

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- Region 0 leaves an input window's array as it found it. -/
theorem B2_in (c : Dev nD) (w : Fin cfg0.W) (hw : (cfg0.win w).isOut = false) :
    B2 m c (Proc.devRef .tc (Pipeline.arrRef spec0 w)) = B1 m c (Proc.devRef .tc (Pipeline.arrRef spec0 w)) :=
  (B2_arr m c w).trans (((dat0 (E1 m) c).arrAt_in w hw _).trans (A_eq0 (E1 m) c w))
/-- Region 1 leaves an input window's array as it found it. -/
theorem B3_in (c : Dev nD) (w : Fin cfg1.W) (hw : (cfg1.win w).isOut = false) :
    B3 m c (Proc.devRef .tc (Pipeline.arrRef spec1 w)) = B2 m c (Proc.devRef .tc (Pipeline.arrRef spec1 w)) :=
  (B3_arr m c w).trans (((dat1 (E2 m) c).arrAt_in w hw _).trans (A_eq1 (E2 m) c w))
/-- Region 2 leaves an input window's array as it found it. -/
theorem B4_in (c : Dev nD) (w : Fin cfg2.W) (hw : (cfg2.win w).isOut = false) :
    B4 m c (Proc.devRef .tc (Pipeline.arrRef spec2 w)) = B3 m c (Proc.devRef .tc (Pipeline.arrRef spec2 w)) :=
  (B4_arr m c w).trans (((dat2 (E3 m) c).arrAt_in w hw _).trans (A_eq2 (E3 m) c w))

theorem B4_main_arg0 (c : Dev nD) : B4 m c (Proc.devRef .tc main_arg0) = m ((c : Thread nD τ).loc main_arg0) :=
  calc B4 m c (Proc.devRef .tc main_arg0)
    _ = B3 m c (Proc.devRef .tc main_arg0) := B4_in m c 1 rfl
    _ = B2 m c (Proc.devRef .tc main_arg0) := B3_of_ne m c main_arg0 (by decide)
    _ = B1 m c (Proc.devRef .tc main_arg0) := B2_in m c 1 rfl
    _ = V0 m c (Proc.devRef .tc main_arg0) := V1_of m c main_arg0 (by decide)
    _ = m ((c : Thread nD τ).loc main_arg0) := rfl

theorem B4_main_arg1 (c : Dev nD) : B4 m c (Proc.devRef .tc main_arg1) = m ((c : Thread nD τ).loc main_arg1) :=
  calc B4 m c (Proc.devRef .tc main_arg1)
    _ = B3 m c (Proc.devRef .tc main_arg1) := B4_in m c 0 rfl
    _ = B2 m c (Proc.devRef .tc main_arg1) := B3_of_ne m c main_arg1 (by decide)
    _ = B1 m c (Proc.devRef .tc main_arg1) := B2_of_ne m c main_arg1 (by decide)
    _ = V0 m c (Proc.devRef .tc main_arg1) := V1_of m c main_arg1 (by decide)
    _ = m ((c : Thread nD τ).loc main_arg1) := rfl

theorem B4_main_arg2 (c : Dev nD) : B4 m c (Proc.devRef .tc main_arg2) = m ((c : Thread nD τ).loc main_arg2) :=
  calc B4 m c (Proc.devRef .tc main_arg2)
    _ = B3 m c (Proc.devRef .tc main_arg2) := B4_of_ne m c main_arg2 (by decide)
    _ = B2 m c (Proc.devRef .tc main_arg2) := B3_of_ne m c main_arg2 (by decide)
    _ = B1 m c (Proc.devRef .tc main_arg2) := B2_in m c 0 rfl
    _ = V0 m c (Proc.devRef .tc main_arg2) := V1_of m c main_arg2 (by decide)
    _ = m ((c : Thread nD τ).loc main_arg2) := rfl

theorem B4_main_arg3 (c : Dev nD) : B4 m c (Proc.devRef .tc main_arg3) = m ((c : Thread nD τ).loc main_arg3) :=
  calc B4 m c (Proc.devRef .tc main_arg3)
    _ = B3 m c (Proc.devRef .tc main_arg3) := B4_of_ne m c main_arg3 (by decide)
    _ = B2 m c (Proc.devRef .tc main_arg3) := B3_of_ne m c main_arg3 (by decide)
    _ = B1 m c (Proc.devRef .tc main_arg3) := B2_of_ne m c main_arg3 (by decide)
    _ = V0 m c (Proc.devRef .tc main_arg3) := V1_of m c main_arg3 (by decide)
    _ = m ((c : Thread nD τ).loc main_arg3) := rfl

theorem B4_main_arg4 (c : Dev nD) : B4 m c (Proc.devRef .tc main_arg4) = m ((c : Thread nD τ).loc main_arg4) :=
  calc B4 m c (Proc.devRef .tc main_arg4)
    _ = B3 m c (Proc.devRef .tc main_arg4) := B4_in m c 3 rfl
    _ = B2 m c (Proc.devRef .tc main_arg4) := B3_of_ne m c main_arg4 (by decide)
    _ = B1 m c (Proc.devRef .tc main_arg4) := B2_of_ne m c main_arg4 (by decide)
    _ = V0 m c (Proc.devRef .tc main_arg4) := V1_of m c main_arg4 (by decide)
    _ = m ((c : Thread nD τ).loc main_arg4) := rfl

theorem B4_main_arg5 (c : Dev nD) : B4 m c (Proc.devRef .tc main_arg5) = m ((c : Thread nD τ).loc main_arg5) :=
  calc B4 m c (Proc.devRef .tc main_arg5)
    _ = B3 m c (Proc.devRef .tc main_arg5) := B4_of_ne m c main_arg5 (by decide)
    _ = B2 m c (Proc.devRef .tc main_arg5) := B3_of_ne m c main_arg5 (by decide)
    _ = B1 m c (Proc.devRef .tc main_arg5) := B2_of_ne m c main_arg5 (by decide)
    _ = V0 m c (Proc.devRef .tc main_arg5) := V1_of m c main_arg5 (by decide)
    _ = m ((c : Thread nD τ).loc main_arg5) := rfl

theorem B4_main_arg6 (c : Dev nD) : B4 m c (Proc.devRef .tc main_arg6) = m ((c : Thread nD τ).loc main_arg6) :=
  calc B4 m c (Proc.devRef .tc main_arg6)
    _ = B3 m c (Proc.devRef .tc main_arg6) := B4_of_ne m c main_arg6 (by decide)
    _ = B2 m c (Proc.devRef .tc main_arg6) := B3_of_ne m c main_arg6 (by decide)
    _ = B1 m c (Proc.devRef .tc main_arg6) := B2_in m c 2 rfl
    _ = V0 m c (Proc.devRef .tc main_arg6) := V1_of m c main_arg6 (by decide)
    _ = m ((c : Thread nD τ).loc main_arg6) := rfl

theorem B4_main_arg7 (c : Dev nD) : B4 m c (Proc.devRef .tc main_arg7) = m ((c : Thread nD τ).loc main_arg7) :=
  calc B4 m c (Proc.devRef .tc main_arg7)
    _ = B3 m c (Proc.devRef .tc main_arg7) := B4_of_ne m c main_arg7 (by decide)
    _ = B2 m c (Proc.devRef .tc main_arg7) := B3_of_ne m c main_arg7 (by decide)
    _ = B1 m c (Proc.devRef .tc main_arg7) := B2_of_ne m c main_arg7 (by decide)
    _ = V0 m c (Proc.devRef .tc main_arg7) := V1_of m c main_arg7 (by decide)
    _ = m ((c : Thread nD τ).loc main_arg7) := rfl

theorem B4_main_arg8 (c : Dev nD) : B4 m c (Proc.devRef .tc main_arg8) = m ((c : Thread nD τ).loc main_arg8) :=
  calc B4 m c (Proc.devRef .tc main_arg8)
    _ = B3 m c (Proc.devRef .tc main_arg8) := B4_of_ne m c main_arg8 (by decide)
    _ = B2 m c (Proc.devRef .tc main_arg8) := B3_of_ne m c main_arg8 (by decide)
    _ = B1 m c (Proc.devRef .tc main_arg8) := B2_in m c 4 rfl
    _ = V0 m c (Proc.devRef .tc main_arg8) := V1_of m c main_arg8 (by decide)
    _ = m ((c : Thread nD τ).loc main_arg8) := rfl

theorem B4_main_arg9 (c : Dev nD) : B4 m c (Proc.devRef .tc main_arg9) = m ((c : Thread nD τ).loc main_arg9) :=
  calc B4 m c (Proc.devRef .tc main_arg9)
    _ = B3 m c (Proc.devRef .tc main_arg9) := B4_of_ne m c main_arg9 (by decide)
    _ = B2 m c (Proc.devRef .tc main_arg9) := B3_of_ne m c main_arg9 (by decide)
    _ = B1 m c (Proc.devRef .tc main_arg9) := B2_of_ne m c main_arg9 (by decide)
    _ = V0 m c (Proc.devRef .tc main_arg9) := V1_of m c main_arg9 (by decide)
    _ = m ((c : Thread nD τ).loc main_arg9) := rfl

theorem B4_main_arg10 (c : Dev nD) : B4 m c (Proc.devRef .tc main_arg10) = m ((c : Thread nD τ).loc main_arg10) :=
  calc B4 m c (Proc.devRef .tc main_arg10)
    _ = B3 m c (Proc.devRef .tc main_arg10) := B4_in m c 5 rfl
    _ = B2 m c (Proc.devRef .tc main_arg10) := B3_of_ne m c main_arg10 (by decide)
    _ = B1 m c (Proc.devRef .tc main_arg10) := B2_of_ne m c main_arg10 (by decide)
    _ = V0 m c (Proc.devRef .tc main_arg10) := V1_of m c main_arg10 (by decide)
    _ = m ((c : Thread nD τ).loc main_arg10) := rfl

theorem B4_main_arg11 (c : Dev nD) : B4 m c (Proc.devRef .tc main_arg11) = m ((c : Thread nD τ).loc main_arg11) :=
  calc B4 m c (Proc.devRef .tc main_arg11)
    _ = B3 m c (Proc.devRef .tc main_arg11) := B4_of_ne m c main_arg11 (by decide)
    _ = B2 m c (Proc.devRef .tc main_arg11) := B3_of_ne m c main_arg11 (by decide)
    _ = B1 m c (Proc.devRef .tc main_arg11) := B2_of_ne m c main_arg11 (by decide)
    _ = V0 m c (Proc.devRef .tc main_arg11) := V1_of m c main_arg11 (by decide)
    _ = m ((c : Thread nD τ).loc main_arg11) := rfl

/-! ## The frame -/

/-- Every weakly fair execution of @main terminates, nothing faulting, with every argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)
      ∧       r.2.mem ((c.tc : Thread nD τ).loc main_arg7) = m ((c.tc : Thread nD τ).loc main_arg7)
      ∧       r.2.mem ((c.tc : Thread nD τ).loc main_arg8) = m ((c.tc : Thread nD τ).loc main_arg8)
      ∧       r.2.mem ((c.tc : Thread nD τ).loc main_arg9) = m ((c.tc : Thread nD τ).loc main_arg9)
      ∧       r.2.mem ((c.tc : Thread nD τ).loc main_arg10) = m ((c.tc : Thread nD τ).loc main_arg10)
      ∧       r.2.mem ((c.tc : Thread nD τ).loc main_arg11) = m ((c.tc : Thread nD τ).loc main_arg11)) :=
  (θ_run defs _ _).mono (fun r h c => ⟨(h c _ (mem_uc main_arg0 (by decide))).trans (B4_main_arg0 m c),
    (h c _ (mem_uc main_arg1 (by decide))).trans (B4_main_arg1 m c),
    (h c _ (mem_uc main_arg2 (by decide))).trans (B4_main_arg2 m c),
    (h c _ (mem_uc main_arg3 (by decide))).trans (B4_main_arg3 m c),
    (h c _ (mem_uc main_arg4 (by decide))).trans (B4_main_arg4 m c),
    (h c _ (mem_uc main_arg5 (by decide))).trans (B4_main_arg5 m c),
    (h c _ (mem_uc main_arg6 (by decide))).trans (B4_main_arg6 m c),
    (h c _ (mem_uc main_arg7 (by decide))).trans (B4_main_arg7 m c),
    (h c _ (mem_uc main_arg8 (by decide))).trans (B4_main_arg8 m c),
    (h c _ (mem_uc main_arg9 (by decide))).trans (B4_main_arg9 m c),
    (h c _ (mem_uc main_arg10 (by decide))).trans (B4_main_arg10 m c),
    (h c _ (mem_uc main_arg11 (by decide))).trans (B4_main_arg11 m c)⟩) (run_bufs m ρ)

end Cert.KernelIdeal.Whole

end
-- ==== Proof.Through.lean ====
import proofs.«169939_g28836410425910_retrytranche2_620_30_alg».proof.Proof.Run

/-! What each boundary valuation holds at the buffers the value claim reads: every argument array stays at its launch
    contents through the host stretch and the three regions; a region's result stays put once written; the host
    stretch's own results are not touched again. -/

noncomputable section

namespace Cert.KernelIdeal.Whole

open Idealize.ShloMosaic Idealize.ShloMosaic.TcCoe Idealize.SL.Sem
open Cert.KernelIdeal Cert.KernelIdeal.Gen Cert.KernelIdeal.Hyper Cert.KernelIdeal.Chunk Cert.KernelIdeal.Fuse

variable {F : FTy → Type} [FloatOps F]
variable (m : (ℓ : Loc nD τ sig) → Buf (Elt F) ℓ)

/-! ## The arguments at every boundary -/

theorem B1_main_arg0 (c : Dev nD) : B1 m c (Proc.devRef .tc main_arg0) = m ((c : Thread nD τ).loc main_arg0) :=
  (V1_of m c main_arg0 (by decide)).trans rfl
theorem B2_main_arg0 (c : Dev nD) : B2 m c (Proc.devRef .tc main_arg0) = m ((c : Thread nD τ).loc main_arg0) :=
  (B2_in m c 1 rfl).trans (B1_main_arg0 m c)
theorem B3_main_arg0 (c : Dev nD) : B3 m c (Proc.devRef .tc main_arg0) = m ((c : Thread nD τ).loc main_arg0) :=
  (B3_of_ne m c main_arg0 (by decide)).trans (B2_main_arg0 m c)

theorem B1_main_arg1 (c : Dev nD) : B1 m c (Proc.devRef .tc main_arg1) = m ((c : Thread nD τ).loc main_arg1) :=
  (V1_of m c main_arg1 (by decide)).trans rfl
theorem B2_main_arg1 (c : Dev nD) : B2 m c (Proc.devRef .tc main_arg1) = m ((c : Thread nD τ).loc main_arg1) :=
  (B2_of_ne m c main_arg1 (by decide)).trans (B1_main_arg1 m c)
theorem B3_main_arg1 (c : Dev nD) : B3 m c (Proc.devRef .tc main_arg1) = m ((c : Thread nD τ).loc main_arg1) :=
  (B3_of_ne m c main_arg1 (by decide)).trans (B2_main_arg1 m c)

theorem B1_main_arg2 (c : Dev nD) : B1 m c (Proc.devRef .tc main_arg2) = m ((c : Thread nD τ).loc main_arg2) :=
  (V1_of m c main_arg2 (by decide)).trans rfl
theorem B2_main_arg2 (c : Dev nD) : B2 m c (Proc.devRef .tc main_arg2) = m ((c : Thread nD τ).loc main_arg2) :=
  (B2_in m c 0 rfl).trans (B1_main_arg2 m c)
theorem B3_main_arg2 (c : Dev nD) : B3 m c (Proc.devRef .tc main_arg2) = m ((c : Thread nD τ).loc main_arg2) :=
  (B3_of_ne m c main_arg2 (by decide)).trans (B2_main_arg2 m c)

theorem B1_main_arg3 (c : Dev nD) : B1 m c (Proc.devRef .tc main_arg3) = m ((c : Thread nD τ).loc main_arg3) :=
  (V1_of m c main_arg3 (by decide)).trans rfl
theorem B2_main_arg3 (c : Dev nD) : B2 m c (Proc.devRef .tc main_arg3) = m ((c : Thread nD τ).loc main_arg3) :=
  (B2_of_ne m c main_arg3 (by decide)).trans (B1_main_arg3 m c)
theorem B3_main_arg3 (c : Dev nD) : B3 m c (Proc.devRef .tc main_arg3) = m ((c : Thread nD τ).loc main_arg3) :=
  (B3_of_ne m c main_arg3 (by decide)).trans (B2_main_arg3 m c)

theorem B1_main_arg4 (c : Dev nD) : B1 m c (Proc.devRef .tc main_arg4) = m ((c : Thread nD τ).loc main_arg4) :=
  (V1_of m c main_arg4 (by decide)).trans rfl
theorem B2_main_arg4 (c : Dev nD) : B2 m c (Proc.devRef .tc main_arg4) = m ((c : Thread nD τ).loc main_arg4) :=
  (B2_of_ne m c main_arg4 (by decide)).trans (B1_main_arg4 m c)
theorem B3_main_arg4 (c : Dev nD) : B3 m c (Proc.devRef .tc main_arg4) = m ((c : Thread nD τ).loc main_arg4) :=
  (B3_of_ne m c main_arg4 (by decide)).trans (B2_main_arg4 m c)

theorem B1_main_arg5 (c : Dev nD) : B1 m c (Proc.devRef .tc main_arg5) = m ((c : Thread nD τ).loc main_arg5) :=
  (V1_of m c main_arg5 (by decide)).trans rfl
theorem B2_main_arg5 (c : Dev nD) : B2 m c (Proc.devRef .tc main_arg5) = m ((c : Thread nD τ).loc main_arg5) :=
  (B2_of_ne m c main_arg5 (by decide)).trans (B1_main_arg5 m c)
theorem B3_main_arg5 (c : Dev nD) : B3 m c (Proc.devRef .tc main_arg5) = m ((c : Thread nD τ).loc main_arg5) :=
  (B3_of_ne m c main_arg5 (by decide)).trans (B2_main_arg5 m c)

theorem B1_main_arg6 (c : Dev nD) : B1 m c (Proc.devRef .tc main_arg6) = m ((c : Thread nD τ).loc main_arg6) :=
  (V1_of m c main_arg6 (by decide)).trans rfl
theorem B2_main_arg6 (c : Dev nD) : B2 m c (Proc.devRef .tc main_arg6) = m ((c : Thread nD τ).loc main_arg6) :=
  (B2_in m c 2 rfl).trans (B1_main_arg6 m c)
theorem B3_main_arg6 (c : Dev nD) : B3 m c (Proc.devRef .tc main_arg6) = m ((c : Thread nD τ).loc main_arg6) :=
  (B3_of_ne m c main_arg6 (by decide)).trans (B2_main_arg6 m c)

theorem B1_main_arg7 (c : Dev nD) : B1 m c (Proc.devRef .tc main_arg7) = m ((c : Thread nD τ).loc main_arg7) :=
  (V1_of m c main_arg7 (by decide)).trans rfl
theorem B2_main_arg7 (c : Dev nD) : B2 m c (Proc.devRef .tc main_arg7) = m ((c : Thread nD τ).loc main_arg7) :=
  (B2_of_ne m c main_arg7 (by decide)).trans (B1_main_arg7 m c)
theorem B3_main_arg7 (c : Dev nD) : B3 m c (Proc.devRef .tc main_arg7) = m ((c : Thread nD τ).loc main_arg7) :=
  (B3_of_ne m c main_arg7 (by decide)).trans (B2_main_arg7 m c)

theorem B1_main_arg8 (c : Dev nD) : B1 m c (Proc.devRef .tc main_arg8) = m ((c : Thread nD τ).loc main_arg8) :=
  (V1_of m c main_arg8 (by decide)).trans rfl
theorem B2_main_arg8 (c : Dev nD) : B2 m c (Proc.devRef .tc main_arg8) = m ((c : Thread nD τ).loc main_arg8) :=
  (B2_in m c 4 rfl).trans (B1_main_arg8 m c)
theorem B3_main_arg8 (c : Dev nD) : B3 m c (Proc.devRef .tc main_arg8) = m ((c : Thread nD τ).loc main_arg8) :=
  (B3_of_ne m c main_arg8 (by decide)).trans (B2_main_arg8 m c)

theorem B1_main_arg9 (c : Dev nD) : B1 m c (Proc.devRef .tc main_arg9) = m ((c : Thread nD τ).loc main_arg9) :=
  (V1_of m c main_arg9 (by decide)).trans rfl
theorem B2_main_arg9 (c : Dev nD) : B2 m c (Proc.devRef .tc main_arg9) = m ((c : Thread nD τ).loc main_arg9) :=
  (B2_of_ne m c main_arg9 (by decide)).trans (B1_main_arg9 m c)
theorem B3_main_arg9 (c : Dev nD) : B3 m c (Proc.devRef .tc main_arg9) = m ((c : Thread nD τ).loc main_arg9) :=
  (B3_of_ne m c main_arg9 (by decide)).trans (B2_main_arg9 m c)

theorem B1_main_arg10 (c : Dev nD) : B1 m c (Proc.devRef .tc main_arg10) = m ((c : Thread nD τ).loc main_arg10) :=
  (V1_of m c main_arg10 (by decide)).trans rfl
theorem B2_main_arg10 (c : Dev nD) : B2 m c (Proc.devRef .tc main_arg10) = m ((c : Thread nD τ).loc main_arg10) :=
  (B2_of_ne m c main_arg10 (by decide)).trans (B1_main_arg10 m c)
theorem B3_main_arg10 (c : Dev nD) : B3 m c (Proc.devRef .tc main_arg10) = m ((c : Thread nD τ).loc main_arg10) :=
  (B3_of_ne m c main_arg10 (by decide)).trans (B2_main_arg10 m c)

theorem B1_main_arg11 (c : Dev nD) : B1 m c (Proc.devRef .tc main_arg11) = m ((c : Thread nD τ).loc main_arg11) :=
  (V1_of m c main_arg11 (by decide)).trans rfl
theorem B2_main_arg11 (c : Dev nD) : B2 m c (Proc.devRef .tc main_arg11) = m ((c : Thread nD τ).loc main_arg11) :=
  (B2_of_ne m c main_arg11 (by decide)).trans (B1_main_arg11 m c)
theorem B3_main_arg11 (c : Dev nD) : B3 m c (Proc.devRef .tc main_arg11) = m ((c : Thread nD τ).loc main_arg11) :=
  (B3_of_ne m c main_arg11 (by decide)).trans (B2_main_arg11 m c)

/-! ## The host stretch's results and the regions' results, once written -/

/-- The transposed `HG` is as the host stretch left it when region 1 reads it. -/
theorem B2_main_v4 (c : Dev nD) : B2 m c (Proc.devRef .tc main_v4) = B1 m c (Proc.devRef .tc main_v4) :=
  B2_of_ne m c main_v4 (by decide)
/-- The bias row of `bg` is as the host stretch left it when region 2 reads it. -/
theorem B3_main_v0 (c : Dev nD) : B3 m c (Proc.devRef .tc main_v0) = B1 m c (Proc.devRef .tc main_v0) :=
  (B3_of_ne m c main_v0 (by decide)).trans (B2_of_ne m c main_v0 (by decide))
/-- The bias row of `bm` likewise. -/
theorem B3_main_v3 (c : Dev nD) : B3 m c (Proc.devRef .tc main_v3) = B1 m c (Proc.devRef .tc main_v3) :=
  (B3_of_ne m c main_v3 (by decide)).trans (B2_of_ne m c main_v3 (by decide))
/-- `hyper`, region 0's first result, is what @main returns it as: regions 1 and 2 do not stage it. -/
theorem B4_main_v5_0 (c : Dev nD) : B4 m c (Proc.devRef .tc main_v5_0) = (dat0 (E1 m) c).arrAt 6 cfg0.N :=
  (B4_of_ne m c main_v5_0 (by decide)).trans ((B3_of_ne m c main_v5_0 (by decide)).trans (B2_arr m c 6))
/-- `z`, region 0's second result, as region 1 reads it. -/
theorem B2_main_v5_1 (c : Dev nD) : B2 m c (Proc.devRef .tc main_v5_1) = (dat0 (E1 m) c).arrAt 7 cfg0.N :=
  B2_arr m c 7
/-- Region 1's result as region 2 reads it. -/
theorem B3_main_v6 (c : Dev nD) : B3 m c (Proc.devRef .tc main_v6) = (dat1 (E2 m) c).arrAt 2 cfg1.N :=
  B3_arr m c 2
/-- Region 2's result, what @main returns. -/
theorem B4_main_v7 (c : Dev nD) : B4 m c (Proc.devRef .tc main_v7) = (dat2 (E3 m) c).arrAt 7 cfg2.N :=
  B4_arr m c 7

end Cert.KernelIdeal.Whole

end
-- ==== Proof.Spec.lean ====
import Mathlib.Algebra.BigOperators.Fin
import Mathlib.Algebra.BigOperators.Group.Finset.Basic
import Mathlib.Data.EReal.Basic

/-! The layer as plain mathematics over the extended reals: matrices as functions of two coordinates.

    gnn   = relu(GG · (x·Wg + bg))
    hyper = relu(HH · (x·W1 + b1))
    hgnn  = relu(HG · (hyper·W2 + b2))
    fused = [x | gnn | hgnn] · Wm + bm

  and the two regroupings of sums by which a blocked evaluation meets it: a 768-term contraction as three
  256-term ones, a 2000-term contraction as five 400-term chunks added left to right. Both use only that
  addition of extended reals is commutative and associative. -/

open scoped BigOperators

noncomputable section

namespace Cert.Spec

/-- A matrix with entries in the extended reals. -/
abbrev Mat (a b : ℕ) : Type := Fin a → Fin b → EReal

/-- `x · W + β`, the bias added along every row. -/
def affine {n d e : ℕ} (x : Mat n d) (W : Mat d e) (β : Fin e → EReal) : Mat n e :=
  fun p q => (∑ k : Fin d, x p k * W k q) + β q

/-- `relu(A · B)`: the product's entries, negative ones replaced by zero. -/
def reluMul {n l e : ℕ} (A : Mat n l) (B : Mat l e) : Mat n e :=
  fun p q => max (∑ k : Fin l, A p k * B k q) 0

/-- A sum over 768 terms is the sum of its three thirds, added left to right. -/
theorem sum_thirds {M : Type*} [AddCommMonoid M] (f : Fin 768 → M) :
    ∑ k : Fin 768, f k
      = ((∑ k : Fin 256, f ⟨k.val, by omega⟩) + ∑ k : Fin 256, f ⟨256 + k.val, by omega⟩)
        + ∑ k : Fin 256, f ⟨512 + k.val, by omega⟩ := by
  have e : ∑ k : Fin 768, f k = ∑ k : Fin (512 + 256), f k := rfl
  rw [e, Fin.sum_univ_add]
  have e2 : ∑ k : Fin 512, f (Fin.castAdd 256 k) = ∑ k : Fin (256 + 256), f (Fin.castAdd 256 k) := rfl
  rw [e2, Fin.sum_univ_add]
  rfl

/-- A sum over 2000 terms is the sum of its five 400-term chunks, added left to right. -/
theorem sum_chunks {M : Type*} [AddCommMonoid M] (f : Fin 2000 → M) :
    ∑ r : Fin 2000, f r
      = ((((∑ r : Fin 400, f ⟨r.val, by omega⟩) + ∑ r : Fin 400, f ⟨400 + r.val, by omega⟩)
          + ∑ r : Fin 400, f ⟨800 + r.val, by omega⟩) + ∑ r : Fin 400, f ⟨1200 + r.val, by omega⟩)
        + ∑ r : Fin 400, f ⟨1600 + r.val, by omega⟩ := by
  have e1 : ∑ r : Fin 2000, f r = ∑ r : Fin (1600 + 400), f r := rfl
  rw [e1, Fin.sum_univ_add]
  have e2 : ∑ r : Fin 1600, f (Fin.castAdd 400 r) = ∑ r : Fin (1200 + 400), f (Fin.castAdd 400 r) := rfl
  rw [e2, Fin.sum_univ_add]
  have e3 : ∑ r : Fin 1200, f (Fin.castAdd 400 (Fin.castAdd 400 r))
      = ∑ r : Fin (800 + 400), f (Fin.castAdd 400 (Fin.castAdd 400 r)) := rfl
  rw [e3, Fin.sum_univ_add]
  have e4 : ∑ r : Fin 800, f (Fin.castAdd 400 (Fin.castAdd 400 (Fin.castAdd 400 r)))
      = ∑ r : Fin (400 + 400), f (Fin.castAdd 400 (Fin.castAdd 400 (Fin.castAdd 400 r))) := rfl
  rw [e4, Fin.sum_univ_add]
  rfl

/-- The three column blocks `[x | g | h]` side by side. -/
def cat3 {n : ℕ} (x g h : Mat n 256) : Mat n 768 :=
  fun p k => if h1 : k.val < 256 then x p ⟨k.val, h1⟩
    else if h2 : k.val < 512 then g p ⟨k.val - 256, by omega⟩
    else h p ⟨k.val - 512, by omega⟩

/-- `[x | g | h] · Wm + β` as the reference states it: one 768-term contraction. -/
def fusedCat {n : ℕ} (x g h : Mat n 256) (Wm : Mat 768 256) (β : Fin 256 → EReal) : Mat n 256 :=
  affine (cat3 x g h) Wm β

/-- The same as a blocked evaluation forms it: three 256-term contractions against the three row blocks of `Wm`,
    added left to right, then the bias. -/
def fusedParts {n : ℕ} (x g h : Mat n 256) (Wm : Mat 768 256) (β : Fin 256 → EReal) : Mat n 256 :=
  fun p q => (((∑ k : Fin 256, x p k * Wm ⟨k.val, by omega⟩ q) + ∑ k : Fin 256, g p k * Wm ⟨256 + k.val, by omega⟩ q)
      + ∑ k : Fin 256, h p k * Wm ⟨512 + k.val, by omega⟩ q) + β q

theorem fusedCat_eq_parts {n : ℕ} (x g h : Mat n 256) (Wm : Mat 768 256) (β : Fin 256 → EReal) :
    fusedCat x g h Wm β = fusedParts x g h Wm β := by
  funext p q
  -- each third of the joined row is one of the three blocks
  have e1 : ∀ k : Fin 256, cat3 x g h p ⟨k.val, by omega⟩ = x p k := fun k => by
    unfold cat3
    rw [dif_pos (show (⟨k.val, by omega⟩ : Fin 768).val < 256 from k.isLt)]
  have e2 : ∀ k : Fin 256, cat3 x g h p ⟨256 + k.val, by omega⟩ = g p k := fun k => by
    unfold cat3
    have h1 : ¬ (⟨256 + k.val, by omega⟩ : Fin 768).val < 256 := by
      show ¬ 256 + k.val < 256
      omega
    have h2 : (⟨256 + k.val, by omega⟩ : Fin 768).val < 512 := by
      show 256 + k.val < 512
      have := k.isLt
      omega
    rw [dif_neg h1, dif_pos h2]
    exact congrArg (g p) (Fin.ext (show 256 + k.val - 256 = k.val by omega))
  have e3 : ∀ k : Fin 256, cat3 x g h p ⟨512 + k.val, by omega⟩ = h p k := fun k => by
    unfold cat3
    have h1 : ¬ (⟨512 + k.val, by omega⟩ : Fin 768).val < 256 := by
      show ¬ 512 + k.val < 256
      omega
    have h2 : ¬ (⟨512 + k.val, by omega⟩ : Fin 768).val < 512 := by
      show ¬ 512 + k.val < 512
      omega
    rw [dif_neg h1, dif_neg h2]
    exact congrArg (h p) (Fin.ext (show 512 + k.val - 512 = k.val by omega))
  show (∑ k : Fin 768, cat3 x g h p k * Wm k q) + β q = _
  rw [sum_thirds (fun k => cat3 x g h p k * Wm k q)]
  simp only [e1, e2, e3]
  rfl

/-- `relu` of a 2000-term contraction whose chunks were added left to right is `reluMul`. -/
theorem reluMul_chunks {n e : ℕ} (A : Mat n 2000) (B : Mat 2000 e) (p : Fin n) (q : Fin e) :
    max (((((∑ r : Fin 400, A p ⟨r.val, by omega⟩ * B ⟨r.val, by omega⟩ q)
            + ∑ r : Fin 400, A p ⟨400 + r.val, by omega⟩ * B ⟨400 + r.val, by omega⟩ q)
          + ∑ r : Fin 400, A p ⟨800 + r.val, by omega⟩ * B ⟨800 + r.val, by omega⟩ q)
        + ∑ r : Fin 400, A p ⟨1200 + r.val, by omega⟩ * B ⟨1200 + r.val, by omega⟩ q)
      + ∑ r : Fin 400, A p ⟨1600 + r.val, by omega⟩ * B ⟨1600 + r.val, by omega⟩ q) 0
      = reluMul A B p q := by
  unfold reluMul
  rw [sum_chunks (fun r => A p r * B r q)]

end Cert.Spec

end
-- ==== Proof.SpecIdx.lean ====
import proofs.«169939_g28836410425910_retrytranche2_620_30_alg».proof.Proof.Spec
import Idealize.ShloMosaic.Lib.ValueIdx

/-! Arrays of extended reals, indexed by shape indices, read as the specification's coordinate functions. -/

noncomputable section

namespace Cert.Spec

open Idealize.ShloMosaic Idealize.ShloMosaic.ValueIdx

/-- A rank-2 array as a matrix: entry `(p, q)`. -/
abbrev matOf {r s : ℕ} (a : (⟨2, ![r, s]⟩ : Shape).Idx → EReal) : Mat r s := fun p q => a (ix2 p q)

/-- A rank-2 array as the TRANSPOSED matrix: entry `(p, q)` is the array at `(q, p)`. -/
abbrev matOfT {r s : ℕ} (a : (⟨2, ![r, s]⟩ : Shape).Idx → EReal) : Mat s r := fun p q => a (ix2 q p)

/-- A one-row rank-2 array as a vector. -/
abbrev rowOf {s : ℕ} (a : (⟨2, ![1, s]⟩ : Shape).Idx → EReal) : Fin s → EReal := fun q => a (ix2 0 q)

/-- A rank-1 array as a vector. -/
abbrev vecOf {s : ℕ} (a : (⟨1, ![s]⟩ : Shape).Idx → EReal) : Fin s → EReal := fun q => a (ix1 q)

end Cert.Spec

end
-- ==== Proof.Entry.lean ====
import proofs.«169939_g28836410425910_retrytranche2_620_30_alg».proof.Proof.Through
import proofs.«169939_g28836410425910_retrytranche2_620_30_alg».proof.Proof.SpecIdx
import Idealize.ShloMosaic.Lib.Pipeline.Value
import Idealize.ShloMosaic.Lib.ValueLayout
import Idealize.ShloMosaic.Lib.StableHlo.Run

/-! What the host stretch hands the regions, at the exact instance: each bias vector as a one-row matrix reads, in
    column `q`, the vector's entry `q`; the transposed `HG` reads, at `(r, i)`, `HG` at `(i, r)`. -/

noncomputable section

namespace Cert.KernelIdeal.Whole

open Idealize.ShloMosaic Idealize.ShloMosaic.TcCoe Idealize.SL.Sem Idealize.ShloMosaic.StableHlo Idealize.ShloMosaic.ValueIdx
open Cert.KernelIdeal Cert.KernelIdeal.Gen Cert.Spec

variable (m : (ℓ : Loc nD τ sig) → Buf (Elt Ideal) ℓ)

/-- The host stretch's result for `bg`: the vector with a leading unit axis added. -/
theorem bg_row_term (c : Dev nD) :
    (B1 m c (Proc.devRef .tc main_v0) : S1x256.Idx → EReal)
      = shapeCast S1x256 (m ((c : Thread nD τ).loc main_arg5)) shapeCasts_S256_S1x256 := by
  show StableHlo.after hostOps0 (V0 m c) (Proc.devRef .tc main_v0) = _
  after_results <;> rfl

/-- As a row it is the vector `bg`. -/
theorem bg_row (c : Dev nD) :
    rowOf (B1 m c (Proc.devRef .tc main_v0) : S1x256.Idx → EReal) = vecOf (m ((c : Thread nD τ).loc main_arg5) : S256.Idx → EReal) := by
  funext q
  show (B1 m c (Proc.devRef .tc main_v0) : S1x256.Idx → EReal) (ix2 0 q) = _
  rw [bg_row_term]
  refine (shapeCast_addUnit_apply ![256] _ _ _).trans ?_
  refine congrArg _ (funext fun a => ?_)
  match a with
  | ⟨0, _⟩ => rfl

/-- The host stretch's result for `b1`: the vector with a leading unit axis added. -/
theorem b1_row_term (c : Dev nD) :
    (B1 m c (Proc.devRef .tc main_v1) : S1x256.Idx → EReal)
      = shapeCast S1x256 (m ((c : Thread nD τ).loc main_arg7)) shapeCasts_S256_S1x256 := by
  show StableHlo.after hostOps0 (V0 m c) (Proc.devRef .tc main_v1) = _
  after_results <;> rfl

/-- As a row it is the vector `b1`. -/
theorem b1_row (c : Dev nD) :
    rowOf (B1 m c (Proc.devRef .tc main_v1) : S1x256.Idx → EReal) = vecOf (m ((c : Thread nD τ).loc main_arg7) : S256.Idx → EReal) := by
  funext q
  show (B1 m c (Proc.devRef .tc main_v1) : S1x256.Idx → EReal) (ix2 0 q) = _
  rw [b1_row_term]
  refine (shapeCast_addUnit_apply ![256] _ _ _).trans ?_
  refine congrArg _ (funext fun a => ?_)
  match a with
  | ⟨0, _⟩ => rfl

/-- The host stretch's result for `b2`: the vector with a leading unit axis added. -/
theorem b2_row_term (c : Dev nD) :
    (B1 m c (Proc.devRef .tc main_v2) : S1x256.Idx → EReal)
      = shapeCast S1x256 (m ((c : Thread nD τ).loc main_arg9)) shapeCasts_S256_S1x256 := by
  show StableHlo.after hostOps0 (V0 m c) (Proc.devRef .tc main_v2) = _
  after_results <;> rfl

/-- As a row it is the vector `b2`. -/
theorem b2_row (c : Dev nD) :
    rowOf (B1 m c (Proc.devRef .tc main_v2) : S1x256.Idx → EReal) = vecOf (m ((c : Thread nD τ).loc main_arg9) : S256.Idx → EReal) := by
  funext q
  show (B1 m c (Proc.devRef .tc main_v2) : S1x256.Idx → EReal) (ix2 0 q) = _
  rw [b2_row_term]
  refine (shapeCast_addUnit_apply ![256] _ _ _).trans ?_
  refine congrArg _ (funext fun a => ?_)
  match a with
  | ⟨0, _⟩ => rfl

/-- The host stretch's result for `bm`: the vector with a leading unit axis added. -/
theorem bm_row_term (c : Dev nD) :
    (B1 m c (Proc.devRef .tc main_v3) : S1x256.Idx → EReal)
      = shapeCast S1x256 (m ((c : Thread nD τ).loc main_arg11)) shapeCasts_S256_S1x256 := by
  show StableHlo.after hostOps0 (V0 m c) (Proc.devRef .tc main_v3) = _
  after_results <;> rfl

/-- As a row it is the vector `bm`. -/
theorem bm_row (c : Dev nD) :
    rowOf (B1 m c (Proc.devRef .tc main_v3) : S1x256.Idx → EReal) = vecOf (m ((c : Thread nD τ).loc main_arg11) : S256.Idx → EReal) := by
  funext q
  show (B1 m c (Proc.devRef .tc main_v3) : S1x256.Idx → EReal) (ix2 0 q) = _
  rw [bm_row_term]
  refine (shapeCast_addUnit_apply ![256] _ _ _).trans ?_
  refine congrArg _ (funext fun a => ?_)
  match a with
  | ⟨0, _⟩ => rfl

/-- The host stretch's result for `HG`: its transpose. -/
theorem hgT_term (c : Dev nD) :
    (B1 m c (Proc.devRef .tc main_v4) : S2000x10000.Idx → EReal)
      = transpose S2000x10000 [1, 0] (m ((c : Thread nD τ).loc main_arg3)) transposes_S10000x2000_S2000x10000_1_0 := by
  show StableHlo.after hostOps0 (V0 m c) (Proc.devRef .tc main_v4) = _
  after_results <;> rfl

/-- Read back transposed, it is `HG`. -/
theorem hgT_mat (c : Dev nD) :
    matOfT (B1 m c (Proc.devRef .tc main_v4) : S2000x10000.Idx → EReal) = matOf (m ((c : Thread nD τ).loc main_arg3) : S10000x2000.Idx → EReal) := by
  funext i r
  show (B1 m c (Proc.devRef .tc main_v4) : S2000x10000.Idx → EReal) (ix2 r i) = _
  rw [hgT_term]
  refine transpose_apply _ _ _ _ (ix2 i r) fun b => ?_
  match b with
  | ⟨0, _⟩ => rfl
  | ⟨1, _⟩ => rfl

end Cert.KernelIdeal.Whole

end
-- ==== Proof.LibRowOps.lean ====
/-
  Row-wise readings of the operations a row-parallel kernel body is made of, at an index written with the
  coordinate constructors: a plain `M × K` by `K × N` matrix product into a zero accumulator read at `(p, q)` is the
  sum over `k` of the left operand's row `p` times the right operand's column `q`; a sum (a maximum) along the
  second axis of an `[a, b]` array read at row `p` is the sum (the fold of `max`) of that row's entries.
-/
import Idealize.ShloMosaic.Lib.ValueIdx
import Idealize.ShloMosaic.PureOps.Ideal.Laws

namespace Cert.LibRowOps

open Idealize.ShloMosaic Idealize.ShloMosaic.ValueIdx

/-! ## A plain matrix product -/

section Plain
variable (M K N : ℕ)

theorem plain_lhs_row (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

theorem plain_lhs_contr (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

theorem plain_rhs_contr (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

theorem plain_rhs_col (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The product of an `[M, K]` by a `[K, N]` array accumulated into zero, at `(p, q)`: the sum over the contracted
    coordinate of row `p` of the left factor times column `q` of the right one. -/
theorem matmul_plain_zero_apply {φ₁ φ₂ : FTy} (l : FVec Ideal ⟨2, ![M, K]⟩ φ₁) (r : FVec Ideal ⟨2, ![K, N]⟩ φ₂)
    (p : Fin M) (q : Fin N) :
    FloatOps.matmul (DotDims.plain M K N) none l r (constant (F := Ideal) ⟨2, ![M, N]⟩ .f32 0x00000000#32) (ix2 p q)
      = ∑ k : Fin K, l (ix2 p k) * r (ix2 k q) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs_row M K N _ _
      | ⟨1, _⟩ => exact (plain_lhs_contr M K N _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs_contr M K N _ _).trans hk
      | ⟨1, _⟩ => exact plain_rhs_col M K N _ _)
  rw [el, er]

end Plain

/-! ## Reductions along the rows of a matrix -/

section Rows
variable {a b : ℕ} {φ : FTy}

/-- Over row `p` of the reduced vector, the source index with coordinate `k` put back on the dropped axis is `(p, k)`. -/
theorem lift_row (h : (⟨2, ![a, b]⟩ : Shape).Reduces [1] ⟨1, ![a]⟩) (p : Fin a) (k : Fin b) :
    h.lift (ix1 p) k = ix2 p k :=
  funext fun c => Fin.ext (by match c with | ⟨0, _⟩ => rfl | ⟨1, _⟩ => rfl)

/-- A sum along the second axis, at row `p`: the sum of the row's entries. -/
theorem rowSum_apply (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (lift_row h p k))

/-- A maximum along the second axis, at row `p`: the fold of `max`, from the accumulator's value, over the row's entries. -/
theorem rowMax_apply (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (p : Fin a) :
    multiReduction .maximumf [1] ⟨1, ![a]⟩ src acc h hφ hacc (ix1 p)
      = (Finset.univ : Finset (Fin b)).fold max (Ideal.ofBits φ acc) (fun k => src (ix2 p k)) :=
  (Ideal.multiReduction_maximumf_single src acc h hφ hacc (ix1 p)).trans
    (congrArg (Finset.fold max (Ideal.ofBits φ acc) · Finset.univ) (funext fun k => congrArg src (lift_row h p k)))

end Rows

end Cert.LibRowOps
-- ==== Proof.Payloads.lean ====
import proofs.«169939_g28836410425910_retrytranche2_620_30_alg».proof.Proof.Gen.KernelIdeal.Skeleton
import proofs.«169939_g28836410425910_retrytranche2_620_30_alg».proof.Proof.LibRowOps
import Idealize.ShloMosaic.Lib.ValueIdx
import Idealize.ShloMosaic.Lib.ValueLayout
import Idealize.ShloMosaic.Lib.Pipeline.Value
import Idealize.ShloMosaic.PureOps.Ideal.Laws

/-! The kernel's payloads read at an index, at the exact (extended-real) instance.

  Every payload of the three kernel bodies is a short chain of: a matrix product accumulated into zero, a change of
  number format (the identity on exact values), a reshaping to the same shape (the identity), a one-row bias spread
  over all rows, an entrywise sum, and an entrywise maximum with zero. Read at the entry `(p, q)` such a chain is a
  formula in sums over the contracted coordinate: a product contracts the left factor's row `p` with the right
  factor's column `q`; the one product that contracts the FIRST axis of both factors contracts column `p` of the
  left factor with column `q` of the right one. -/

noncomputable section

namespace Cert.KernelIdeal.Pay

open Idealize.ShloMosaic Idealize.ShloMosaic.ValueIdx Cert.KernelIdeal Cert.KernelIdeal.Gen

/-! ## The three row-by-column products

Their dimension numbers are the plain ones — the left factor's second axis is contracted with the right factor's
first —, so each is the plain `M × K` by `K × N` product at its own sizes, and entry `(p, q)` is row `p` of the
left factor against column `q` of the right one. -/

/-- Features by a 256 × 256 weight: the plain product at 10000 × 256 × 256. -/
theorem featW_plain : dot_S10000x256_S256x256_S10000x256_1_0_0_1_n_n = DotDims.plain 10000 256 256 := rfl

/-- A 200-row block of an operator by the projected features: the plain product at 200 × 10000 × 256. -/
theorem opBlk_plain : dot_S200x10000_S10000x256_S200x256_1_0_0_1_n_n = DotDims.plain 200 10000 256 := rfl

/-- A 200-row block by a 256 × 256 weight: the plain product at 200 × 256 × 256. -/
theorem blkW_plain : dot_S200x256_S256x256_S200x256_1_0_0_1_n_n = DotDims.plain 200 256 256 := rfl

theorem featW_at {φ₁ φ₂ : FTy} (l : FVec Ideal S10000x256 φ₁) (r : FVec Ideal S256x256 φ₂) (p : Fin 10000) (q : Fin 256) :
    matmul dot_S10000x256_S256x256_S10000x256_1_0_0_1_n_n none l r (constant (F := Ideal) S10000x256 .f32 0x00000000#32) (ix2 p q)
      = ∑ k : Fin 256, l (ix2 p k) * r (ix2 k q) := by
  rw [featW_plain]
  exact Cert.LibRowOps.matmul_plain_zero_apply 10000 256 256 l r p q

theorem opBlk_at {φ₁ φ₂ : FTy} (l : FVec Ideal S200x10000 φ₁) (r : FVec Ideal S10000x256 φ₂) (p : Fin 200) (q : Fin 256) :
    matmul dot_S200x10000_S10000x256_S200x256_1_0_0_1_n_n none l r (constant (F := Ideal) S200x256 .f32 0x00000000#32) (ix2 p q)
      = ∑ k : Fin 10000, l (ix2 p k) * r (ix2 k q) := by
  rw [opBlk_plain]
  exact Cert.LibRowOps.matmul_plain_zero_apply 200 10000 256 l r p q

theorem blkW_at {φ₁ φ₂ : FTy} (l : FVec Ideal S200x256 φ₁) (r : FVec Ideal S256x256 φ₂) (p : Fin 200) (q : Fin 256) :
    matmul dot_S200x256_S256x256_S200x256_1_0_0_1_n_n none l r (constant (F := Ideal) S200x256 .f32 0x00000000#32) (ix2 p q)
      = ∑ k : Fin 256, l (ix2 p k) * r (ix2 k q) := by
  rw [blkW_plain]
  exact Cert.LibRowOps.matmul_plain_zero_apply 200 256 256 l r p q

/-! ## The column-by-column product

One product contracts the FIRST axis of both factors (a 400-row chunk of the transposed operator against the
matching 400-row chunk of `z`): the result's row coordinate is the left factor's column, its column coordinate the
right factor's column, and the sum runs down the 400 rows. -/

theorem colcol_left_term (i : S10000x256.Idx) (c : dot_S400x10000_S400x256_S10000x256_0_0_1_1_n_n.contr.Idx) :
    (dot_S400x10000_S400x256_S10000x256_0_0_1_1_n_n.lhsIdx i c 0).val = (c ⟨0, by decide⟩).val :=
  dot_S400x10000_S400x256_S10000x256_0_0_1_1_n_n.lhsIdx_val_of_single rfl i c
theorem colcol_left_col (i : S10000x256.Idx) (c : dot_S400x10000_S400x256_S10000x256_0_0_1_1_n_n.contr.Idx) :
    (dot_S400x10000_S400x256_S10000x256_0_0_1_1_n_n.lhsIdx i c 1).val = (i 0).val := by
  unfold DotDims.lhsIdx
  rw [dif_neg (show ¬(1 : Fin S400x10000.rank) ∈ dot_S400x10000_S400x256_S10000x256_0_0_1_1_n_n.lhsBatch by decide), dif_pos (show (1 : Fin S400x10000.rank) ∈ dot_S400x10000_S400x256_S10000x256_0_0_1_1_n_n.lhsNonContracting by decide)]
  rfl
theorem colcol_right_term (i : S10000x256.Idx) (c : dot_S400x10000_S400x256_S10000x256_0_0_1_1_n_n.contr.Idx) :
    (dot_S400x10000_S400x256_S10000x256_0_0_1_1_n_n.rhsIdx i c 0).val = (c ⟨0, by decide⟩).val :=
  dot_S400x10000_S400x256_S10000x256_0_0_1_1_n_n.rhsIdx_val_of_single rfl i c
theorem colcol_right_col (i : S10000x256.Idx) (c : dot_S400x10000_S400x256_S10000x256_0_0_1_1_n_n.contr.Idx) :
    (dot_S400x10000_S400x256_S10000x256_0_0_1_1_n_n.rhsIdx i c 1).val = (i 1).val := by
  unfold DotDims.rhsIdx
  rw [dif_neg (show ¬(1 : Fin S400x256.rank) ∈ dot_S400x10000_S400x256_S10000x256_0_0_1_1_n_n.rhsBatch by decide), dif_pos (show (1 : Fin S400x256.rank) ∈ dot_S400x10000_S400x256_S10000x256_0_0_1_1_n_n.rhsNonContracting by decide)]
  rfl

/-- Entry `(p, q)` of the product: column `p` of the left factor against column `q` of the right one, 400 terms. -/
theorem colcol_at {φ₁ φ₂ : FTy} (l : FVec Ideal S400x10000 φ₁) (r : FVec Ideal S400x256 φ₂) (p : Fin 10000) (q : Fin 256) :
    matmul dot_S400x10000_S400x256_S10000x256_0_0_1_1_n_n none l r (constant (F := Ideal) S10000x256 .f32 0x00000000#32) (ix2 p q)
      = ∑ k : Fin 400, l (ix2 k p) * r (ix2 k q) := by
  refine (Ideal.matmul_constant_zero_apply dot_S400x10000_S400x256_S10000x256_0_0_1_1_n_n none l r (ix2 p q)).trans ?_
  rw [← Equiv.sum_comp (contrEquiv1 dot_S400x10000_S400x256_S10000x256_0_0_1_1_n_n 400 rfl rfl).symm]
  refine Finset.sum_congr rfl fun k _ => ?_
  have hk := contrEquiv1_symm_val dot_S400x10000_S400x256_S10000x256_0_0_1_1_n_n 400 rfl rfl k
  have el : dot_S400x10000_S400x256_S10000x256_0_0_1_1_n_n.lhsIdx (ix2 p q) ((contrEquiv1 dot_S400x10000_S400x256_S10000x256_0_0_1_1_n_n 400 rfl rfl).symm k) = ix2 k p :=
    funext fun a => Fin.ext (by
      match a with
      | ⟨0, _⟩ => exact (colcol_left_term _ _).trans hk
      | ⟨1, _⟩ => exact colcol_left_col _ _)
  have er : dot_S400x10000_S400x256_S10000x256_0_0_1_1_n_n.rhsIdx (ix2 p q) ((contrEquiv1 dot_S400x10000_S400x256_S10000x256_0_0_1_1_n_n 400 rfl rfl).symm k) = ix2 k q :=
    funext fun a => Fin.ext (by
      match a with
      | ⟨0, _⟩ => exact (colcol_right_term _ _).trans hk
      | ⟨1, _⟩ => exact colcol_right_col _ _)
  rw [el, er]

/-! ## The pieces that are not products -/

/-- The zero that `relu` compares with. -/
theorem relu_zero : Scalar.ofBits (F := Ideal) .f32 0x00000000#32 = 0 :=
  Ideal.ofBits_zero_f32

/-! ## The payloads -/

/-- `x · W + b` (first body), at `(p, q)`; rounding to the narrow format is the identity on exact values. -/
theorem proj_at (x : Vec Ideal S10000x256 .f32) (W : Vec Ideal S256x256 .f32) (b : Vec Ideal S1x256 .f32) (p : Fin 10000) (q : Fin 256) :
    k0_pay1 (F := Ideal) x W b (ix2 p q) = (∑ k : Fin 256, x (ix2 p k) * W (ix2 k q)) + b (ix2 0 q) := by
  unfold k0_pay1
  simp only [shapeCast_self]
  show matmul dot_S10000x256_S256x256_S10000x256_1_0_0_1_n_n none x W (constant (F := Ideal) S10000x256 .f32 0x00000000#32) (ix2 p q)
      + broadcastTo S10000x256 b broadcasts_S1x256_S10000x256 (ix2 p q) = _
  rw [featW_at, broadcastTo_1b_ab_apply]

/-- `x · W + b` (third body), at `(p, q)`: the same chain as in the first body. -/
theorem proj2_at (x : Vec Ideal S10000x256 .f32) (W : Vec Ideal S256x256 .f32) (b : Vec Ideal S1x256 .f32) (p : Fin 10000) (q : Fin 256) :
    k2_pay1 (F := Ideal) x W b (ix2 p q) = (∑ k : Fin 256, x (ix2 p k) * W (ix2 k q)) + b (ix2 0 q) := by
  unfold k2_pay1
  simp only [shapeCast_self]
  show matmul dot_S10000x256_S256x256_S10000x256_1_0_0_1_n_n none x W (constant (F := Ideal) S10000x256 .f32 0x00000000#32) (ix2 p q)
      + broadcastTo S10000x256 b broadcasts_S1x256_S10000x256 (ix2 p q) = _
  rw [featW_at, broadcastTo_1b_ab_apply]

/-- `relu(h · s)` on a 200-row block, at `(p, q)`. -/
theorem relu_blk_at (h : Vec Ideal S200x10000 .f32) (s : Vec Ideal S10000x256 .bf16) (p : Fin 200) (q : Fin 256) :
    k0_pay2 (F := Ideal) h s (ix2 p q) = max (∑ l : Fin 10000, h (ix2 p l) * s (ix2 l q)) 0 := by
  unfold k0_pay2
  show max (matmul dot_S200x10000_S10000x256_S200x256_1_0_0_1_n_n none (truncf .bf16 h bitsLt_bf16_f32) s
      (constant (F := Ideal) S200x256 .f32 0x00000000#32) (ix2 p q)) (Scalar.ofBits (F := Ideal) .f32 0x00000000#32) = _
  rw [opBlk_at, relu_zero]
  rfl

/-- `relu(h · s) · W2 + b2` on a 200-row block, at `(p, q)`. -/
theorem z_blk_at (h : Vec Ideal S200x10000 .f32) (s : Vec Ideal S10000x256 .bf16) (W2 : Vec Ideal S256x256 .f32) (b2 : Vec Ideal S1x256 .f32) (p : Fin 200) (q : Fin 256) :
    k0_pay3 (F := Ideal) h s W2 b2 (ix2 p q)
      = (∑ k : Fin 256, (max (∑ l : Fin 10000, h (ix2 p l) * s (ix2 l k)) 0) * W2 (ix2 k q)) + b2 (ix2 0 q) := by
  unfold k0_pay3
  simp only [shapeCast_self]
  show matmul dot_S200x256_S256x256_S200x256_1_0_0_1_n_n none (k0_pay2 (F := Ideal) h s) W2 (constant (F := Ideal) S200x256 .f32 0x00000000#32) (ix2 p q)
      + broadcastTo S200x256 b2 broadcasts_S1x256_S200x256 (ix2 p q) = _
  rw [blkW_at, broadcastTo_1b_ab_apply]
  simp only [relu_blk_at]

/-- The partial product of one 400-row chunk, at `(p, q)`: column `p` of the operator chunk against column `q` of
    the `z` chunk. -/
theorem part_at (a : Vec Ideal S400x10000 .f32) (z : Vec Ideal S400x256 .f32) (p : Fin 10000) (q : Fin 256) :
    k1_pay1 (F := Ideal) a z (ix2 p q) = ∑ r : Fin 400, a (ix2 r p) * z (ix2 r q) := by
  unfold k1_pay1
  simp only [shapeCast_self]
  show matmul dot_S400x10000_S400x256_S10000x256_0_0_1_1_n_n none (truncf .bf16 a bitsLt_bf16_f32) (truncf .bf16 z bitsLt_bf16_f32)
      (constant (F := Ideal) S10000x256 .f32 0x00000000#32) (ix2 p q) = _
  rw [colcol_at]
  rfl

/-- The first chunk SETS the accumulator to its partial product. -/
theorem acc_set_at (a : Vec Ideal S400x10000 .f32) (z : Vec Ideal S400x256 .f32) (p : Fin 10000) (q : Fin 256) :
    k1_pay2 (F := Ideal) a z (ix2 p q) = ∑ r : Fin 400, a (ix2 r p) * z (ix2 r q) := by
  unfold k1_pay2
  simp only [shapeCast_self]
  exact part_at a z p q

/-- A later chunk ADDS its partial product to the accumulator. -/
theorem acc_add_at (a : Vec Ideal S400x10000 .f32) (z : Vec Ideal S400x256 .f32) (acc : Vec Ideal S10000x256 .f32) (p : Fin 10000) (q : Fin 256) :
    k1_pay3 (F := Ideal) a z acc (ix2 p q) = acc (ix2 p q) + ∑ r : Fin 400, a (ix2 r p) * z (ix2 r q) := by
  unfold k1_pay3
  simp only [shapeCast_self]
  show acc (ix2 p q) + k1_pay1 (F := Ideal) a z (ix2 p q) = _
  rw [part_at]

/-- After the last chunk: `relu` of the accumulator. -/
theorem relu_acc_at (acc : Vec Ideal S10000x256 .f32) (p : Fin 10000) (q : Fin 256) :
    k1_pay4 (F := Ideal) acc (ix2 p q) = max (acc (ix2 p q)) 0 := by
  unfold k1_pay4
  show max (acc (ix2 p q)) (Scalar.ofBits (F := Ideal) .f32 0x00000000#32) = _
  rw [relu_zero]

/-- The fused result on a 200-row block, at `(p, q)`: the three 256-term products against the three weights, added
    left to right, then the bias. -/
theorem fused_blk_at (g : Vec Ideal S200x10000 .f32) (s : Vec Ideal S10000x256 .bf16) (xs : Vec Ideal S200x256 .f32)
    (w0 w1 : Vec Ideal S256x256 .f32) (hg : Vec Ideal S200x256 .bf16) (w2 : Vec Ideal S256x256 .f32) (bm : Vec Ideal S1x256 .f32)
    (p : Fin 200) (q : Fin 256) :
    k2_pay2 (F := Ideal) g s xs w0 w1 hg w2 bm (ix2 p q)
      = (((∑ k : Fin 256, xs (ix2 p k) * w0 (ix2 k q))
            + ∑ k : Fin 256, (max (∑ l : Fin 10000, g (ix2 p l) * s (ix2 l k)) 0) * w1 (ix2 k q))
          + ∑ k : Fin 256, hg (ix2 p k) * w2 (ix2 k q)) + bm (ix2 0 q) := by
  -- the middle factor is the first body's `relu` payload on the same operands
  have hmid : ∀ k : Fin 256,
      maximumf (matmul dot_S200x10000_S10000x256_S200x256_1_0_0_1_n_n none (truncf .bf16 g bitsLt_bf16_f32) s
          (constant (F := Ideal) S200x256 .f32 0x00000000#32))
        (broadcast S200x256 (Scalar.ofBits (F := Ideal) .f32 0x00000000#32)) (ix2 p k)
        = max (∑ l : Fin 10000, g (ix2 p l) * s (ix2 l k)) 0 := fun k => relu_blk_at g s p k
  unfold k2_pay2
  simp only [shapeCast_self]
  show ((matmul dot_S200x256_S256x256_S200x256_1_0_0_1_n_n none xs w0 (constant (F := Ideal) S200x256 .f32 0x00000000#32) (ix2 p q)
        + matmul dot_S200x256_S256x256_S200x256_1_0_0_1_n_n none
            (maximumf (matmul dot_S200x10000_S10000x256_S200x256_1_0_0_1_n_n none (truncf .bf16 g bitsLt_bf16_f32) s
                (constant (F := Ideal) S200x256 .f32 0x00000000#32))
              (broadcast S200x256 (Scalar.ofBits (F := Ideal) .f32 0x00000000#32)))
            w1 (constant (F := Ideal) S200x256 .f32 0x00000000#32) (ix2 p q))
      + matmul dot_S200x256_S256x256_S200x256_1_0_0_1_n_n none hg (truncf .bf16 w2 bitsLt_bf16_f32) (constant (F := Ideal) S200x256 .f32 0x00000000#32) (ix2 p q))
      + broadcastTo S200x256 bm broadcasts_S1x256_S200x256 (ix2 p q) = _
  rw [blkW_at, blkW_at, blkW_at, broadcastTo_1b_ab_apply]
  simp only [hmid]
  rfl

end Cert.KernelIdeal.Pay

end
-- ==== Proof.HyperValue.lean ====
import proofs.«169939_g28836410425910_retrytranche2_620_30_alg».proof.Proof.HyperData
import proofs.«169939_g28836410425910_retrytranche2_620_30_alg».proof.Proof.SpecIdx
import proofs.«169939_g28836410425910_retrytranche2_620_30_alg».proof.Proof.Payloads
import Idealize.ShloMosaic.Lib.ValueIdx
import Idealize.ShloMosaic.Lib.ValueLayout
import Idealize.ShloMosaic.Lib.Pipeline.Value
import Idealize.ShloMosaic.PureOps.Ideal.Laws

/-! Region 0 at the exact instance: what its two output arrays end holding, entry by entry.

  At every point the body writes a 200-row block of each output, computed from the same 200 rows of the operator `HH` and
  from the projection `h0 = x·W1 + b1` the scratch holds from the first point on. Row `p` of point `t`'s block is row
  `200 t + p` of the array, and the ten blocks tile the 2000 rows: so output 6 ends at `relu(HH · h0)` and output 7 at
  `relu(HH · h0) · W2 + b2`, each one function of the argument arrays. -/

set_option maxRecDepth 16384

noncomputable section

namespace Cert.KernelIdeal.Hyper

open Idealize.ShloMosaic Idealize.ShloMosaic.TcCoe
open Idealize.SL.Sem
open Idealize.ShloMosaic.Pipeline (Dat)
open Cert.KernelIdeal Cert.KernelIdeal.Gen
open Cert.Spec Idealize.ShloMosaic.ValueIdx
open scoped BigOperators

-- what core `c`'s TensorCore buffers hold when the region is entered, as extended reals
variable (V : (c : Dev nD) → (b : Ref sig .tc) → Buf (Elt Ideal) ((c : Thread nD τ).loc b))

/-! ## Where each window's block sits in its array -/

/-- Decided over the ten points: the three row-blocked windows (the operator's block and the two outputs) sit at block
    row `t`, block column 0; the five whole-array windows at block (0, 0) throughout. -/
theorem index_facts : ∀ t : Fin cfg0.N,
    (win0_0.index t (0 : Fin 2) = t.val ∧ win0_0.index t (1 : Fin 2) = 0)
    ∧ (win0_6.index t (0 : Fin 2) = t.val ∧ win0_6.index t (1 : Fin 2) = 0)
    ∧ (win0_7.index t (0 : Fin 2) = t.val ∧ win0_7.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0) :=
  (by decide +kernel : ∀ t : Fin grid0.N, _)

/-- Row `p` of the operator's block at point `t` is row `200 t + p` of the operator. -/
theorem opBlock_at (c : Dev nD) (t : Fin cfg0.N) (p : Fin 200) (l : Fin 10000) (r : Fin 2000)
    (hr : r.val = 200 * t.val + p.val) :
    (blockAt V c 0 t : Vec Ideal S200x10000 .f32) (ix2 p l) = (V c main_arg2 : S2000x10000.Idx → EReal) (ix2 r l) := by
  obtain ⟨e0, e1⟩ := (index_facts t).1
  unfold blockAt
  rw [View.read_apply]
  show (V c main_arg2 : S2000x10000.Idx → EReal) _ = _
  congr 1
  funext a
  apply Fin.ext
  match a with
  | ⟨0, _⟩ => show win0_0.index t 0 * 200 + 1 * p.val = r.val; rw [e0, hr]; omega
  | ⟨1, _⟩ => show win0_0.index t 1 * 10000 + 1 * l.val = l.val; rw [e1]; omega

/-- Window 1 shows all of `x` at every point. -/
theorem xBlock_at (c : Dev nD) (t : Fin cfg0.N) (p : Fin 10000) (k : Fin 256) :
    (blockAt V c 1 t : Vec Ideal S10000x256 .f32) (ix2 p k) = (V c main_arg0 : S10000x256.Idx → EReal) (ix2 p k) := by
  obtain ⟨e0, e1⟩ := (index_facts t).2.2.2.1
  unfold blockAt
  rw [View.read_apply]
  show (V c main_arg0 : S10000x256.Idx → EReal) _ = _
  congr 1
  funext a
  apply Fin.ext
  match a with
  | ⟨0, _⟩ => show win0_1.index t 0 * 10000 + 1 * p.val = p.val; rw [e0]; omega
  | ⟨1, _⟩ => show win0_1.index t 1 * 256 + 1 * k.val = k.val; rw [e1]; omega

/-- Window 2 shows all of `W1` at every point. -/
theorem w1Block_at (c : Dev nD) (t : Fin cfg0.N) (p : Fin 256) (k : Fin 256) :
    (blockAt V c 2 t : Vec Ideal S256x256 .f32) (ix2 p k) = (V c main_arg6 : S256x256.Idx → EReal) (ix2 p k) := by
  obtain ⟨e0, e1⟩ := (index_facts t).2.2.2.2.1
  unfold blockAt
  rw [View.read_apply]
  show (V c main_arg6 : S256x256.Idx → EReal) _ = _
  congr 1
  funext a
  apply Fin.ext
  match a with
  | ⟨0, _⟩ => show win0_2.index t 0 * 256 + 1 * p.val = p.val; rw [e0]; omega
  | ⟨1, _⟩ => show win0_2.index t 1 * 256 + 1 * k.val = k.val; rw [e1]; omega

/-- Window 3 shows the one row of `b1` at every point. -/
theorem b1Block_at (c : Dev nD) (t : Fin cfg0.N) (p : Fin 1) (k : Fin 256) :
    (blockAt V c 3 t : Vec Ideal S1x256 .f32) (ix2 p k) = (V c main_v1 : S1x256.Idx → EReal) (ix2 p k) := by
  obtain ⟨e0, e1⟩ := (index_facts t).2.2.2.2.2.1
  unfold blockAt
  rw [View.read_apply]
  show (V c main_v1 : S1x256.Idx → EReal) _ = _
  congr 1
  funext a
  apply Fin.ext
  match a with
  | ⟨0, _⟩ => show win0_3.index t 0 * 1 + 1 * p.val = p.val; rw [e0]; omega
  | ⟨1, _⟩ => show win0_3.index t 1 * 256 + 1 * k.val = k.val; rw [e1]; omega

/-- Window 4 shows all of `W2` at every point. -/
theorem w2Block_at (c : Dev nD) (t : Fin cfg0.N) (p : Fin 256) (k : Fin 256) :
    (blockAt V c 4 t : Vec Ideal S256x256 .f32) (ix2 p k) = (V c main_arg8 : S256x256.Idx → EReal) (ix2 p k) := by
  obtain ⟨e0, e1⟩ := (index_facts t).2.2.2.2.2.2.1
  unfold blockAt
  rw [View.read_apply]
  show (V c main_arg8 : S256x256.Idx → EReal) _ = _
  congr 1
  funext a
  apply Fin.ext
  match a with
  | ⟨0, _⟩ => show win0_4.index t 0 * 256 + 1 * p.val = p.val; rw [e0]; omega
  | ⟨1, _⟩ => show win0_4.index t 1 * 256 + 1 * k.val = k.val; rw [e1]; omega

/-- Window 5 shows the one row of `b2` at every point. -/
theorem b2Block_at (c : Dev nD) (t : Fin cfg0.N) (p : Fin 1) (k : Fin 256) :
    (blockAt V c 5 t : Vec Ideal S1x256 .f32) (ix2 p k) = (V c main_v2 : S1x256.Idx → EReal) (ix2 p k) := by
  obtain ⟨e0, e1⟩ := (index_facts t).2.2.2.2.2.2.2
  unfold blockAt
  rw [View.read_apply]
  show (V c main_v2 : S1x256.Idx → EReal) _ = _
  congr 1
  funext a
  apply Fin.ext
  match a with
  | ⟨0, _⟩ => show win0_5.index t 0 * 1 + 1 * p.val = p.val; rw [e0]; omega
  | ⟨1, _⟩ => show win0_5.index t 1 * 256 + 1 * k.val = k.val; rw [e1]; omega

/-! ## The scratch: the projection, entry by entry -/

/-- `x·W1 + b1` as a matrix over the arrays the region finds. -/
abbrev projM (c : Dev nD) : Mat 10000 256 :=
  affine (matOf (r := 10000) (s := 256) (V c main_arg0)) (matOf (r := 256) (s := 256) (V c main_arg6))
    (rowOf (s := 256) (V c main_v1))

/-- The operator `HH` as a matrix. -/
abbrev opM (c : Dev nD) : Mat 2000 10000 := matOf (r := 2000) (s := 10000) (V c main_arg2)

/-- What the scratch holds from the first point on is that matrix: each format change is the identity on exact values. -/
theorem proj_apply (c : Dev nD) (l : Fin 10000) (q : Fin 256) : (proj V c) (ix2 l q) = projM V c l q := by
  unfold proj
  rw [Cert.KernelIdeal.Pay.proj_at]
  simp only [xBlock_at V c, w1Block_at V c, b1Block_at V c]
  rfl

/-! ## Output 6: `relu(HH · h0)` -/

/-- The whole array output 6 ends holding. -/
def hyperG (c : Dev nD) : S2000x256.Idx → EReal := fun i => reluMul (opM V c) (projM V c) (i 0) (i 1)

/-- What the body leaves in output 6's buffer at point `t`, at row `p`: row `200 t + p` of `relu(HH · h0)`. -/
theorem after6_at (c : Dev nD) (t : Fin cfg0.N) (p : Fin 200) (q : Fin 256) (r : Fin 2000)
    (hr : r.val = 200 * t.val + p.val) :
    k0_pay2 (blockAt V c 0 t) (proj V c) (ix2 p q) = reluMul (opM V c) (projM V c) r q := by
  rw [Cert.KernelIdeal.Pay.relu_blk_at]
  simp only [fun l => opBlock_at V c t p l r hr, proj_apply V c]
  rfl

/-- A whole-array function read through output 6's block at point `t`: row `p` of the block is row `200 t + p`. -/
theorem blk6_read (G : S2000x256.Idx → EReal) (c : Dev nD) (t : Fin cfg0.N) (p : Fin 200) (q : Fin 256) (r : Fin 2000)
    (hr : r.val = 200 * t.val + p.val) :
    (((cfg0.win 6).blk t).view.read (Elt Ideal) (G : Buf (Elt Ideal) ((cfg0.win 6).arr.view.loc (c.tc : Thread nD τ))) : S200x256.Idx → EReal) (ix2 p q) = G (ix2 r q) := by
  obtain ⟨e0, e1⟩ := (index_facts t).2.1
  rw [View.read_apply]
  show G _ = G _
  congr 1
  funext a
  apply Fin.ext
  match a with
  | ⟨0, _⟩ => show win0_6.index t 0 * 200 + 1 * p.val = r.val; rw [e0, hr]; omega
  | ⟨1, _⟩ => show win0_6.index t 1 * 256 + 1 * q.val = q.val; rw [e1]; omega

/-- What point `t` writes back to output 6 is block `t` of `hyperG`. -/
theorem flushed6_eq (c : Dev nD) (t : Fin cfg0.N) :
    (dat0 V c).flushed 6 t = ((cfg0.win 6).blk t).view.read (Elt Ideal) (hyperG V c) := by
  have hN : t.val < 10 := lt_of_lt_of_eq t.isLt (show cfg0.N = 10 from N_0)
  show (cfg0.win 6).cut (grid0.coords t) ((dat0 V c).after 6 t) = _
  rw [after_6]
  funext (j : S200x256.Idx)
  obtain ⟨p, q, rfl⟩ : ∃ (p : Fin 200) (q : Fin 256), j = ix2 p q := ⟨j 0, j 1, eq_ix2 j⟩
  have hr : 200 * t.val + p.val < 2000 := by have := p.isLt; omega
  show k0_pay2 (blockAt V c 0 t) (proj V c) (ix2 p q) = _
  rw [after6_at V c t p q ⟨_, hr⟩ rfl]
  exact (blk6_read (hyperG V c) c t p q ⟨_, hr⟩ rfl).symm

/-- Every row of the array is in some point's block: row `i` in point `i / 200`'s. -/
theorem cover6 (c : Dev nD) (i : ((cfg0.win 6).arr.view.loc (c.tc : Thread nD τ)).2.ty.Idx) :
    ∃ t : Fin cfg0.N, (cfg0.win 6).flush t = true ∧ i ∈ ((cfg0.win 6).blk t).view.set := by
  have hi0 : ((i : S2000x256.Idx) 0).val < 2000 := (i 0).isLt
  have hi1 : ((i : S2000x256.Idx) 1).val < 256 := (i 1).isLt
  obtain ⟨t, ht⟩ : ∃ t : Fin cfg0.N, t.val = ((i : S2000x256.Idx) 0).val / 200 :=
    ⟨⟨((i : S2000x256.Idx) 0).val / 200, by rw [show cfg0.N = 10 from N_0]; omega⟩, rfl⟩
  obtain ⟨e0, e1⟩ := (index_facts t).2.1
  refine ⟨t, flush0_6 t, ?_⟩
  show i ∈ ((View.whole main_v5_0).slice (win0_6.rect t)).set
  rw [View.set_slice_whole, Rect.mem_set_unit]
  intro a
  match a with
  | ⟨0, _⟩ =>
    show win0_6.index t 0 * 200 ≤ ((i : S2000x256.Idx) 0).val ∧ ((i : S2000x256.Idx) 0).val < win0_6.index t 0 * 200 + 200
    rw [e0, ht]; omega
  | ⟨1, _⟩ =>
    show win0_6.index t 1 * 256 ≤ ((i : S2000x256.Idx) 1).val ∧ ((i : S2000x256.Idx) 1).val < win0_6.index t 1 * 256 + 256
    rw [e1]; omega

/-- So output 6's array ends holding `hyperG`. -/
theorem final6 (c : Dev nD) : (dat0 V c).arrAt 6 cfg0.N = hyperG V c :=
  (dat0 V c).arrAt_eq_of_cover 6 (hyperG V c) (fun t _ => flushed6_eq V c t) (cover6 c)

theorem hyper_at (c : Dev nD) (p : Fin 2000) (q : Fin 256) :
    ((dat0 V c).arrAt 6 cfg0.N : S2000x256.Idx → EReal) (ix2 p q)
      = reluMul (matOf (r := 2000) (s := 10000) (V c main_arg2))
          (affine (matOf (r := 10000) (s := 256) (V c main_arg0)) (matOf (r := 256) (s := 256) (V c main_arg6)) (rowOf (s := 256) (V c main_v1))) p q := by
  rw [final6]
  rfl

/-! ## Output 7: `z = hyper · W2 + b2` -/

/-- The whole array output 7 ends holding. -/
def zG (c : Dev nD) : S2000x256.Idx → EReal := fun i =>
  affine (reluMul (opM V c) (projM V c)) (matOf (r := 256) (s := 256) (V c main_arg8)) (rowOf (s := 256) (V c main_v2)) (i 0) (i 1)

/-- What the body leaves in output 7's buffer at point `t`, at row `p`: row `200 t + p` of `relu(HH · h0) · W2 + b2`. -/
theorem after7_at (c : Dev nD) (t : Fin cfg0.N) (p : Fin 200) (q : Fin 256) (r : Fin 2000)
    (hr : r.val = 200 * t.val + p.val) :
    k0_pay3 (blockAt V c 0 t) (proj V c) (blockAt V c 4 t) (blockAt V c 5 t) (ix2 p q)
      = affine (reluMul (opM V c) (projM V c)) (matOf (r := 256) (s := 256) (V c main_arg8)) (rowOf (s := 256) (V c main_v2)) r q := by
  rw [Cert.KernelIdeal.Pay.z_blk_at]
  simp only [fun l => opBlock_at V c t p l r hr, proj_apply V c, w2Block_at V c, b2Block_at V c]
  rfl

/-- A whole-array function read through output 7's block at point `t`: row `p` of the block is row `200 t + p`. -/
theorem blk7_read (G : S2000x256.Idx → EReal) (c : Dev nD) (t : Fin cfg0.N) (p : Fin 200) (q : Fin 256) (r : Fin 2000)
    (hr : r.val = 200 * t.val + p.val) :
    (((cfg0.win 7).blk t).view.read (Elt Ideal) (G : Buf (Elt Ideal) ((cfg0.win 7).arr.view.loc (c.tc : Thread nD τ))) : S200x256.Idx → EReal) (ix2 p q) = G (ix2 r q) := by
  obtain ⟨e0, e1⟩ := (index_facts t).2.2.1
  rw [View.read_apply]
  show G _ = G _
  congr 1
  funext a
  apply Fin.ext
  match a with
  | ⟨0, _⟩ => show win0_7.index t 0 * 200 + 1 * p.val = r.val; rw [e0, hr]; omega
  | ⟨1, _⟩ => show win0_7.index t 1 * 256 + 1 * q.val = q.val; rw [e1]; omega

/-- What point `t` writes back to output 7 is block `t` of `zG`. -/
theorem flushed7_eq (c : Dev nD) (t : Fin cfg0.N) :
    (dat0 V c).flushed 7 t = ((cfg0.win 7).blk t).view.read (Elt Ideal) (zG V c) := by
  have hN : t.val < 10 := lt_of_lt_of_eq t.isLt (show cfg0.N = 10 from N_0)
  show (cfg0.win 7).cut (grid0.coords t) ((dat0 V c).after 7 t) = _
  rw [after_7]
  funext (j : S200x256.Idx)
  obtain ⟨p, q, rfl⟩ : ∃ (p : Fin 200) (q : Fin 256), j = ix2 p q := ⟨j 0, j 1, eq_ix2 j⟩
  have hr : 200 * t.val + p.val < 2000 := by have := p.isLt; omega
  show k0_pay3 (blockAt V c 0 t) (proj V c) (blockAt V c 4 t) (blockAt V c 5 t) (ix2 p q) = _
  rw [after7_at V c t p q ⟨_, hr⟩ rfl]
  exact (blk7_read (zG V c) c t p q ⟨_, hr⟩ rfl).symm

/-- Every row of the array is in some point's block: row `i` in point `i / 200`'s. -/
theorem cover7 (c : Dev nD) (i : ((cfg0.win 7).arr.view.loc (c.tc : Thread nD τ)).2.ty.Idx) :
    ∃ t : Fin cfg0.N, (cfg0.win 7).flush t = true ∧ i ∈ ((cfg0.win 7).blk t).view.set := by
  have hi0 : ((i : S2000x256.Idx) 0).val < 2000 := (i 0).isLt
  have hi1 : ((i : S2000x256.Idx) 1).val < 256 := (i 1).isLt
  obtain ⟨t, ht⟩ : ∃ t : Fin cfg0.N, t.val = ((i : S2000x256.Idx) 0).val / 200 :=
    ⟨⟨((i : S2000x256.Idx) 0).val / 200, by rw [show cfg0.N = 10 from N_0]; omega⟩, rfl⟩
  obtain ⟨e0, e1⟩ := (index_facts t).2.2.1
  refine ⟨t, flush0_7 t, ?_⟩
  show i ∈ ((View.whole main_v5_1).slice (win0_7.rect t)).set
  rw [View.set_slice_whole, Rect.mem_set_unit]
  intro a
  match a with
  | ⟨0, _⟩ =>
    show win0_7.index t 0 * 200 ≤ ((i : S2000x256.Idx) 0).val ∧ ((i : S2000x256.Idx) 0).val < win0_7.index t 0 * 200 + 200
    rw [e0, ht]; omega
  | ⟨1, _⟩ =>
    show win0_7.index t 1 * 256 ≤ ((i : S2000x256.Idx) 1).val ∧ ((i : S2000x256.Idx) 1).val < win0_7.index t 1 * 256 + 256
    rw [e1]; omega

/-- So output 7's array ends holding `zG`. -/
theorem final7 (c : Dev nD) : (dat0 V c).arrAt 7 cfg0.N = zG V c :=
  (dat0 V c).arrAt_eq_of_cover 7 (zG V c) (fun t _ => flushed7_eq V c t) (cover7 c)

theorem z_at (c : Dev nD) (p : Fin 2000) (q : Fin 256) :
    ((dat0 V c).arrAt 7 cfg0.N : S2000x256.Idx → EReal) (ix2 p q)
      = affine (reluMul (matOf (r := 2000) (s := 10000) (V c main_arg2))
          (affine (matOf (r := 10000) (s := 256) (V c main_arg0)) (matOf (r := 256) (s := 256) (V c main_arg6)) (rowOf (s := 256) (V c main_v1))))
          (matOf (r := 256) (s := 256) (V c main_arg8)) (rowOf (s := 256) (V c main_v2)) p q := by
  rw [final7]
  rfl

end Cert.KernelIdeal.Hyper

end
-- ==== Proof.ChunkValue.lean ====
import proofs.«169939_g28836410425910_retrytranche2_620_30_alg».proof.Proof.ChunkData
import proofs.«169939_g28836410425910_retrytranche2_620_30_alg».proof.Proof.SpecIdx
import proofs.«169939_g28836410425910_retrytranche2_620_30_alg».proof.Proof.Payloads
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

/-! Region 1's value over the extended reals: the result array ends at `relu(HG · z)`.

  The transposed operator `HGᵀ` (2000 × 10000) and `z` (2000 × 256) are cut into five chunks of 400 rows. Chunk `b`
  contributes, to entry `(p, q)`, the sum over its rows `r` of `HGᵀ(400 b + r, p) · z(400 b + r, q)`; the running sum
  takes chunk 0's contribution and then adds chunks 1 to 4 in order; the result is the maximum of the total with zero.
  Five 400-term sums added left to right are the one 2000-term sum: only associativity of addition is used. -/

namespace Cert.KernelIdeal.Chunk

open Idealize.ShloMosaic Idealize.ShloMosaic.TcCoe Idealize.SL.Sem
open Idealize.ShloMosaic.Pipeline (Dat)
open Cert.Spec Idealize.ShloMosaic.ValueIdx
open Cert.KernelIdeal Cert.KernelIdeal.Gen

open scoped BigOperators

-- what core `c`'s TensorCore buffers hold when the region is entered, at the exact instance
variable (V : (c : Dev nD) → (b : Ref sig .tc) → Buf (Elt Ideal) ((c : Thread nD τ).loc b))

/-! ## The chunks as rows of the arrays -/

theorem five (t : Fin cfg1.N) : t.val < 5 := lt_of_lt_of_eq t.isLt (show cfg1.N = 5 from N_1)

/-- The operator window's block index at point `t` is `(t, 0)`; so is the `z` window's. -/
theorem hgt_index : ∀ t : Fin grid1.N, win1_0.index t 0 = t.val ∧ win1_0.index t 1 = 0 := by decide +kernel
theorem z_index : ∀ t : Fin grid1.N, win1_1.index t 0 = t.val ∧ win1_1.index t 1 = 0 := by decide +kernel

/-- Row `r` of the `HGᵀ` chunk at point `t` is row `400 t + r` of the transposed operator. -/
theorem hgtChunk_at (c : Dev nD) (t : Fin cfg1.N) (r : Fin 400) (p : Fin 10000) (k : Fin 2000)
    (hk : k.val = 400 * t.val + r.val) :
    hgtChunk V c t (ix2 r p) = (V c main_v4 : S2000x10000.Idx → EReal) (ix2 k p) := by
  obtain ⟨h0, h1⟩ := hgt_index t
  unfold hgtChunk
  rw [View.read_apply]
  show V c main_v4 _ = V c main_v4 _
  congr 1
  funext a
  apply Fin.ext
  match a with
  | ⟨0, _⟩ => show win1_0.index t 0 * 400 + 1 * r.val = k.val; rw [h0, hk]; omega
  | ⟨1, _⟩ => show win1_0.index t 1 * 10000 + 1 * p.val = p.val; rw [h1]; omega

/-- Row `r` of the `z` chunk at point `t` is row `400 t + r` of `z`. -/
theorem zChunk_at (c : Dev nD) (t : Fin cfg1.N) (r : Fin 400) (q : Fin 256) (k : Fin 2000)
    (hk : k.val = 400 * t.val + r.val) :
    zChunk V c t (ix2 r q) = (V c main_v5_1 : S2000x256.Idx → EReal) (ix2 k q) := by
  obtain ⟨h0, h1⟩ := z_index t
  unfold zChunk
  rw [View.read_apply]
  show V c main_v5_1 _ = V c main_v5_1 _
  congr 1
  funext a
  apply Fin.ext
  match a with
  | ⟨0, _⟩ => show win1_1.index t 0 * 400 + 1 * r.val = k.val; rw [h0, hk]; omega
  | ⟨1, _⟩ => show win1_1.index t 1 * 256 + 1 * q.val = q.val; rw [h1]; omega

/-! ## One chunk's share of an entry, and the running sum at an entry -/

/-- The share of entry `(p, q)` contributed by the 400 rows starting at row `K`. -/
def share (c : Dev nD) (p : Fin 10000) (q : Fin 256) (K : ℕ) (hK : K + 400 ≤ 2000) : EReal :=
  ∑ r : Fin 400, matOfT (r := 2000) (s := 10000) (V c main_v4) p ⟨K + r.val, by have := r.isLt; omega⟩
    * matOf (r := 2000) (s := 256) (V c main_v5_1) ⟨K + r.val, by have := r.isLt; omega⟩ q

/-- The chunk staged at point `t` contributes the share of the rows from `400 t`. -/
theorem chunk_share (c : Dev nD) (t : Fin cfg1.N) (p : Fin 10000) (q : Fin 256) :
    (∑ r : Fin 400, hgtChunk V c t (ix2 r p) * zChunk V c t (ix2 r q))
      = share V c p q (400 * t.val) (by have := five t; omega) := by
  unfold share
  refine Finset.sum_congr rfl fun r _ => ?_
  rw [hgtChunk_at V c t r p ⟨400 * t.val + r.val, by have := five t; have := r.isLt; omega⟩ rfl,
    zChunk_at V c t r q ⟨400 * t.val + r.val, by have := five t; have := r.isLt; omega⟩ rfl]

/-- After chunk 0 the running sum holds chunk 0's share. -/
theorem sum_zero_at (c : Dev nD) (h : 0 < cfg1.N) (p : Fin 10000) (q : Fin 256) :
    sumAfter V c 0 h (ix2 p q) = share V c p q (400 * 0) (by omega) := by
  show k1_pay2 (F := Ideal) (hgtChunk V c ⟨0, h⟩) (zChunk V c ⟨0, h⟩) (ix2 p q) = _
  rw [Pay.acc_set_at, chunk_share]

/-- After a later chunk it holds what it held plus that chunk's share. -/
theorem sum_succ_at (c : Dev nD) (n : ℕ) (h : n + 1 < cfg1.N) (p : Fin 10000) (q : Fin 256) :
    sumAfter V c (n + 1) h (ix2 p q)
      = sumAfter V c n (Nat.lt_of_succ_lt h) (ix2 p q)
        + share V c p q (400 * (n + 1)) (by have := lt_of_lt_of_eq h (show cfg1.N = 5 from N_1); omega) := by
  show k1_pay3 (F := Ideal) (hgtChunk V c ⟨n + 1, h⟩) (zChunk V c ⟨n + 1, h⟩) (sumAfter V c n (Nat.lt_of_succ_lt h)) (ix2 p q) = _
  rw [Pay.acc_add_at, chunk_share]

theorem four_lt : 4 < cfg1.N := by rw [show cfg1.N = 5 from N_1]; decide

/-- After the last chunk: the five shares added left to right. -/
theorem sum_total_at (c : Dev nD) (p : Fin 10000) (q : Fin 256) :
    sumAfter V c 4 four_lt (ix2 p q)
      = (((share V c p q 0 (by omega) + share V c p q 400 (by omega)) + share V c p q 800 (by omega))
          + share V c p q 1200 (by omega)) + share V c p q 1600 (by omega) := by
  rw [sum_succ_at, sum_succ_at, sum_succ_at, sum_succ_at, sum_zero_at]

/-! ## The result array -/

/-- What the result array ends holding: `relu` of the running sum after the last chunk. -/
abbrev hgnArr (c : Dev nD) : Buf (Elt Ideal) ((c : Thread nD τ).loc main_v6) :=
  k1_pay4 (F := Ideal) (sumAfter V c 4 four_lt)

/-- The result's one block is the whole array: at the one point that writes back, its offsets are zero. -/
theorem out_offsets : (fun a => win1_2.index t1_4 a * main_v6.ty.shape.size a) = fun _ => 0 :=
  funext fun a => by fin_cases a <;> decide +kernel

/-- The one write-back, after the last chunk, writes `hgnArr`. -/
theorem flushed_out (c : Dev nD) (t : Fin cfg1.N) (hf : (cfg1.win 2).flush t = true) :
    (dat1 V c).flushed 2 t = ((cfg1.win 2).blk t).view.read (Elt Ideal) (hgnArr V c) := by
  have h4 : t.val = 4 := by have := (flush1_2 t).mp hf; have := five t; omega
  obtain rfl : t = t1_4 := Fin.ext h4
  show (cfg1.win 2).cut (grid1.coords t1_4) ((dat1 V c).after 2 t1_4) = _
  rw [after_out]
  exact (Memref.read_access_unit_zero (Elt Ideal) main_v6 out_offsets (fun a => by rw [congrFun out_offsets a]; simp) (hgnArr V c)).symm

/-- That block covers every index of the array. -/
theorem out_cover (c : Dev nD) (i : ((cfg1.win 2).arr.view.loc (c.tc : Thread nD τ)).2.ty.Idx) :
    ∃ t : Fin cfg1.N, (cfg1.win 2).flush t = true ∧ i ∈ ((cfg1.win 2).blk t).view.set := by
  refine ⟨t1_4, (flush1_2 t1_4).mpr rfl, ?_⟩
  show i ∈ ((View.whole main_v6).slice (win1_2.rect t1_4)).set
  rw [View.set_slice_whole, Rect.mem_set_unit]
  intro a
  have hoff : win1_2.index t1_4 a * win1_2.size a = 0 := congrFun out_offsets a
  have hsz : win1_2.xsize (grid1.coords t1_4) a = S10000x256.size a := by fin_cases a <;> decide +kernel
  show win1_2.index t1_4 a * win1_2.size a ≤ (i a : ℕ) ∧ (i a : ℕ) < win1_2.index t1_4 a * win1_2.size a + win1_2.xsize (grid1.coords t1_4) a
  rw [hoff, hsz]
  exact ⟨Nat.zero_le _, by rw [Nat.zero_add]; exact (i a).isLt⟩

/-- So the result array ends holding `hgnArr`. -/
theorem final_out (c : Dev nD) : (dat1 V c).arrAt 2 cfg1.N = hgnArr V c :=
  (dat1 V c).arrAt_eq_of_cover 2 (hgnArr V c) (flushed_out V c) (out_cover c)

/-- Entry `(p, q)` of the result array is `relu(HG · z)` there, `HG` read off its transpose. -/
theorem hgn_at (c : Dev nD) (p : Fin 10000) (q : Fin 256) :
    ((dat1 V c).arrAt 2 cfg1.N : S10000x256.Idx → EReal) (ix2 p q)
      = reluMul (matOfT (r := 2000) (s := 10000) (V c main_v4)) (matOf (r := 2000) (s := 256) (V c main_v5_1)) p q := by
  rw [final_out V c]
  show k1_pay4 (F := Ideal) (sumAfter V c 4 four_lt) (ix2 p q) = _
  rw [Pay.relu_acc_at, sum_total_at, ← reluMul_chunks]
  have e0 : share V c p q 0 (by omega)
      = ∑ r : Fin 400, matOfT (r := 2000) (s := 10000) (V c main_v4) p ⟨r.val, by have := r.isLt; omega⟩
          * matOf (r := 2000) (s := 256) (V c main_v5_1) ⟨r.val, by have := r.isLt; omega⟩ q := by
    unfold share
    refine Finset.sum_congr rfl fun r _ => ?_
    have e : (⟨0 + r.val, by have := r.isLt; omega⟩ : Fin 2000) = ⟨r.val, by have := r.isLt; omega⟩ := Fin.ext (Nat.zero_add _)
    rw [e]
  rw [e0]
  rfl

end Cert.KernelIdeal.Chunk

end
-- ==== Proof.FuseValue.lean ====
import proofs.«169939_g28836410425910_retrytranche2_620_30_alg».proof.Proof.FuseData
import proofs.«169939_g28836410425910_retrytranche2_620_30_alg».proof.Proof.SpecIdx
import proofs.«169939_g28836410425910_retrytranche2_620_30_alg».proof.Proof.Payloads
import Idealize.ShloMosaic.Lib.ValueIdx
import Idealize.ShloMosaic.Lib.ValueLayout
import Idealize.ShloMosaic.Lib.Pipeline.Value
import Idealize.ShloMosaic.PureOps.Ideal.Laws

/-! Region 2 read as mathematics, at the exact (extended-real) instance: after its 50 points the output array holds,
    entry by entry, `x·Wm[0:256] + relu(GG·(x·Wg + bg))·Wm[256:512] + hgn·Wm[512:768] + bm`.

    Point `t` writes back rows `200·t … 200·t + 199`. Row `p` of that block is computed from row `p` of the point's
    blocks of `GG` and `hgn` (rows `200·t + p` of the arrays), from row `200·t + p` of the whole `x`, and from the
    projection kept in the scratch, which was computed once from the whole `x`, `Wg` and `bg`. The 50 blocks tile
    the array. -/

set_option maxRecDepth 16384

noncomputable section

namespace Cert.KernelIdeal.Fuse

open Idealize.ShloMosaic Idealize.ShloMosaic.TcCoe
open Idealize.SL Idealize.SL.Sem
open Idealize.ShloMosaic.Pipeline (Dat Cfg Window)
open Cert.KernelIdeal Cert.KernelIdeal.Gen
open Cert.Spec Idealize.ShloMosaic.ValueIdx

-- what core `c`'s TensorCore buffers hold when the region is entered
variable (V : (c : Dev nD) → (b : Ref sig .tc) → Buf (Elt Ideal) ((c : Thread nD τ).loc b))

/-! ## Where the blocks sit -/

/-- The windows' block indices at point `t`, decided over the grid: the blocks of `GG`, `hgn` and of the output are
    block `t` along the rows; the other five windows are their whole arrays; the grid coordinate is `t`. -/
theorem blockIndex : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = t.val ∧ win2_7.index t (1 : Fin 2) = 0
    ∧ ((grid2.coords t) 0).val = t.val :=
  (by decide +kernel : ∀ t : Fin grid2.N, _)

/-- Row `p` of point `t`'s block is row `200·t + p` of the array. -/
def rowAt (t : Fin cfg2.N) (p : Fin 200) : Fin 10000 :=
  ⟨200 * t.val + p.val, by have ht : t.val < 50 := lt_of_lt_of_eq t.isLt N_2; have hp := p.isLt; omega⟩

/-! ## Each window's block, read off its array -/

/-- The whole-array windows: the block at any point is the array. -/
theorem xBlock_eq (c : Dev nD) (t : Fin cfg2.N) :
    (iblk V c 1 t : Vec Ideal S10000x256 .f32) = (V c main_arg0 : S10000x256.Idx → EReal) := by
  obtain ⟨-, -, e0, e1, -⟩ := blockIndex t
  funext j
  unfold iblk
  rw [View.read_apply]
  show V c main_arg0 _ = V c main_arg0 _
  congr 1
  funext a; apply Fin.ext
  match a with
  | ⟨0, _⟩ => show win2_1.index t (0 : Fin 2) * 10000 + 1 * (j 0).val = (j 0).val; rw [e0]; omega
  | ⟨1, _⟩ => show win2_1.index t (1 : Fin 2) * 256 + 1 * (j 1).val = (j 1).val; rw [e1]; omega

theorem wgBlock_eq (c : Dev nD) (t : Fin cfg2.N) :
    (iblk V c 3 t : Vec Ideal S256x256 .f32) = (V c main_arg4 : S256x256.Idx → EReal) := by
  obtain ⟨-, -, -, -, -, -, e0, e1, -⟩ := blockIndex t
  funext j
  unfold iblk
  rw [View.read_apply]
  show V c main_arg4 _ = V c main_arg4 _
  congr 1
  funext a; apply Fin.ext
  match a with
  | ⟨0, _⟩ => show win2_3.index t (0 : Fin 2) * 256 + 1 * (j 0).val = (j 0).val; rw [e0]; omega
  | ⟨1, _⟩ => show win2_3.index t (1 : Fin 2) * 256 + 1 * (j 1).val = (j 1).val; rw [e1]; omega

theorem bgBlock_eq (c : Dev nD) (t : Fin cfg2.N) :
    (iblk V c 4 t : Vec Ideal S1x256 .f32) = (V c main_v0 : S1x256.Idx → EReal) := by
  obtain ⟨-, -, -, -, -, -, -, -, e0, e1, -⟩ := blockIndex t
  funext j
  unfold iblk
  rw [View.read_apply]
  show V c main_v0 _ = V c main_v0 _
  congr 1
  funext a; apply Fin.ext
  match a with
  | ⟨0, _⟩ => show win2_4.index t (0 : Fin 2) * 1 + 1 * (j 0).val = (j 0).val; rw [e0]; omega
  | ⟨1, _⟩ => show win2_4.index t (1 : Fin 2) * 256 + 1 * (j 1).val = (j 1).val; rw [e1]; omega

theorem wmBlock_eq (c : Dev nD) (t : Fin cfg2.N) :
    (iblk V c 5 t : Vec Ideal S768x256 .f32) = (V c main_arg10 : S768x256.Idx → EReal) := by
  obtain ⟨-, -, -, -, -, -, -, -, -, -, e0, e1, -⟩ := blockIndex t
  funext j
  unfold iblk
  rw [View.read_apply]
  show V c main_arg10 _ = V c main_arg10 _
  congr 1
  funext a; apply Fin.ext
  match a with
  | ⟨0, _⟩ => show win2_5.index t (0 : Fin 2) * 768 + 1 * (j 0).val = (j 0).val; rw [e0]; omega
  | ⟨1, _⟩ => show win2_5.index t (1 : Fin 2) * 256 + 1 * (j 1).val = (j 1).val; rw [e1]; omega

theorem bmBlock_eq (c : Dev nD) (t : Fin cfg2.N) :
    (iblk V c 6 t : Vec Ideal S1x256 .f32) = (V c main_v3 : S1x256.Idx → EReal) := by
  obtain ⟨-, -, -, -, -, -, -, -, -, -, -, -, e0, e1, -⟩ := blockIndex t
  funext j
  unfold iblk
  rw [View.read_apply]
  show V c main_v3 _ = V c main_v3 _
  congr 1
  funext a; apply Fin.ext
  match a with
  | ⟨0, _⟩ => show win2_6.index t (0 : Fin 2) * 1 + 1 * (j 0).val = (j 0).val; rw [e0]; omega
  | ⟨1, _⟩ => show win2_6.index t (1 : Fin 2) * 256 + 1 * (j 1).val = (j 1).val; rw [e1]; omega

/-- The row-blocked windows: row `p` of point `t`'s block is row `200·t + p` of the array. -/
theorem ggBlock_at (c : Dev nD) (t : Fin cfg2.N) (p : Fin 200) (k : Fin 10000) :
    (iblk V c 0 t : Vec Ideal S200x10000 .f32) (ix2 p k) = (V c main_arg1 : S10000x10000.Idx → EReal) (ix2 (rowAt t p) k) := by
  obtain ⟨e0, e1, -⟩ := blockIndex t
  unfold iblk
  rw [View.read_apply]
  show V c main_arg1 _ = V c main_arg1 _
  congr 1
  funext a; apply Fin.ext
  match a with
  | ⟨0, _⟩ => show win2_0.index t (0 : Fin 2) * 200 + 1 * p.val = 200 * t.val + p.val; rw [e0]; omega
  | ⟨1, _⟩ => show win2_0.index t (1 : Fin 2) * 10000 + 1 * k.val = k.val; rw [e1]; omega

theorem hgnBlock_at (c : Dev nD) (t : Fin cfg2.N) (p : Fin 200) (k : Fin 256) :
    (iblk V c 2 t : Vec Ideal S200x256 .bf16) (ix2 p k) = (V c main_v6 : S10000x256.Idx → EReal) (ix2 (rowAt t p) k) := by
  obtain ⟨-, -, -, -, e0, e1, -⟩ := blockIndex t
  unfold iblk
  rw [View.read_apply]
  show V c main_v6 _ = V c main_v6 _
  congr 1
  funext a; apply Fin.ext
  match a with
  | ⟨0, _⟩ => show win2_2.index t (0 : Fin 2) * 200 + 1 * p.val = 200 * t.val + p.val; rw [e0]; omega
  | ⟨1, _⟩ => show win2_2.index t (1 : Fin 2) * 256 + 1 * k.val = k.val; rw [e1]; omega

/-! ## The slices the body loads -/

/-- The point's 200 rows of `x`: row `p` of the slice is row `200·t + p`. -/
theorem rowsOfX_idx (t : Fin cfg2.N) (p : Fin 200) (k : Fin 256) :
    (rowsOfX (grid2.coords t)).idx (ix2 p k) = (ix2 (rowAt t p) k : S10000x256.Idx) := by
  have hc : ((grid2.coords t) 0).val = t.val := (blockIndex t).2.2.2.2.2.2.2.2.2.2.2.2.2.2.2.2
  funext a; apply Fin.ext
  match a with
  | ⟨0, _⟩ => show k2_off1 (grid2.coords t) 0 + 1 * p.val = 200 * t.val + p.val; rw [k2_off1_eq]; show 200 * ((grid2.coords t) 0).val + 1 * p.val = _; rw [hc]; omega
  | ⟨1, _⟩ => show k2_off1 (grid2.coords t) 1 + 1 * k.val = k.val; rw [k2_off1_eq]; show 0 + 1 * k.val = k.val; omega

/-- The three row blocks of `Wm`: row `k` of each is row `k`, `256 + k`, `512 + k` of `Wm`. -/
theorem wmForX_idx (k : Fin 256) (q : Fin 256) :
    wmForX.idx (ix2 k q) = (ix2 (⟨k.val, by omega⟩ : Fin 768) q : S768x256.Idx) := by
  funext a; apply Fin.ext
  match a with
  | ⟨0, _⟩ => show 0 + 1 * k.val = k.val; omega
  | ⟨1, _⟩ => show 0 + 1 * q.val = q.val; omega
theorem wmForGnn_idx (k : Fin 256) (q : Fin 256) :
    wmForGnn.idx (ix2 k q) = (ix2 (⟨256 + k.val, by omega⟩ : Fin 768) q : S768x256.Idx) := by
  funext a; apply Fin.ext
  match a with
  | ⟨0, _⟩ => show 256 + 1 * k.val = 256 + k.val; omega
  | ⟨1, _⟩ => show 0 + 1 * q.val = q.val; omega
theorem wmForHgn_idx (k : Fin 256) (q : Fin 256) :
    wmForHgn.idx (ix2 k q) = (ix2 (⟨512 + k.val, by omega⟩ : Fin 768) q : S768x256.Idx) := by
  funext a; apply Fin.ext
  match a with
  | ⟨0, _⟩ => show 512 + 1 * k.val = 512 + k.val; omega
  | ⟨1, _⟩ => show 0 + 1 * q.val = q.val; omega

/-! ## The scratch and the block, entry by entry -/

/-- The projection kept in the scratch, at `(l, k)`: row `l` of `x` against column `k` of `Wg`, plus `bg k`. -/
theorem scratchKept_at (c : Dev nD) (l : Fin 10000) (k : Fin 256) :
    scratchKept V c (ix2 l k)
      = affine (matOf (V c main_arg0)) (matOf (V c main_arg4)) (rowOf (V c main_v0)) l k := by
  unfold scratchKept projection
  rw [xBlock_eq, wgBlock_eq, bgBlock_eq, Pay.proj2_at]
  rfl

/-- The whole result: the layer's last line, entry by entry. -/
def fusedAll (c : Dev nD) : S10000x256.Idx → EReal := fun i =>
  fusedParts (matOf (V c main_arg0)) (reluMul (matOf (V c main_arg1)) (affine (matOf (V c main_arg0)) (matOf (V c main_arg4)) (rowOf (V c main_v0))))
    (matOf (V c main_v6)) (matOf (V c main_arg10)) (rowOf (V c main_v3)) (i 0) (i 1)

/-- WHAT POINT `t` WRITES BACK is block `t` of the whole result. -/
theorem flushed_eq (c : Dev nD) (t : Fin cfg2.N) :
    (dat2 V c).flushed 7 t = ((cfg2.win 7).blk t).view.read (Elt Ideal) (fusedAll V c) := by
  show (cfg2.win 7).cut (grid2.coords t) ((dat2 V c).after 7 t) = _
  rw [after2_7]
  obtain ⟨-, -, -, -, -, -, -, -, -, -, -, -, -, -, e0, e1, -⟩ := blockIndex t
  funext j
  obtain ⟨p, q, rfl⟩ : ∃ (p : Fin 200) (q : Fin 256), j = ix2 p q := ⟨j 0, j 1, eq_ix2 j⟩
  have hemb : ((cfg2.win 7).blk t).view.emb (ix2 p q) = (ix2 (rowAt t p) q : S10000x256.Idx) := by
    funext a; apply Fin.ext
    match a with
    | ⟨0, _⟩ => show win2_7.index t (0 : Fin 2) * 200 + 1 * p.val = 200 * t.val + p.val; rw [e0]; omega
    | ⟨1, _⟩ => show win2_7.index t (1 : Fin 2) * 256 + 1 * q.val = q.val; rw [e1]; omega
  rw [View.read_apply, hemb]
  show fusedBlock (grid2.coords t) (iblk V c 0 t) (scratchKept V c) (iblk V c 1 t) (iblk V c 2 t) (iblk V c 5 t) (iblk V c 6 t) (ix2 p q)
    = fusedParts (matOf (V c main_arg0)) (reluMul (matOf (V c main_arg1)) (affine (matOf (V c main_arg0)) (matOf (V c main_arg4)) (rowOf (V c main_v0))))
        (matOf (V c main_v6)) (matOf (V c main_arg10)) (rowOf (V c main_v3)) (rowAt t p) q
  unfold fusedBlock
  rw [Pay.fused_blk_at, xBlock_eq, wmBlock_eq, bmBlock_eq]
  simp only [View.ld, rowsOfX_idx, wmForX_idx, wmForGnn_idx, wmForHgn_idx, ggBlock_at, hgnBlock_at, scratchKept_at]
  rfl

/-! ## The blocks tile the array -/

/-- An index of the array is in point `t`'s block iff each coordinate is in the block's range on its axis. -/
theorem mem_block (t : Fin cfg2.N) (i : S10000x256.Idx) :
    i ∈ ((cfg2.win 7).blk t).view.set ↔ ∀ a : Fin 2, win2_7.index t a * S200x256.size a ≤ (i a).val ∧ (i a).val < win2_7.index t a * S200x256.size a + S200x256.size a := by
  show i ∈ ((View.whole main_v7).slice (win2_7.rect t)).set ↔ _
  rw [View.set_slice_whole, Rect.mem_set_unit]
  exact Iff.rfl

/-- Row `r` is in the block of point `r / 200`. -/
theorem covered (i : S10000x256.Idx) :
    ∃ t : Fin cfg2.N, (cfg2.win 7).flush t = true ∧ i ∈ ((cfg2.win 7).blk t).view.set := by
  have hi0 : (i 0).val < 10000 := (i 0).isLt
  have hi1 : (i 1).val < 256 := (i 1).isLt
  have hN : cfg2.N = 50 := N_2
  have htN : (i 0).val / 200 < cfg2.N := by rw [hN]; omega
  obtain ⟨-, -, -, -, -, -, -, -, -, -, -, -, -, -, e0, e1, -⟩ := blockIndex ⟨(i 0).val / 200, htN⟩
  refine ⟨⟨(i 0).val / 200, htN⟩, flush2_7 _, ?_⟩
  rw [mem_block]
  intro a
  match a with
  | ⟨0, _⟩ =>
    show win2_7.index ⟨(i 0).val / 200, htN⟩ (0 : Fin 2) * 200 ≤ (i 0).val ∧ (i 0).val < win2_7.index ⟨(i 0).val / 200, htN⟩ (0 : Fin 2) * 200 + 200
    rw [e0]; show (i 0).val / 200 * 200 ≤ (i 0).val ∧ (i 0).val < (i 0).val / 200 * 200 + 200; omega
  | ⟨1, _⟩ =>
    show win2_7.index ⟨(i 0).val / 200, htN⟩ (1 : Fin 2) * 256 ≤ (i 1).val ∧ (i 1).val < win2_7.index ⟨(i 0).val / 200, htN⟩ (1 : Fin 2) * 256 + 256
    rw [e1]; omega

/-- THE ARRAY after the run is the whole result. -/
theorem fused_all (c : Dev nD) : (dat2 V c).arrAt 7 cfg2.N = fusedAll V c :=
  (dat2 V c).arrAt_eq_of_cover 7 (fusedAll V c) (fun t _ => flushed_eq V c t) covered

theorem fused_at (c : Dev nD) (p : Fin 10000) (q : Fin 256) :
    ((dat2 V c).arrAt 7 cfg2.N : S10000x256.Idx → EReal) (ix2 p q)
      = fusedParts (matOf (V c main_arg0)) (reluMul (matOf (V c main_arg1)) (affine (matOf (V c main_arg0)) (matOf (V c main_arg4)) (rowOf (V c main_v0))))
          (matOf (V c main_v6)) (matOf (V c main_arg10)) (rowOf (V c main_v3)) p q := by
  rw [fused_all]; rfl

end Cert.KernelIdeal.Fuse

end
-- ==== Proof.KernelValue.lean ====
import proofs.«169939_g28836410425910_retrytranche2_620_30_alg».proof.Proof.Entry
import proofs.«169939_g28836410425910_retrytranche2_620_30_alg».proof.Proof.HyperValue
import proofs.«169939_g28836410425910_retrytranche2_620_30_alg».proof.Proof.ChunkValue
import proofs.«169939_g28836410425910_retrytranche2_620_30_alg».proof.Proof.FuseValue

/-! The kernel program's two results as functions of the launch memory, at the exact instance:

      hyper = relu(HH · (x·W1 + b1))                      (region 0's first output)
      fused = x·Wm₀ + relu(GG·(x·Wg + bg))·Wm₁ + relu(HG·(hyper·W2 + b2))·Wm₂ + bm   (region 2's output)

    Region 0's outputs feed region 1 (`z`) and the result (`hyper`); region 1's output feeds region 2. Each region's
    value is stated at whatever its entry buffers hold; here those are read back to the arguments. -/

noncomputable section

namespace Cert.KernelIdeal.Whole

open Idealize.ShloMosaic Idealize.ShloMosaic.TcCoe Idealize.SL.Sem Idealize.ShloMosaic.ValueIdx
open Cert.KernelIdeal Cert.KernelIdeal.Gen Cert.Spec
open Cert.KernelIdeal.Hyper (dat0)
open Cert.KernelIdeal.Chunk (dat1)
open Cert.KernelIdeal.Fuse (dat2)

variable (m : (ℓ : Loc nD τ sig) → Buf (Elt Ideal) ℓ)

/-! ## The arguments as matrices and vectors -/

abbrev aX (c : Dev nD) : Mat 10000 256 := matOf (m ((c : Thread nD τ).loc main_arg0) : S10000x256.Idx → EReal)
abbrev aGG (c : Dev nD) : Mat 10000 10000 := matOf (m ((c : Thread nD τ).loc main_arg1) : S10000x10000.Idx → EReal)
abbrev aHH (c : Dev nD) : Mat 2000 10000 := matOf (m ((c : Thread nD τ).loc main_arg2) : S2000x10000.Idx → EReal)
abbrev aHG (c : Dev nD) : Mat 10000 2000 := matOf (m ((c : Thread nD τ).loc main_arg3) : S10000x2000.Idx → EReal)
abbrev aWg (c : Dev nD) : Mat 256 256 := matOf (m ((c : Thread nD τ).loc main_arg4) : S256x256.Idx → EReal)
abbrev abg (c : Dev nD) : Fin 256 → EReal := vecOf (m ((c : Thread nD τ).loc main_arg5) : S256.Idx → EReal)
abbrev aW1 (c : Dev nD) : Mat 256 256 := matOf (m ((c : Thread nD τ).loc main_arg6) : S256x256.Idx → EReal)
abbrev ab1 (c : Dev nD) : Fin 256 → EReal := vecOf (m ((c : Thread nD τ).loc main_arg7) : S256.Idx → EReal)
abbrev aW2 (c : Dev nD) : Mat 256 256 := matOf (m ((c : Thread nD τ).loc main_arg8) : S256x256.Idx → EReal)
abbrev ab2 (c : Dev nD) : Fin 256 → EReal := vecOf (m ((c : Thread nD τ).loc main_arg9) : S256.Idx → EReal)
abbrev aWm (c : Dev nD) : Mat 768 256 := matOf (m ((c : Thread nD τ).loc main_arg10) : S768x256.Idx → EReal)
abbrev abm (c : Dev nD) : Fin 256 → EReal := vecOf (m ((c : Thread nD τ).loc main_arg11) : S256.Idx → EReal)

/-! ## The layer's intermediate matrices -/

/-- `relu(HH · (x·W1 + b1))`. -/
def sHyper (c : Dev nD) : Mat 2000 256 := reluMul (aHH m c) (affine (aX m c) (aW1 m c) (ab1 m c))
/-- `hyper·W2 + b2`. -/
def sZ (c : Dev nD) : Mat 2000 256 := affine (sHyper m c) (aW2 m c) (ab2 m c)
/-- `relu(HG · z)`. -/
def sHgnn (c : Dev nD) : Mat 10000 256 := reluMul (aHG m c) (sZ m c)
/-- `relu(GG · (x·Wg + bg))`. -/
def sGnn (c : Dev nD) : Mat 10000 256 := reluMul (aGG m c) (affine (aX m c) (aWg m c) (abg m c))

/-! ## What the regions' entry buffers hold, in the form the regions' value lemmas read them -/

theorem e1_x (c : Dev nD) : E1 m c main_arg0 = m ((c : Thread nD τ).loc main_arg0) := B1_main_arg0 m c
theorem e1_hh (c : Dev nD) : E1 m c main_arg2 = m ((c : Thread nD τ).loc main_arg2) := B1_main_arg2 m c
theorem e1_w1 (c : Dev nD) : E1 m c main_arg6 = m ((c : Thread nD τ).loc main_arg6) := B1_main_arg6 m c
theorem e1_w2 (c : Dev nD) : E1 m c main_arg8 = m ((c : Thread nD τ).loc main_arg8) := B1_main_arg8 m c
theorem e1_b1 (c : Dev nD) : rowOf (E1 m c main_v1 : S1x256.Idx → EReal) = ab1 m c := b1_row m c
theorem e1_b2 (c : Dev nD) : rowOf (E1 m c main_v2 : S1x256.Idx → EReal) = ab2 m c := b2_row m c
theorem e2_hgT (c : Dev nD) : matOfT (E2 m c main_v4 : S2000x10000.Idx → EReal) = aHG m c := by
  show matOfT (B2 m c (Proc.devRef .tc main_v4) : S2000x10000.Idx → EReal) = _
  rw [B2_main_v4]; exact hgT_mat m c
theorem e3_x (c : Dev nD) : E3 m c main_arg0 = m ((c : Thread nD τ).loc main_arg0) := B3_main_arg0 m c
theorem e3_gg (c : Dev nD) : E3 m c main_arg1 = m ((c : Thread nD τ).loc main_arg1) := B3_main_arg1 m c
theorem e3_wg (c : Dev nD) : E3 m c main_arg4 = m ((c : Thread nD τ).loc main_arg4) := B3_main_arg4 m c
theorem e3_wm (c : Dev nD) : E3 m c main_arg10 = m ((c : Thread nD τ).loc main_arg10) := B3_main_arg10 m c
theorem e3_bg (c : Dev nD) : rowOf (E3 m c main_v0 : S1x256.Idx → EReal) = abg m c := by
  show rowOf (B3 m c (Proc.devRef .tc main_v0) : S1x256.Idx → EReal) = _
  rw [B3_main_v0]; exact bg_row m c
theorem e3_bm (c : Dev nD) : rowOf (E3 m c main_v3 : S1x256.Idx → EReal) = abm m c := by
  show rowOf (B3 m c (Proc.devRef .tc main_v3) : S1x256.Idx → EReal) = _
  rw [B3_main_v3]; exact bm_row m c

/-! ## The regions' results -/

/-- Region 0's first output is `hyper`. -/
theorem hyper_arr (c : Dev nD) :
    matOf ((dat0 (E1 m) c).arrAt 6 cfg0.N : S2000x256.Idx → EReal) = sHyper m c := by
  funext p q
  show ((dat0 (E1 m) c).arrAt 6 cfg0.N : S2000x256.Idx → EReal) (ix2 p q) = _
  rw [Hyper.hyper_at (E1 m) c p q, e1_hh, e1_x, e1_w1, e1_b1]
  rfl

/-- Region 0's second output is `z`. -/
theorem z_arr (c : Dev nD) :
    matOf ((dat0 (E1 m) c).arrAt 7 cfg0.N : S2000x256.Idx → EReal) = sZ m c := by
  funext p q
  show ((dat0 (E1 m) c).arrAt 7 cfg0.N : S2000x256.Idx → EReal) (ix2 p q) = _
  rw [Hyper.z_at (E1 m) c p q, e1_hh, e1_x, e1_w1, e1_b1, e1_w2, e1_b2]
  rfl

/-- Region 1's output is `relu(HG · z)`. -/
theorem hgnn_arr (c : Dev nD) :
    matOf ((dat1 (E2 m) c).arrAt 2 cfg1.N : S10000x256.Idx → EReal) = sHgnn m c := by
  funext p q
  show ((dat1 (E2 m) c).arrAt 2 cfg1.N : S10000x256.Idx → EReal) (ix2 p q) = _
  rw [Chunk.hgn_at (E2 m) c p q, e2_hgT]
  have hz : matOf (E2 m c main_v5_1 : S2000x256.Idx → EReal) = sZ m c := by
    show matOf (B2 m c (Proc.devRef .tc main_v5_1) : S2000x256.Idx → EReal) = _
    rw [B2_main_v5_1]; exact z_arr m c
  rw [hz]
  rfl

/-- Region 2's output is the fused rows, the three contractions added left to right. -/
theorem fused_arr (c : Dev nD) :
    matOf ((dat2 (E3 m) c).arrAt 7 cfg2.N : S10000x256.Idx → EReal)
      = fusedParts (aX m c) (sGnn m c) (sHgnn m c) (aWm m c) (abm m c) := by
  funext p q
  show ((dat2 (E3 m) c).arrAt 7 cfg2.N : S10000x256.Idx → EReal) (ix2 p q) = _
  rw [Fuse.fused_at (E3 m) c p q, e3_x, e3_gg, e3_wg, e3_wm, e3_bg, e3_bm]
  have hh : matOf (E3 m c main_v6 : S10000x256.Idx → EReal) = sHgnn m c := by
    show matOf (B3 m c (Proc.devRef .tc main_v6) : S10000x256.Idx → EReal) = _
    rw [B3_main_v6]; exact hgnn_arr m c
  rw [hh]
  rfl

/-! ## @main's two results -/

theorem result_hyper (c : Dev nD) :
    matOf (B4 m c (Proc.devRef .tc main_v5_0) : S2000x256.Idx → EReal) = sHyper m c := by
  rw [B4_main_v5_0]; exact hyper_arr m c

theorem result_fused (c : Dev nD) :
    matOf (B4 m c (Proc.devRef .tc main_v7) : S10000x256.Idx → EReal)
      = fusedParts (aX m c) (sGnn m c) (sHgnn m c) (aWm m c) (abm m c) := by
  rw [B4_main_v7]; exact fused_arr m c

end Cert.KernelIdeal.Whole

end
-- ==== Proof.RefRead.lean ====
import proofs.«169939_g28836410425910_retrytranche2_620_30_alg».proof.Defs
import proofs.«169939_g28836410425910_retrytranche2_620_30_alg».proof.Proof.Gen.ReferenceIdeal.Run
import proofs.«169939_g28836410425910_retrytranche2_620_30_alg».proof.Proof.Gen.ReferenceIdeal.Read
import proofs.«169939_g28836410425910_retrytranche2_620_30_alg».proof.Proof.SpecIdx
import Idealize.ShloMosaic.Lib.ValueIdx
import Idealize.ShloMosaic.Lib.Pipeline.Value
import Idealize.ShloMosaic.PureOps.Ideal.Laws

/-! The reference's results, read index by index at the exact (extended-real) instance.

  The reference program is a chain of three kinds of stages: a contraction of two matrices (a sum over the
  shared coordinate), a bias row added along every row, and a maximum with zero. Reading each stage at the
  index `(p, q)` turns the chain into the layer's formulas: every contraction reads its left operand along row `p`
  and its right operand down column `q`, a broadcast bias reads coordinate `q`, and the joined array
  `[x | gnn | hgnn]` reads one of its three blocks according to where the column falls among 0..255, 256..511,
  512..767. No sum is regrouped: both sides are the same sums in the same order. -/

noncomputable section

namespace Cert.ReferenceIdeal.RefRead

open Cert.Spec Idealize.ShloMosaic Idealize.ShloMosaic.ValueIdx Cert.ReferenceIdeal Cert.ReferenceIdeal.Read

/-! ## Where each stage reads its operands

A contraction's result at `(p, q)` reads the left operand at `(p, k)` and the right one at `(k, q)`; a bias
vector broadcast to a one-row matrix and then down the rows is read at `q`. -/

/-- The first projection `x · Wg`: left operand along row `p`. -/
theorem left_v0 (p : Fin 10000) (q : Fin 256) (k : Fin 256) : lidx_main_v0 (ix2 p q) k = ix2 p k :=
  funext fun a => Fin.ext (by match a with | ⟨0, _⟩ => rfl | ⟨1, _⟩ => rfl)
/-- The first projection: right operand down column `q`. -/
theorem right_v0 (p : Fin 10000) (q : Fin 256) (k : Fin 256) : ridx_main_v0 (ix2 p q) k = ix2 k q :=
  funext fun a => Fin.ext (by match a with | ⟨0, _⟩ => rfl | ⟨1, _⟩ => rfl)
/-- The bias `bg`, made a one-row matrix and repeated down the rows, is read at `q`. -/
theorem bias_v2 (p : Fin 10000) (q : Fin 256) : idx_main_v1 (idx_main_v2 (ix2 p q)) = ix1 q :=
  funext fun a => Fin.ext (by match a with | ⟨0, _⟩ => rfl)
/-- `GG · (…)`: row `p` of the 10000 × 10000 operator. -/
theorem left_v4 (p : Fin 10000) (q : Fin 256) (k : Fin 10000) : lidx_main_v4 (ix2 p q) k = ix2 p k :=
  funext fun a => Fin.ext (by match a with | ⟨0, _⟩ => rfl | ⟨1, _⟩ => rfl)
/-- `GG · (…)`: column `q` of the projected features. -/
theorem right_v4 (p : Fin 10000) (q : Fin 256) (k : Fin 10000) : ridx_main_v4 (ix2 p q) k = ix2 k q :=
  funext fun a => Fin.ext (by match a with | ⟨0, _⟩ => rfl | ⟨1, _⟩ => rfl)
/-- The second projection `x · W1`: left operand along row `p`. -/
theorem left_v6 (p : Fin 10000) (q : Fin 256) (k : Fin 256) : lidx_main_v6 (ix2 p q) k = ix2 p k :=
  funext fun a => Fin.ext (by match a with | ⟨0, _⟩ => rfl | ⟨1, _⟩ => rfl)
/-- The second projection: right operand down column `q`. -/
theorem right_v6 (p : Fin 10000) (q : Fin 256) (k : Fin 256) : ridx_main_v6 (ix2 p q) k = ix2 k q :=
  funext fun a => Fin.ext (by match a with | ⟨0, _⟩ => rfl | ⟨1, _⟩ => rfl)
/-- The bias `b1` is read at `q`. -/
theorem bias_v8 (p : Fin 10000) (q : Fin 256) : idx_main_v7 (idx_main_v8 (ix2 p q)) = ix1 q :=
  funext fun a => Fin.ext (by match a with | ⟨0, _⟩ => rfl)
/-- `HH · (…)`: row `p` of the 2000 × 10000 operator. -/
theorem left_v10 (p : Fin 2000) (q : Fin 256) (k : Fin 10000) : lidx_main_v10 (ix2 p q) k = ix2 p k :=
  funext fun a => Fin.ext (by match a with | ⟨0, _⟩ => rfl | ⟨1, _⟩ => rfl)
/-- `HH · (…)`: column `q` of the projected features. -/
theorem right_v10 (p : Fin 2000) (q : Fin 256) (k : Fin 10000) : ridx_main_v10 (ix2 p q) k = ix2 k q :=
  funext fun a => Fin.ext (by match a with | ⟨0, _⟩ => rfl | ⟨1, _⟩ => rfl)
/-- `hyper · W2`: row `p` of the hyperedge features. -/
theorem left_v12 (p : Fin 2000) (q : Fin 256) (k : Fin 256) : lidx_main_v12 (ix2 p q) k = ix2 p k :=
  funext fun a => Fin.ext (by match a with | ⟨0, _⟩ => rfl | ⟨1, _⟩ => rfl)
/-- `hyper · W2`: column `q` of `W2`. -/
theorem right_v12 (p : Fin 2000) (q : Fin 256) (k : Fin 256) : ridx_main_v12 (ix2 p q) k = ix2 k q :=
  funext fun a => Fin.ext (by match a with | ⟨0, _⟩ => rfl | ⟨1, _⟩ => rfl)
/-- The bias `b2` is read at `q`. -/
theorem bias_v14 (p : Fin 2000) (q : Fin 256) : idx_main_v13 (idx_main_v14 (ix2 p q)) = ix1 q :=
  funext fun a => Fin.ext (by match a with | ⟨0, _⟩ => rfl)
/-- `HG · z`: row `p` of the 10000 × 2000 operator. -/
theorem left_v16 (p : Fin 10000) (q : Fin 256) (k : Fin 2000) : lidx_main_v16 (ix2 p q) k = ix2 p k :=
  funext fun a => Fin.ext (by match a with | ⟨0, _⟩ => rfl | ⟨1, _⟩ => rfl)
/-- `HG · z`: column `q` of `z`. -/
theorem right_v16 (p : Fin 10000) (q : Fin 256) (k : Fin 2000) : ridx_main_v16 (ix2 p q) k = ix2 k q :=
  funext fun a => Fin.ext (by match a with | ⟨0, _⟩ => rfl | ⟨1, _⟩ => rfl)
/-- `[x | gnn | hgnn] · Wm`: row `p` of the joined array, all 768 columns. -/
theorem left_v19 (p : Fin 10000) (q : Fin 256) (k : Fin 768) : lidx_main_v19 (ix2 p q) k = ix2 p k :=
  funext fun a => Fin.ext (by match a with | ⟨0, _⟩ => rfl | ⟨1, _⟩ => rfl)
/-- `[x | gnn | hgnn] · Wm`: column `q` of `Wm`. -/
theorem right_v19 (p : Fin 10000) (q : Fin 256) (k : Fin 768) : ridx_main_v19 (ix2 p q) k = ix2 k q :=
  funext fun a => Fin.ext (by match a with | ⟨0, _⟩ => rfl | ⟨1, _⟩ => rfl)
/-- The bias `bm` is read at `q`. -/
theorem bias_v21 (p : Fin 10000) (q : Fin 256) : idx_main_v20 (idx_main_v21 (ix2 p q)) = ix1 q :=
  funext fun a => Fin.ext (by match a with | ⟨0, _⟩ => rfl)

/-! ## The stages, one reference intermediate at a time -/

/-- `x · Wg + bg` at `(p, q)`. -/
theorem proj_g (x0 : (⟨S10000x256, .f32⟩ : BufTy).Contents (Elt Ideal)) (x4 : (⟨S256x256, .f32⟩ : BufTy).Contents (Elt Ideal))
    (x5 : (⟨S256, .f32⟩ : BufTy).Contents (Elt Ideal)) (p : Fin 10000) (q : Fin 256) :
    val_main_v3 (F := Ideal) x0 x4 x5 (ix2 p q) = affine (matOf x0) (matOf x4) (vecOf x5) p q := by
  rw [val_main_v3_apply, val_main_v0_apply, val_main_v2_apply, val_main_v1_apply]
  simp only [left_v0, right_v0, bias_v2, Ideal.addf_def]
  rfl

/-- `x · W1 + b1` at `(p, q)`. -/
theorem proj_h (x0 : (⟨S10000x256, .f32⟩ : BufTy).Contents (Elt Ideal)) (x6 : (⟨S256x256, .f32⟩ : BufTy).Contents (Elt Ideal))
    (x7 : (⟨S256, .f32⟩ : BufTy).Contents (Elt Ideal)) (p : Fin 10000) (q : Fin 256) :
    val_main_v9 (F := Ideal) x0 x6 x7 (ix2 p q) = affine (matOf x0) (matOf x6) (vecOf x7) p q := by
  rw [val_main_v9_apply, val_main_v6_apply, val_main_v8_apply, val_main_v7_apply]
  simp only [left_v6, right_v6, bias_v8, Ideal.addf_def]
  rfl

/-- The zero that `relu` compares with, read at any index of the 10000 × 256 array (first use). -/
theorem zero_call0 (i : S10000x256.Idx) : val_main_call0_v0 (F := Ideal) i = 0 := by
  rw [val_main_call0_v0_apply, val_main_call0_cst_apply, Ideal.ofBits_def, Ideal.ofBits_zero_f32]

/-- The zero that `relu` compares with, read at any index of the 2000 × 256 array. -/
theorem zero_call1 (i : S2000x256.Idx) : val_main_call1_v0 (F := Ideal) i = 0 := by
  rw [val_main_call1_v0_apply, val_main_call1_cst_apply, Ideal.ofBits_def, Ideal.ofBits_zero_f32]

/-- The zero that `relu` compares with, read at any index of the 10000 × 256 array (second use). -/
theorem zero_call2 (i : S10000x256.Idx) : val_main_call2_v0 (F := Ideal) i = 0 := by
  rw [val_main_call2_v0_apply, val_main_call2_cst_apply, Ideal.ofBits_def, Ideal.ofBits_zero_f32]

/-- `gnn = relu(GG · (x · Wg + bg))` at `(p, q)`: a 10000-term contraction whose right operand is the first
    projection, read entry by entry. -/
theorem gnn_at (x0 : (⟨S10000x256, .f32⟩ : BufTy).Contents (Elt Ideal)) (x1 : (⟨S10000x10000, .f32⟩ : BufTy).Contents (Elt Ideal))
    (x4 : (⟨S256x256, .f32⟩ : BufTy).Contents (Elt Ideal)) (x5 : (⟨S256, .f32⟩ : BufTy).Contents (Elt Ideal))
    (p : Fin 10000) (q : Fin 256) :
    val_main_v5 (F := Ideal) x0 x1 x4 x5 (ix2 p q)
      = reluMul (matOf x1) (affine (matOf x0) (matOf x4) (vecOf x5)) p q := by
  rw [val_main_v5_apply, val_main_v4_apply, zero_call0]
  simp only [left_v4, right_v4, proj_g, Ideal.maximumf_def]
  rfl

/-- `hyper = relu(HH · (x · W1 + b1))` at `(p, q)`. -/
theorem hyper_at (x0 : (⟨S10000x256, .f32⟩ : BufTy).Contents (Elt Ideal)) (x2 : (⟨S2000x10000, .f32⟩ : BufTy).Contents (Elt Ideal))
    (x6 : (⟨S256x256, .f32⟩ : BufTy).Contents (Elt Ideal)) (x7 : (⟨S256, .f32⟩ : BufTy).Contents (Elt Ideal))
    (p : Fin 2000) (q : Fin 256) :
    val_main_v11 (F := Ideal) x0 x2 x6 x7 (ix2 p q)
      = reluMul (matOf x2) (affine (matOf x0) (matOf x6) (vecOf x7)) p q := by
  rw [val_main_v11_apply, val_main_v10_apply, zero_call1]
  simp only [left_v10, right_v10, proj_h, Ideal.maximumf_def]
  rfl

/-- `z = hyper · W2 + b2` at `(p, q)`. -/
theorem z_at (x0 : (⟨S10000x256, .f32⟩ : BufTy).Contents (Elt Ideal)) (x2 : (⟨S2000x10000, .f32⟩ : BufTy).Contents (Elt Ideal))
    (x6 : (⟨S256x256, .f32⟩ : BufTy).Contents (Elt Ideal)) (x7 : (⟨S256, .f32⟩ : BufTy).Contents (Elt Ideal))
    (x8 : (⟨S256x256, .f32⟩ : BufTy).Contents (Elt Ideal)) (x9 : (⟨S256, .f32⟩ : BufTy).Contents (Elt Ideal))
    (p : Fin 2000) (q : Fin 256) :
    val_main_v15 (F := Ideal) x0 x2 x6 x7 x8 x9 (ix2 p q)
      = affine (reluMul (matOf x2) (affine (matOf x0) (matOf x6) (vecOf x7))) (matOf x8) (vecOf x9) p q := by
  rw [val_main_v15_apply, val_main_v12_apply, val_main_v14_apply, val_main_v13_apply]
  simp only [left_v12, right_v12, bias_v14, hyper_at, Ideal.addf_def]
  rfl

/-- `hgnn = relu(HG · z)` at `(p, q)`. -/
theorem hgnn_at (x0 : (⟨S10000x256, .f32⟩ : BufTy).Contents (Elt Ideal)) (x2 : (⟨S2000x10000, .f32⟩ : BufTy).Contents (Elt Ideal))
    (x3 : (⟨S10000x2000, .f32⟩ : BufTy).Contents (Elt Ideal))
    (x6 : (⟨S256x256, .f32⟩ : BufTy).Contents (Elt Ideal)) (x7 : (⟨S256, .f32⟩ : BufTy).Contents (Elt Ideal))
    (x8 : (⟨S256x256, .f32⟩ : BufTy).Contents (Elt Ideal)) (x9 : (⟨S256, .f32⟩ : BufTy).Contents (Elt Ideal))
    (p : Fin 10000) (q : Fin 256) :
    val_main_v17 (F := Ideal) x0 x2 x3 x6 x7 x8 x9 (ix2 p q)
      = reluMul (matOf x3)
          (affine (reluMul (matOf x2) (affine (matOf x0) (matOf x6) (vecOf x7))) (matOf x8) (vecOf x9)) p q := by
  rw [val_main_v17_apply, val_main_v16_apply, zero_call2]
  simp only [left_v16, right_v16, z_at, Ideal.maximumf_def]
  rfl

/-! ## The joined array `[x | gnn | hgnn]` at an index

Three 256-column blocks laid side by side along the column axis: column `k` of the joined array is column `k` of
the first block when `k < 256`, column `k - 256` of the second when `256 ≤ k < 512`, and column `k - 512` of the
third otherwise; the row is unchanged. -/

/-- A column below 256 falls in the first block. -/
theorem join_first {α : Type} (A B C : S10000x256.Idx → α)
    (h : Shape.Concatenates [S10000x256, S10000x256, S10000x256] S10000x768 1)
    (p : Fin 10000) (k : Fin 768) (hk : k.val < 256) :
    concatenate S10000x768 1 [⟨S10000x256, A⟩, ⟨S10000x256, B⟩, ⟨S10000x256, C⟩] h (ix2 p k)
      = A (ix2 p ⟨k.val, hk⟩) :=
  concatenate_apply_piece (1 : Fin S10000x768.rank) [⟨S10000x256, A⟩, ⟨S10000x256, B⟩, ⟨S10000x256, C⟩] h (ix2 p k)
    0 (by show (0 : ℕ) < 3; omega) S10000x256 A rfl rfl 0 rfl (ix2 p ⟨k.val, hk⟩)
    (fun b hb => by match b with | ⟨0, _⟩ => rfl | ⟨1, _⟩ => exact absurd rfl hb)
    (by show 0 + k.val = k.val; omega)

/-- A column from 256 up to 511 falls in the second block, 256 columns further left. -/
theorem join_second {α : Type} (A B C : S10000x256.Idx → α)
    (h : Shape.Concatenates [S10000x256, S10000x256, S10000x256] S10000x768 1)
    (p : Fin 10000) (k : Fin 768) (hlo : 256 ≤ k.val) (hhi : k.val < 512) :
    concatenate S10000x768 1 [⟨S10000x256, A⟩, ⟨S10000x256, B⟩, ⟨S10000x256, C⟩] h (ix2 p k)
      = B (ix2 p ⟨k.val - 256, by omega⟩) :=
  concatenate_apply_piece (1 : Fin S10000x768.rank) [⟨S10000x256, A⟩, ⟨S10000x256, B⟩, ⟨S10000x256, C⟩] h (ix2 p k)
    1 (by show (1 : ℕ) < 3; omega) S10000x256 B rfl rfl 256 rfl (ix2 p ⟨k.val - 256, by omega⟩)
    (fun b hb => by match b with | ⟨0, _⟩ => rfl | ⟨1, _⟩ => exact absurd rfl hb)
    (by show 256 + (k.val - 256) = k.val; omega)

/-- A column from 512 on falls in the third block, 512 columns further left. -/
theorem join_third {α : Type} (A B C : S10000x256.Idx → α)
    (h : Shape.Concatenates [S10000x256, S10000x256, S10000x256] S10000x768 1)
    (p : Fin 10000) (k : Fin 768) (hlo : 512 ≤ k.val) :
    concatenate S10000x768 1 [⟨S10000x256, A⟩, ⟨S10000x256, B⟩, ⟨S10000x256, C⟩] h (ix2 p k)
      = C (ix2 p ⟨k.val - 512, by have := k.isLt; omega⟩) :=
  concatenate_apply_piece (1 : Fin S10000x768.rank) [⟨S10000x256, A⟩, ⟨S10000x256, B⟩, ⟨S10000x256, C⟩] h (ix2 p k)
    2 (by show (2 : ℕ) < 3; omega) S10000x256 C rfl rfl 512 rfl (ix2 p ⟨k.val - 512, by have := k.isLt; omega⟩)
    (fun b hb => by match b with | ⟨0, _⟩ => rfl | ⟨1, _⟩ => exact absurd rfl hb)
    (by show 512 + (k.val - 512) = k.val; omega)

/-- The reference's joined array at `(p, k)` is the specification's `[x | gnn | hgnn]`. -/
theorem joined_at (x0 : (⟨S10000x256, .f32⟩ : BufTy).Contents (Elt Ideal)) (x1 : (⟨S10000x10000, .f32⟩ : BufTy).Contents (Elt Ideal))
    (x2 : (⟨S2000x10000, .f32⟩ : BufTy).Contents (Elt Ideal)) (x3 : (⟨S10000x2000, .f32⟩ : BufTy).Contents (Elt Ideal))
    (x4 : (⟨S256x256, .f32⟩ : BufTy).Contents (Elt Ideal)) (x5 : (⟨S256, .f32⟩ : BufTy).Contents (Elt Ideal))
    (x6 : (⟨S256x256, .f32⟩ : BufTy).Contents (Elt Ideal)) (x7 : (⟨S256, .f32⟩ : BufTy).Contents (Elt Ideal))
    (x8 : (⟨S256x256, .f32⟩ : BufTy).Contents (Elt Ideal)) (x9 : (⟨S256, .f32⟩ : BufTy).Contents (Elt Ideal))
    (p : Fin 10000) (k : Fin 768) :
    val_main_v18 (F := Ideal) x0 x1 x2 x3 x4 x5 x6 x7 x8 x9 (ix2 p k)
      = cat3 (matOf x0)
          (reluMul (matOf x1) (affine (matOf x0) (matOf x4) (vecOf x5)))
          (reluMul (matOf x3) (affine (reluMul (matOf x2) (affine (matOf x0) (matOf x6) (vecOf x7))) (matOf x8) (vecOf x9)))
          p k := by
  unfold val_main_v18 cat3
  by_cases h1 : k.val < 256
  · rw [dif_pos h1]
    exact join_first _ _ _ _ p k h1
  · rw [dif_neg h1]
    by_cases h2 : k.val < 512
    · rw [dif_pos h2]
      exact (join_second _ _ _ _ p k (Nat.le_of_not_lt h1) h2).trans (gnn_at x0 x1 x4 x5 p _)
    · rw [dif_neg h2]
      exact (join_third _ _ _ _ p k (Nat.le_of_not_lt h2)).trans (hgnn_at x0 x2 x3 x6 x7 x8 x9 p _)

/-! ## The two results -/

/-- The reference's first result, `[x | gnn | hgnn] · Wm + bm`, at `(p, q)`. -/
theorem fused_ref (x0 : (⟨S10000x256, .f32⟩ : BufTy).Contents (Elt Ideal)) (x1 : (⟨S10000x10000, .f32⟩ : BufTy).Contents (Elt Ideal))
    (x2 : (⟨S2000x10000, .f32⟩ : BufTy).Contents (Elt Ideal)) (x3 : (⟨S10000x2000, .f32⟩ : BufTy).Contents (Elt Ideal))
    (x4 : (⟨S256x256, .f32⟩ : BufTy).Contents (Elt Ideal)) (x5 : (⟨S256, .f32⟩ : BufTy).Contents (Elt Ideal))
    (x6 : (⟨S256x256, .f32⟩ : BufTy).Contents (Elt Ideal)) (x7 : (⟨S256, .f32⟩ : BufTy).Contents (Elt Ideal))
    (x8 : (⟨S256x256, .f32⟩ : BufTy).Contents (Elt Ideal)) (x9 : (⟨S256, .f32⟩ : BufTy).Contents (Elt Ideal))
    (x10 : (⟨S768x256, .f32⟩ : BufTy).Contents (Elt Ideal)) (x11 : (⟨S256, .f32⟩ : BufTy).Contents (Elt Ideal))
    (p : Fin 10000) (q : Fin 256) :
    Read.val_main_v22 (F := Ideal) x0 x1 x2 x3 x4 x5 x6 x7 x8 x9 x10 x11 (ix2 p q)
      = fusedCat (matOf x0)
          (reluMul (matOf x1) (affine (matOf x0) (matOf x4) (vecOf x5)))
          (reluMul (matOf x3) (affine (reluMul (matOf x2) (affine (matOf x0) (matOf x6) (vecOf x7))) (matOf x8) (vecOf x9)))
          (matOf x10) (vecOf x11) p q := by
  rw [val_main_v22_apply, val_main_v19_apply, val_main_v21_apply, val_main_v20_apply]
  simp only [left_v19, right_v19, bias_v21, joined_at, Ideal.addf_def]
  rfl

/-- The reference's second result, `hyper`, at `(p, q)`. -/
theorem hyper_ref (x0 : (⟨S10000x256, .f32⟩ : BufTy).Contents (Elt Ideal)) (x2 : (⟨S2000x10000, .f32⟩ : BufTy).Contents (Elt Ideal))
    (x6 : (⟨S256x256, .f32⟩ : BufTy).Contents (Elt Ideal)) (x7 : (⟨S256, .f32⟩ : BufTy).Contents (Elt Ideal))
    (p : Fin 2000) (q : Fin 256) :
    Read.val_main_v11 (F := Ideal) x0 x2 x6 x7 (ix2 p q)
      = reluMul (matOf x2) (affine (matOf x0) (matOf x6) (vecOf x7)) p q :=
  hyper_at x0 x2 x6 x7 p q

end Cert.ReferenceIdeal.RefRead

end
-- ==== Proof.lean ====
/- The certificate of the road layer's kernel against its reference.

   The kernel program is a host stretch (four bias vectors made one-row matrices, HG transposed) and three kernel
   regions: (0) the projection x·W1 + b1 kept in a scratch buffer from the first grid point on, and at every point a
   200-row block of hyper = relu(HH·h0) and of z = hyper·W2 + b2; (1) HG·z as five 400-row chunks HGᵀ[chunk]ᵀ·z[chunk]
   added into a scratch accumulator, relu taken at the last point; (2) the projection x·Wg + bg kept in scratch, and at
   every point a 200-row block of x·Wm₀ + relu(GG·g0)·Wm₁ + hgnn·Wm₂ + bm. The reference computes the same layer with
   one 2000-term contraction for HG·z and one 768-term contraction of the joined matrix [x | gnn | hgnn] against Wm.

   FRAMES. Each region's proof data names what every staging buffer holds after the body at each point and carries the
   scratch's contents in the region's invariant; the body obligation is one run of the kernel function per control case.
   The three regions are chained through valuations of the unscoped buffers, and the run ends with every unscoped
   buffer at the last valuation: the arguments walk back unchanged to the launch memory. The same text, generic in the
   float instance, serves the word-level program and the idealized one. The reference's frame is its run read back.

   VALUE. At the exact instance a change of float format is the identity, so the kernel's blockwise results are, index
   by index, the layer's formulas over the extended reals; the two programs then differ only in how two sums are
   grouped (2000 = 5 × 400 added left to right; 768 = 256 + 256 + 256 added left to right), and addition of extended
   reals is commutative and associative. No finiteness is used: the precondition is never opened. -/
import proofs.«169939_g28836410425910_retrytranche2_620_30_alg».proof.Defs
import proofs.«169939_g28836410425910_retrytranche2_620_30_alg».proof.Proof.Gen.Kernel
import proofs.«169939_g28836410425910_retrytranche2_620_30_alg».proof.Proof.Gen.KernelIdeal
import proofs.«169939_g28836410425910_retrytranche2_620_30_alg».proof.Proof.Gen.ReferenceIdeal
import proofs.«169939_g28836410425910_retrytranche2_620_30_alg».proof.Proof.Gen.Pre_finite_inputs
import proofs.«169939_g28836410425910_retrytranche2_620_30_alg».proof.Proof.Bits.Run
import proofs.«169939_g28836410425910_retrytranche2_620_30_alg».proof.Proof.KernelValue
import proofs.«169939_g28836410425910_retrytranche2_620_30_alg».proof.Proof.RefRead
import Idealize.ShloMosaic.Adequacy
import Idealize.ShloMosaic.Init

noncomputable section

namespace Cert.Proof

open Idealize.ShloMosaic Idealize.ShloMosaic.TcCoe Idealize.SL.Sem Idealize.ShloMosaic.ValueIdx
open Cert.Spec

/-- The word-level program runs to the end and leaves its arguments as launched. -/
theorem frame_p : Cert.frame_Kernel := fun m ρ _ => Cert.Kernel.Whole.frame (F := Bits) m ρ

/-- So does the idealized program. -/
theorem frame_pi : Cert.frame_KernelIdeal := fun m ρ _ => Cert.KernelIdeal.Whole.frame (F := Ideal) m ρ

/-- The reference's frame is its run with the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- Both programs end with the same two results: `fused` and `hyper`, as the last valuation of the kernel's run
    holds them. The reference's `fused` is one 768-term contraction of the joined matrix; the kernel's is the three
    256-term contractions added left to right. -/
theorem algebraic : Cert.algebraic_KernelIdeal_ReferenceIdeal := by
  intro m ρ m' ρ' _ hagree
  refine ⟨fun c => Cert.KernelIdeal.Whole.B4 m c (Proc.devRef .tc Cert.KernelIdeal.main_v7),
    fun c => Cert.KernelIdeal.Whole.B4 m c (Proc.devRef .tc Cert.KernelIdeal.main_v5_0), ?_, ?_⟩
  · exact (θ_run Cert.KernelIdeal.defs _ _).mono (fun r h c =>
      ⟨h c _ (Cert.KernelIdeal.Whole.mem_uc Cert.KernelIdeal.main_v7 (by decide)),
        h c _ (Cert.KernelIdeal.Whole.mem_uc Cert.KernelIdeal.main_v5_0 (by decide)),
        (h c _ (Cert.KernelIdeal.Whole.mem_uc Cert.KernelIdeal.main_arg0 (by decide))).trans (Cert.KernelIdeal.Whole.B4_main_arg0 m c),
        (h c _ (Cert.KernelIdeal.Whole.mem_uc Cert.KernelIdeal.main_arg1 (by decide))).trans (Cert.KernelIdeal.Whole.B4_main_arg1 m c),
        (h c _ (Cert.KernelIdeal.Whole.mem_uc Cert.KernelIdeal.main_arg2 (by decide))).trans (Cert.KernelIdeal.Whole.B4_main_arg2 m c),
        (h c _ (Cert.KernelIdeal.Whole.mem_uc Cert.KernelIdeal.main_arg3 (by decide))).trans (Cert.KernelIdeal.Whole.B4_main_arg3 m c),
        (h c _ (Cert.KernelIdeal.Whole.mem_uc Cert.KernelIdeal.main_arg4 (by decide))).trans (Cert.KernelIdeal.Whole.B4_main_arg4 m c),
        (h c _ (Cert.KernelIdeal.Whole.mem_uc Cert.KernelIdeal.main_arg5 (by decide))).trans (Cert.KernelIdeal.Whole.B4_main_arg5 m c),
        (h c _ (Cert.KernelIdeal.Whole.mem_uc Cert.KernelIdeal.main_arg6 (by decide))).trans (Cert.KernelIdeal.Whole.B4_main_arg6 m c),
        (h c _ (Cert.KernelIdeal.Whole.mem_uc Cert.KernelIdeal.main_arg7 (by decide))).trans (Cert.KernelIdeal.Whole.B4_main_arg7 m c),
        (h c _ (Cert.KernelIdeal.Whole.mem_uc Cert.KernelIdeal.main_arg8 (by decide))).trans (Cert.KernelIdeal.Whole.B4_main_arg8 m c),
        (h c _ (Cert.KernelIdeal.Whole.mem_uc Cert.KernelIdeal.main_arg9 (by decide))).trans (Cert.KernelIdeal.Whole.B4_main_arg9 m c),
        (h c _ (Cert.KernelIdeal.Whole.mem_uc Cert.KernelIdeal.main_arg10 (by decide))).trans (Cert.KernelIdeal.Whole.B4_main_arg10 m c),
        (h c _ (Cert.KernelIdeal.Whole.mem_uc Cert.KernelIdeal.main_arg11 (by decide))).trans (Cert.KernelIdeal.Whole.B4_main_arg11 m c)⟩)
      (Cert.KernelIdeal.Whole.run_bufs m ρ)
  · refine (θ_run Cert.ReferenceIdeal.defs _ _).mono (fun r h c => ⟨?_, ?_, (h c).2.2⟩)
      (Cert.ReferenceIdeal.Value.run (F := Ideal) m' ρ')
    · refine (h c).1.trans ((Cert.ReferenceIdeal.Read.val_main_v22_eq _ _ _ _ _ _ _ _ _ _ _ _).trans ?_)
      funext i
      obtain ⟨p, q, rfl⟩ : ∃ (p : Fin 10000) (q : Fin 256), i = ix2 p q := ⟨i 0, i 1, eq_ix2 i⟩
      rw [Cert.ReferenceIdeal.RefRead.fused_ref, fusedCat_eq_parts, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2]
      exact (congrFun (congrFun (Cert.KernelIdeal.Whole.result_fused m c) p) q).symm
    · refine (h c).2.1.trans ((Cert.ReferenceIdeal.Read.val_main_v11_eq _ _ _ _).trans ?_)
      funext i
      obtain ⟨p, q, rfl⟩ : ∃ (p : Fin 2000) (q : Fin 256), i = ix2 p q := ⟨i 0, i 1, eq_ix2 i⟩
      rw [Cert.ReferenceIdeal.RefRead.hyper_ref, (hagree c).1, (hagree c).2.2.1, (hagree c).2.2.2.2.2.2.1, (hagree c).2.2.2.2.2.2.2.1]
      exact (congrFun (congrFun (Cert.KernelIdeal.Whole.result_hyper m c) p) q).symm

theorem claim : Cert.Claim :=
  ⟨Cert.Kernel.Gen.facts, Cert.KernelIdeal.Gen.facts, Cert.ReferenceIdeal.Gen.facts, Cert.Pre_finite_inputs.Gen.facts,
    frame_p, frame_pi, frame_ri, trivial, algebraic⟩

end Cert.Proof

end
